-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x16 : Shape := ⟨2, ![4194304, 16]⟩
abbrev S16x32768 : Shape := ⟨2, ![16, 32768]⟩
abbrev S_ : Shape := ⟨0, ![]⟩

class Facts : Prop where
  bcast_S_S16x32768 : S_.BroadcastsInDim S16x32768 (![] : Fin 0 → Fin S16x32768.rank)
  reducesTo_S16x32768_S_d0_1 : S16x32768.ReducesTo [0, 1] S_
  h_S_ : 0 < S_.numel
  bcast_S_S4194304x16 : S_.BroadcastsInDim S4194304x16 (![] : Fin 0 → Fin S4194304x16.rank)
  reducesTo_S4194304x16_S_d0_1 : S4194304x16.ReducesTo [0, 1] S_

variable [Facts]

def fn {F : FTy → Type} [FloatOps F] (main_arg0 : IVec S4194304x16 32) (main_arg1 : FVec F S16x32768 .f32) : IVec S_ 1 :=
  let main_v0 : FVec F S16x32768 .f32 := Host.absf main_arg1
  let main_cst : FVec F S_ .f32 := constant S_ .f32 0x7F800000#32
  let main_v1 : FVec F S16x32768 .f32 := broadcastInDim S16x32768 ![] bcast_S_S16x32768 main_cst
  let main_v2 : IVec S16x32768 1 := cmpf .olt main_v0 main_v1
  let main_c : IVec S_ 1 := constantI S_ 1 1#1
  let main_v3 : IVec S_ 1 := (fun x v => Host.reduce IntOp.andi x v reducesTo_S16x32768_S_d0_1 h_S_) main_v2 main_c
  let main_c_0 : IVec S_ 32 := constantI S_ 32 0#32
  let main_v4 : IVec S4194304x16 32 := broadcastInDim S4194304x16 ![] bcast_S_S4194304x16 main_c_0
  let main_v5 : IVec S4194304x16 1 := cmpi .sge main_arg0 main_v4
  let main_c_1 : IVec S_ 32 := constantI S_ 32 1#32
  let main_v6 : IVec S4194304x16 32 := broadcastInDim S4194304x16 ![] bcast_S_S4194304x16 main_c_1
  let main_v7 : IVec S4194304x16 1 := cmpi .sle main_arg0 main_v6
  let main_v8 : IVec S4194304x16 1 := andi main_v5 main_v7
  let main_c_2 : IVec S_ 1 := constantI S_ 1 1#1
  let main_v9 : IVec S_ 1 := (fun x v => Host.reduce IntOp.andi x v reducesTo_S4194304x16_S_d0_1 h_S_) main_v8 main_c_2
  let main_v10 : IVec S_ 1 := andi main_v3 main_v9
  main_v10
-- ==== Kernel.lean ====
abbrev S4194304x16 : Shape := ⟨2, ![4194304, 16]⟩
abbrev S16x32768 : Shape := ⟨2, ![16, 32768]⟩
abbrev S1x256 : Shape := ⟨2, ![1, 256]⟩
abbrev S256 : Shape := ⟨1, ![256]⟩
abbrev S256x1 : Shape := ⟨2, ![256, 1]⟩
abbrev S1x128 : Shape := ⟨2, ![1, 128]⟩
abbrev S128 : Shape := ⟨1, ![128]⟩
abbrev S2x128 : Shape := ⟨2, ![2, 128]⟩
abbrev S1x64 : Shape := ⟨2, ![1, 64]⟩
abbrev S64 : Shape := ⟨1, ![64]⟩
abbrev S4x64 : Shape := ⟨2, ![4, 64]⟩
abbrev S1x32 : Shape := ⟨2, ![1, 32]⟩
abbrev S32 : Shape := ⟨1, ![32]⟩
abbrev S8x32 : Shape := ⟨2, ![8, 32]⟩
abbrev S1x16 : Shape := ⟨2, ![1, 16]⟩
abbrev S16 : Shape := ⟨1, ![16]⟩
abbrev S16x16 : Shape := ⟨2, ![16, 16]⟩
abbrev S1x8 : Shape := ⟨2, ![1, 8]⟩
abbrev S8 : Shape := ⟨1, ![8]⟩
abbrev S32x8 : Shape := ⟨2, ![32, 8]⟩
abbrev S1x4 : Shape := ⟨2, ![1, 4]⟩
abbrev S4 : Shape := ⟨1, ![4]⟩
abbrev S64x4 : Shape := ⟨2, ![64, 4]⟩
abbrev S1x2 : Shape := ⟨2, ![1, 2]⟩
abbrev S2 : Shape := ⟨1, ![2]⟩
abbrev S128x2 : Shape := ⟨2, ![128, 2]⟩
abbrev S1x1 : Shape := ⟨2, ![1, 1]⟩
abbrev S1 : Shape := ⟨1, ![1]⟩
abbrev S256x9 : Shape := ⟨2, ![256, 9]⟩
abbrev S1x32768 : Shape := ⟨2, ![1, 32768]⟩
abbrev S32768 : Shape := ⟨1, ![32768]⟩
abbrev S128x256 : Shape := ⟨2, ![128, 256]⟩
abbrev S256x128 : Shape := ⟨2, ![256, 128]⟩
abbrev S1x16384 : Shape := ⟨2, ![1, 16384]⟩
abbrev S16384 : Shape := ⟨1, ![16384]⟩
abbrev S64x256 : Shape := ⟨2, ![64, 256]⟩
abbrev S256x64 : Shape := ⟨2, ![256, 64]⟩
abbrev S1x8192 : Shape := ⟨2, ![1, 8192]⟩
abbrev S8192 : Shape := ⟨1, ![8192]⟩
abbrev S32x256 : Shape := ⟨2, ![32, 256]⟩
abbrev S256x32 : Shape := ⟨2, ![256, 32]⟩
abbrev S1x4096 : Shape := ⟨2, ![1, 4096]⟩
abbrev S4096 : Shape := ⟨1, ![4096]⟩
abbrev S16x256 : Shape := ⟨2, ![16, 256]⟩
abbrev S256x16 : Shape := ⟨2, ![256, 16]⟩
abbrev S1x2048 : Shape := ⟨2, ![1, 2048]⟩
abbrev S2048 : Shape := ⟨1, ![2048]⟩
abbrev S8x256 : Shape := ⟨2, ![8, 256]⟩
abbrev S256x8 : Shape := ⟨2, ![256, 8]⟩
abbrev S1x1024 : Shape := ⟨2, ![1, 1024]⟩
abbrev S1024 : Shape := ⟨1, ![1024]⟩
abbrev S4x256 : Shape := ⟨2, ![4, 256]⟩
abbrev S256x4 : Shape := ⟨2, ![256, 4]⟩
abbrev S1x512 : Shape := ⟨2, ![1, 512]⟩
abbrev S512 : Shape := ⟨1, ![512]⟩
abbrev S2x256 : Shape := ⟨2, ![2, 256]⟩
abbrev S256x2 : Shape := ⟨2, ![256, 2]⟩
abbrev S256x254 : Shape := ⟨2, ![256, 254]⟩
abbrev S256x263 : Shape := ⟨2, ![256, 263]⟩
abbrev S_ : Shape := ⟨0, ![]⟩
abbrev S256x384 : Shape := ⟨2, ![256, 384]⟩
abbrev S2048x16 : Shape := ⟨2, ![2048, 16]⟩
abbrev S2048x1 : Shape := ⟨2, ![2048, 1]⟩
abbrev S2048x256 : Shape := ⟨2, ![2048, 256]⟩
abbrev S2048x384 : Shape := ⟨2, ![2048, 384]⟩
abbrev S2048x9 : Shape := ⟨2, ![2048, 9]⟩
abbrev S2048x128 : Shape := ⟨2, ![2048, 128]⟩
abbrev S2048x64 : Shape := ⟨2, ![2048, 64]⟩
abbrev S2048x32 : Shape := ⟨2, ![2048, 32]⟩
abbrev S2048x8 : Shape := ⟨2, ![2048, 8]⟩
abbrev S2048x4 : Shape := ⟨2, ![2048, 4]⟩
abbrev S2048x2 : Shape := ⟨2, ![2048, 2]⟩
abbrev S2048x7 : Shape := ⟨2, ![2048, 7]⟩

abbrev nBuf : Space → Nat
  | .hbm => 92
  | .vmem => 5
  | .smem => 0
  | _ => 0

abbrev bufTy : (tb : Table) → Fin (tcTables nBuf tb) → BufTy
  | .hbm, ⟨0, _⟩ => ⟨S4194304x16, .i32⟩
  | .hbm, ⟨1, _⟩ => ⟨S16x32768, .f32⟩
  | .hbm, ⟨2, _⟩ => ⟨S1x256, .f32⟩
  | .hbm, ⟨3, _⟩ => ⟨S256, .f32⟩
  | .hbm, ⟨4, _⟩ => ⟨S1x256, .f32⟩
  | .hbm, ⟨5, _⟩ => ⟨S1x256, .f32⟩
  | .hbm, ⟨6, _⟩ => ⟨S256, .f32⟩
  | .hbm, ⟨7, _⟩ => ⟨S256x1, .f32⟩
  | .hbm, ⟨8, _⟩ => ⟨S1x128, .f32⟩
  | .hbm, ⟨9, _⟩ => ⟨S128, .f32⟩
  | .hbm, ⟨10, _⟩ => ⟨S1x128, .f32⟩
  | .hbm, ⟨11, _⟩ => ⟨S2x128, .f32⟩
  | .hbm, ⟨12, _⟩ => ⟨S256, .f32⟩
  | .hbm, ⟨13, _⟩ => ⟨S256x1, .f32⟩
  | .hbm, ⟨14, _⟩ => ⟨S1x64, .f32⟩
  | .hbm, ⟨15, _⟩ => ⟨S64, .f32⟩
  | .hbm, ⟨16, _⟩ => ⟨S1x64, .f32⟩
  | .hbm, ⟨17, _⟩ => ⟨S4x64, .f32⟩
  | .hbm, ⟨18, _⟩ => ⟨S256, .f32⟩
  | .hbm, ⟨19, _⟩ => ⟨S256x1, .f32⟩
  | .hbm, ⟨20, _⟩ => ⟨S1x32, .f32⟩
  | .hbm, ⟨21, _⟩ => ⟨S32, .f32⟩
  | .hbm, ⟨22, _⟩ => ⟨S1x32, .f32⟩
  | .hbm, ⟨23, _⟩ => ⟨S8x32, .f32⟩
  | .hbm, ⟨24, _⟩ => ⟨S256, .f32⟩
  | .hbm, ⟨25, _⟩ => ⟨S256x1, .f32⟩
  | .hbm, ⟨26, _⟩ => ⟨S1x16, .f32⟩
  | .hbm, ⟨27, _⟩ => ⟨S16, .f32⟩
  | .hbm, ⟨28, _⟩ => ⟨S1x16, .f32⟩
  | .hbm, ⟨29, _⟩ => ⟨S16x16, .f32⟩
  | .hbm, ⟨30, _⟩ => ⟨S256, .f32⟩
  | .hbm, ⟨31, _⟩ => ⟨S256x1, .f32⟩
  | .hbm, ⟨32, _⟩ => ⟨S1x8, .f32⟩
  | .hbm, ⟨33, _⟩ => ⟨S8, .f32⟩
  | .hbm, ⟨34, _⟩ => ⟨S1x8, .f32⟩
  | .hbm, ⟨35, _⟩ => ⟨S32x8, .f32⟩
  | .hbm, ⟨36, _⟩ => ⟨S256, .f32⟩
  | .hbm, ⟨37, _⟩ => ⟨S256x1, .f32⟩
  | .hbm, ⟨38, _⟩ => ⟨S1x4, .f32⟩
  | .hbm, ⟨39, _⟩ => ⟨S4, .f32⟩
  | .hbm, ⟨40, _⟩ => ⟨S1x4, .f32⟩
  | .hbm, ⟨41, _⟩ => ⟨S64x4, .f32⟩
  | .hbm, ⟨42, _⟩ => ⟨S256, .f32⟩
  | .hbm, ⟨43, _⟩ => ⟨S256x1, .f32⟩
  | .hbm, ⟨44, _⟩ => ⟨S1x2, .f32⟩
  | .hbm, ⟨45, _⟩ => ⟨S2, .f32⟩
  | .hbm, ⟨46, _⟩ => ⟨S1x2, .f32⟩
  | .hbm, ⟨47, _⟩ => ⟨S128x2, .f32⟩
  | .hbm, ⟨48, _⟩ => ⟨S256, .f32⟩
  | .hbm, ⟨49, _⟩ => ⟨S256x1, .f32⟩
  | .hbm, ⟨50, _⟩ => ⟨S1x1, .f32⟩
  | .hbm, ⟨51, _⟩ => ⟨S1, .f32⟩
  | .hbm, ⟨52, _⟩ => ⟨S1x1, .f32⟩
  | .hbm, ⟨53, _⟩ => ⟨S256x1, .f32⟩
  | .hbm, ⟨54, _⟩ => ⟨S256, .f32⟩
  | .hbm, ⟨55, _⟩ => ⟨S256x1, .f32⟩
  | .hbm, ⟨56, _⟩ => ⟨S256x9, .f32⟩
  | .hbm, ⟨57, _⟩ => ⟨S1x32768, .f32⟩
  | .hbm, ⟨58, _⟩ => ⟨S32768, .f32⟩
  | .hbm, ⟨59, _⟩ => ⟨S128x256, .f32⟩
  | .hbm, ⟨60, _⟩ => ⟨S256x128, .f32⟩
  | .hbm, ⟨61, _⟩ => ⟨S1x16384, .f32⟩
  | .hbm, ⟨62, _⟩ => ⟨S16384, .f32⟩
  | .hbm, ⟨63, _⟩ => ⟨S64x256, .f32⟩
  | .hbm, ⟨64, _⟩ => ⟨S256x64, .f32⟩
  | .hbm, ⟨65, _⟩ => ⟨S1x8192, .f32⟩
  | .hbm, ⟨66, _⟩ => ⟨S8192, .f32⟩
  | .hbm, ⟨67, _⟩ => ⟨S32x256, .f32⟩
  | .hbm, ⟨68, _⟩ => ⟨S256x32, .f32⟩
  | .hbm, ⟨69, _⟩ => ⟨S1x4096, .f32⟩
  | .hbm, ⟨70, _⟩ => ⟨S4096, .f32⟩
  | .hbm, ⟨71, _⟩ => ⟨S16x256, .f32⟩
  | .hbm, ⟨72, _⟩ => ⟨S256x16, .f32⟩
  | .hbm, ⟨73, _⟩ => ⟨S1x2048, .f32⟩
  | .hbm, ⟨74, _⟩ => ⟨S2048, .f32⟩
  | .hbm, ⟨75, _⟩ => ⟨S8x256, .f32⟩
  | .hbm, ⟨76, _⟩ => ⟨S256x8, .f32⟩
  | .hbm, ⟨77, _⟩ => ⟨S1x1024, .f32⟩
  | .hbm, ⟨78, _⟩ => ⟨S1024, .f32⟩
  | .hbm, ⟨79, _⟩ => ⟨S4x256, .f32⟩
  | .hbm, ⟨80, _⟩ => ⟨S256x4, .f32⟩
  | .hbm, ⟨81, _⟩ => ⟨S1x512, .f32⟩
  | .hbm, ⟨82, _⟩ => ⟨S512, .f32⟩
  | .hbm, ⟨83, _⟩ => ⟨S2x256, .f32⟩
  | .hbm, ⟨84, _⟩ => ⟨S256x2, .f32⟩
  | .hbm, ⟨85, _⟩ => ⟨S256x254, .f32⟩
  | .hbm, ⟨86, _⟩ => ⟨S256x263, .f32⟩
  | .hbm, ⟨87, _⟩ => ⟨S_, .i32⟩
  | .hbm, ⟨88, _⟩ => ⟨S_, .f32⟩
  | .hbm, ⟨89, _⟩ => ⟨S256x384, .f32⟩
  | .hbm, ⟨90, _⟩ => ⟨S256x384, .bf16⟩
  | .hbm, ⟨91, _⟩ => ⟨S4194304x16, .f32⟩
  | .local _ .vmem, ⟨0, _⟩ => ⟨S2048x16, .i32⟩
  | .local _ .vmem, ⟨1, _⟩ => ⟨S2048x16, .i32⟩
  | .local _ .vmem, ⟨2, _⟩ => ⟨S256x384, .bf16⟩
  | .local _ .vmem, ⟨3, _⟩ => ⟨S2048x16, .f32⟩
  | .local _ .vmem, ⟨4, _⟩ => ⟨S2048x16, .f32⟩
  | _, _ => ⟨S4194304x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_v47 : Ref sig .tc := ⟨.hbm, 49, rfl⟩
abbrev main_v48 : Ref sig .tc := ⟨.hbm, 50, rfl⟩
abbrev main_v49 : Ref sig .tc := ⟨.hbm, 51, rfl⟩
abbrev main_v50 : Ref sig .tc := ⟨.hbm, 52, rfl⟩
abbrev main_v51 : Ref sig .tc := ⟨.hbm, 53, rfl⟩
abbrev main_v52 : Ref sig .tc := ⟨.hbm, 54, rfl⟩
abbrev main_v53 : Ref sig .tc := ⟨.hbm, 55, rfl⟩
abbrev main_v54 : Ref sig .tc := ⟨.hbm, 56, rfl⟩
abbrev main_v55 : Ref sig .tc := ⟨.hbm, 57, rfl⟩
abbrev main_v56 : Ref sig .tc := ⟨.hbm, 58, rfl⟩
abbrev main_v57 : Ref sig .tc := ⟨.hbm, 59, rfl⟩
abbrev main_v58 : Ref sig .tc := ⟨.hbm, 60, rfl⟩
abbrev main_v59 : Ref sig .tc := ⟨.hbm, 61, rfl⟩
abbrev main_v60 : Ref sig .tc := ⟨.hbm, 62, rfl⟩
abbrev main_v61 : Ref sig .tc := ⟨.hbm, 63, rfl⟩
abbrev main_v62 : Ref sig .tc := ⟨.hbm, 64, rfl⟩
abbrev main_v63 : Ref sig .tc := ⟨.hbm, 65, rfl⟩
abbrev main_v64 : Ref sig .tc := ⟨.hbm, 66, rfl⟩
abbrev main_v65 : Ref sig .tc := ⟨.hbm, 67, rfl⟩
abbrev main_v66 : Ref sig .tc := ⟨.hbm, 68, rfl⟩
abbrev main_v67 : Ref sig .tc := ⟨.hbm, 69, rfl⟩
abbrev main_v68 : Ref sig .tc := ⟨.hbm, 70, rfl⟩
abbrev main_v69 : Ref sig .tc := ⟨.hbm, 71, rfl⟩
abbrev main_v70 : Ref sig .tc := ⟨.hbm, 72, rfl⟩
abbrev main_v71 : Ref sig .tc := ⟨.hbm, 73, rfl⟩
abbrev main_v72 : Ref sig .tc := ⟨.hbm, 74, rfl⟩
abbrev main_v73 : Ref sig .tc := ⟨.hbm, 75, rfl⟩
abbrev main_v74 : Ref sig .tc := ⟨.hbm, 76, rfl⟩
abbrev main_v75 : Ref sig .tc := ⟨.hbm, 77, rfl⟩
abbrev main_v76 : Ref sig .tc := ⟨.hbm, 78, rfl⟩
abbrev main_v77 : Ref sig .tc := ⟨.hbm, 79, rfl⟩
abbrev main_v78 : Ref sig .tc := ⟨.hbm, 80, rfl⟩
abbrev main_v79 : Ref sig .tc := ⟨.hbm, 81, rfl⟩
abbrev main_v80 : Ref sig .tc := ⟨.hbm, 82, rfl⟩
abbrev main_v81 : Ref sig .tc := ⟨.hbm, 83, rfl⟩
abbrev main_v82 : Ref sig .tc := ⟨.hbm, 84, rfl⟩
abbrev main_v83 : Ref sig .tc := ⟨.hbm, 85, rfl⟩
abbrev main_v84 : Ref sig .tc := ⟨.hbm, 86, rfl⟩
abbrev main_c : Ref sig .tc := ⟨.hbm, 87, rfl⟩
abbrev main_call0_v0 : Ref sig .tc := ⟨.hbm, 88, rfl⟩
abbrev main_v85 : Ref sig .tc := ⟨.hbm, 89, rfl⟩
abbrev main_v86 : Ref sig .tc := ⟨.hbm, 90, rfl⟩
abbrev main_v87 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x16 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S16x32768_S1x256_8_0 : S16x32768.Slices ![8, 0] S1x256
  shapeCasts_S1x256_S256 : S1x256.ShapeCasts S256
  shapeCasts_S256_S1x256 : S256.ShapeCasts S1x256
  bcast_S1x256_S1x256_0_1 : S1x256.BroadcastsInDim S1x256 (![0, 1] : Fin 2 → Fin S1x256.rank)
  bcast_S256_S256x1_0 : S256.BroadcastsInDim S256x1 (![0] : Fin 1 → Fin S256x1.rank)
  slices_S16x32768_S1x128_7_0 : S16x32768.Slices ![7, 0] S1x128
  shapeCasts_S1x128_S128 : S1x128.ShapeCasts S128
  shapeCasts_S128_S1x128 : S128.ShapeCasts S1x128
  bcast_S1x128_S2x128_0_1 : S1x128.BroadcastsInDim S2x128 (![0, 1] : Fin 2 → Fin S2x128.rank)
  shapeCasts_S2x128_S256 : S2x128.ShapeCasts S256
  slices_S16x32768_S1x64_6_0 : S16x32768.Slices ![6, 0] S1x64
  shapeCasts_S1x64_S64 : S1x64.ShapeCasts S64
  shapeCasts_S64_S1x64 : S64.ShapeCasts S1x64
  bcast_S1x64_S4x64_0_1 : S1x64.BroadcastsInDim S4x64 (![0, 1] : Fin 2 → Fin S4x64.rank)
  shapeCasts_S4x64_S256 : S4x64.ShapeCasts S256
  slices_S16x32768_S1x32_5_0 : S16x32768.Slices ![5, 0] S1x32
  shapeCasts_S1x32_S32 : S1x32.ShapeCasts S32
  shapeCasts_S32_S1x32 : S32.ShapeCasts S1x32
  bcast_S1x32_S8x32_0_1 : S1x32.BroadcastsInDim S8x32 (![0, 1] : Fin 2 → Fin S8x32.rank)
  shapeCasts_S8x32_S256 : S8x32.ShapeCasts S256
  slices_S16x32768_S1x16_4_0 : S16x32768.Slices ![4, 0] S1x16
  shapeCasts_S1x16_S16 : S1x16.ShapeCasts S16
  shapeCasts_S16_S1x16 : S16.ShapeCasts S1x16
  bcast_S1x16_S16x16_0_1 : S1x16.BroadcastsInDim S16x16 (![0, 1] : Fin 2 → Fin S16x16.rank)
  shapeCasts_S16x16_S256 : S16x16.ShapeCasts S256
  slices_S16x32768_S1x8_3_0 : S16x32768.Slices ![3, 0] S1x8
  shapeCasts_S1x8_S8 : S1x8.ShapeCasts S8
  shapeCasts_S8_S1x8 : S8.ShapeCasts S1x8
  bcast_S1x8_S32x8_0_1 : S1x8.BroadcastsInDim S32x8 (![0, 1] : Fin 2 → Fin S32x8.rank)
  shapeCasts_S32x8_S256 : S32x8.ShapeCasts S256
  slices_S16x32768_S1x4_2_0 : S16x32768.Slices ![2, 0] S1x4
  shapeCasts_S1x4_S4 : S1x4.ShapeCasts S4
  shapeCasts_S4_S1x4 : S4.ShapeCasts S1x4
  bcast_S1x4_S64x4_0_1 : S1x4.BroadcastsInDim S64x4 (![0, 1] : Fin 2 → Fin S64x4.rank)
  shapeCasts_S64x4_S256 : S64x4.ShapeCasts S256
  slices_S16x32768_S1x2_1_0 : S16x32768.Slices ![1, 0] S1x2
  shapeCasts_S1x2_S2 : S1x2.ShapeCasts S2
  shapeCasts_S2_S1x2 : S2.ShapeCasts S1x2
  bcast_S1x2_S128x2_0_1 : S1x2.BroadcastsInDim S128x2 (![0, 1] : Fin 2 → Fin S128x2.rank)
  shapeCasts_S128x2_S256 : S128x2.ShapeCasts S256
  slices_S16x32768_S1x1_0_0 : S16x32768.Slices ![0, 0] S1x1
  shapeCasts_S1x1_S1 : S1x1.ShapeCasts S1
  shapeCasts_S1_S1x1 : S1.ShapeCasts S1x1
  bcast_S1x1_S256x1_0_1 : S1x1.BroadcastsInDim S256x1 (![0, 1] : Fin 2 → Fin S256x1.rank)
  shapeCasts_S256x1_S256 : S256x1.ShapeCasts S256
  concatenates_S256x1_S256x1_S256x1_S256x1_S256x1_S256x1_S256x1_S256x1_S256x1_S256x9_d1 : Shape.Concatenates [S256x1, S256x1, S256x1, S256x1, S256x1, S256x1, S256x1, S256x1, S256x1] S256x9 1
  slices_S16x32768_S1x32768_15_0 : S16x32768.Slices ![15, 0] S1x32768
  shapeCasts_S1x32768_S32768 : S1x32768.ShapeCasts S32768
  shapeCasts_S32768_S128x256 : S32768.ShapeCasts S128x256
  transposes_S128x256_S256x128_1_0 : S128x256.Transposes [1, 0] S256x128
  slices_S16x32768_S1x16384_14_0 : S16x32768.Slices ![14, 0] S1x16384
  shapeCasts_S1x16384_S16384 : S1x16384.ShapeCasts S16384
  shapeCasts_S16384_S64x256 : S16384.ShapeCasts S64x256
  transposes_S64x256_S256x64_1_0 : S64x256.Transposes [1, 0] S256x64
  slices_S16x32768_S1x8192_13_0 : S16x32768.Slices ![13, 0] S1x8192
  shapeCasts_S1x8192_S8192 : S1x8192.ShapeCasts S8192
  shapeCasts_S8192_S32x256 : S8192.ShapeCasts S32x256
  transposes_S32x256_S256x32_1_0 : S32x256.Transposes [1, 0] S256x32
  slices_S16x32768_S1x4096_12_0 : S16x32768.Slices ![12, 0] S1x4096
  shapeCasts_S1x4096_S4096 : S1x4096.ShapeCasts S4096
  shapeCasts_S4096_S16x256 : S4096.ShapeCasts S16x256
  transposes_S16x256_S256x16_1_0 : S16x256.Transposes [1, 0] S256x16
  slices_S16x32768_S1x2048_11_0 : S16x32768.Slices ![11, 0] S1x2048
  shapeCasts_S1x2048_S2048 : S1x2048.ShapeCasts S2048
  shapeCasts_S2048_S8x256 : S2048.ShapeCasts S8x256
  transposes_S8x256_S256x8_1_0 : S8x256.Transposes [1, 0] S256x8
  slices_S16x32768_S1x1024_10_0 : S16x32768.Slices ![10, 0] S1x1024
  shapeCasts_S1x1024_S1024 : S1x1024.ShapeCasts S1024
  shapeCasts_S1024_S4x256 : S1024.ShapeCasts S4x256
  transposes_S4x256_S256x4_1_0 : S4x256.Transposes [1, 0] S256x4
  slices_S16x32768_S1x512_9_0 : S16x32768.Slices ![9, 0] S1x512
  shapeCasts_S1x512_S512 : S1x512.ShapeCasts S512
  shapeCasts_S512_S2x256 : S512.ShapeCasts S2x256
  transposes_S2x256_S256x2_1_0 : S2x256.Transposes [1, 0] S256x2
  concatenates_S256x128_S256x64_S256x32_S256x16_S256x8_S256x4_S256x2_S256x254_d1 : Shape.Concatenates [S256x128, S256x64, S256x32, S256x16, S256x8, S256x4, S256x2] S256x254 1
  concatenates_S256x9_S256x254_S256x263_d1 : Shape.Concatenates [S256x9, S256x254] S256x263 1
  pads_S256x263_S256x384_000_01210 : S256x263.Pads (![0, 0] : Fin 2 → Nat) ![0, 121] ![0, 0] S256x384
  h_S_ : 0 < S_.numel
  bitsLt_bf16_f32 : FTy.bits .bf16 < FTy.bits .f32
  inb_S2048x16_S2048x16_0_0 : ∀ a, (![0, 0] : Fin 2 → Nat) a + S2048x16.size a ≤ S2048x16.size a
  h_S2048x16 : 0 < S2048x16.numel
  iota_S1x16_d1_w32 : S1x16.Iotas .tc 32 [1]
  broadcasts_S1x16_S2048x16 : S1x16.Broadcasts S2048x16
  iota_S16x16_d0_w32 : S16x16.Iotas .tc 32 [0]
  iota_S16x16_d1_w32 : S16x16.Iotas .tc 32 [1]
  natLt_1_32 : 1 < 32
  slices_S2048x16_o0_7_S2048x1 : S2048x16.Slices ![0, 7] S2048x1
  iota_S1x256_d1_w32 : S1x256.Iotas .tc 32 [1]
  broadcasts_S1x256_S2048x256 : S1x256.Broadcasts S2048x256
  broadcasts_S2048x1_S2048x256 : S2048x1.Broadcasts S2048x256
  inb_S256x384_S256x384_0_0 : ∀ a, (![0, 0] : Fin 2 → Nat) a + S256x384.size a ≤ S256x384.size a
  h_S256x384 : 0 < S256x384.numel
  shapeCasts_S256x384_S256x384 : S256x384.ShapeCasts S256x384
  slices_S2048x384_o0_0_S2048x9 : S2048x384.Slices ![0, 0] S2048x9
  slices_S2048x384_o0_9_S2048x128 : S2048x384.Slices ![0, 9] S2048x128
  slices_S2048x16_o0_0_S2048x1 : S2048x16.Slices ![0, 0] S2048x1
  iota_S1x128_d1_w32 : S1x128.Iotas .tc 32 [1]
  broadcasts_S1x128_S2048x128 : S1x128.Broadcasts S2048x128
  broadcasts_S2048x1_S2048x128 : S2048x1.Broadcasts S2048x128
  reduces_S2048x128_S2048 : S2048x128.Reduces [1] S2048
  shapeCasts_S2048_S2048x1 : S2048.ShapeCasts S2048x1
  slices_S2048x384_o0_137_S2048x64 : S2048x384.Slices ![0, 137] S2048x64
  slices_S2048x16_o0_1_S2048x1 : S2048x16.Slices ![0, 1] S2048x1
  iota_S1x64_d1_w32 : S1x64.Iotas .tc 32 [1]
  broadcasts_S1x64_S2048x64 : S1x64.Broadcasts S2048x64
  broadcasts_S2048x1_S2048x64 : S2048x1.Broadcasts S2048x64
  reduces_S2048x64_S2048 : S2048x64.Reduces [1] S2048
  slices_S2048x384_o0_201_S2048x32 : S2048x384.Slices ![0, 201] S2048x32
  slices_S2048x16_o0_2_S2048x1 : S2048x16.Slices ![0, 2] S2048x1
  iota_S1x32_d1_w32 : S1x32.Iotas .tc 32 [1]
  broadcasts_S1x32_S2048x32 : S1x32.Broadcasts S2048x32
  broadcasts_S2048x1_S2048x32 : S2048x1.Broadcasts S2048x32
  reduces_S2048x32_S2048 : S2048x32.Reduces [1] S2048
  slices_S2048x384_o0_233_S2048x16 : S2048x384.Slices ![0, 233] S2048x16
  slices_S2048x16_o0_3_S2048x1 : S2048x16.Slices ![0, 3] S2048x1
  broadcasts_S2048x1_S2048x16 : S2048x1.Broadcasts S2048x16
  reduces_S2048x16_S2048 : S2048x16.Reduces [1] S2048
  slices_S2048x384_o0_249_S2048x8 : S2048x384.Slices ![0, 249] S2048x8
  slices_S2048x16_o0_4_S2048x1 : S2048x16.Slices ![0, 4] S2048x1
  iota_S1x8_d1_w32 : S1x8.Iotas .tc 32 [1]
  broadcasts_S1x8_S2048x8 : S1x8.Broadcasts S2048x8
  broadcasts_S2048x1_S2048x8 : S2048x1.Broadcasts S2048x8
  reduces_S2048x8_S2048 : S2048x8.Reduces [1] S2048
  slices_S2048x384_o0_257_S2048x4 : S2048x384.Slices ![0, 257] S2048x4
  slices_S2048x16_o0_5_S2048x1 : S2048x16.Slices ![0, 5] S2048x1
  iota_S1x4_d1_w32 : S1x4.Iotas .tc 32 [1]
  broadcasts_S1x4_S2048x4 : S1x4.Broadcasts S2048x4
  broadcasts_S2048x1_S2048x4 : S2048x1.Broadcasts S2048x4
  reduces_S2048x4_S2048 : S2048x4.Reduces [1] S2048
  slices_S2048x384_o0_261_S2048x2 : S2048x384.Slices ![0, 261] S2048x2
  slices_S2048x16_o0_6_S2048x1 : S2048x16.Slices ![0, 6] S2048x1
  iota_S1x2_d1_w32 : S1x2.Iotas .tc 32 [1]
  broadcasts_S1x2_S2048x2 : S1x2.Broadcasts S2048x2
  broadcasts_S2048x1_S2048x2 : S2048x1.Broadcasts S2048x2
  reduces_S2048x2_S2048 : S2048x2.Reduces [1] S2048
  concatenates_S2048x1_S2048x1_S2048x1_S2048x1_S2048x1_S2048x1_S2048x1_S2048x7_d1 : Shape.Concatenates [S2048x1, S2048x1, S2048x1, S2048x1, S2048x1, S2048x1, S2048x1] S2048x7 1
  concatenates_S2048x7_S2048x9_S2048x16_d1 : Shape.Concatenates [S2048x7, S2048x9] S2048x16 1
  dot_S2048x16_S16x16_S2048x16_1_0_0_1_n_n_wf : DotDims.WF S2048x16 S16x16 S2048x16 [1] [0] [0] [1] [] []
  dot_S2048x256_S256x384_S2048x384_1_0_0_1_n_n_wf : DotDims.WF S2048x256 S256x384 S2048x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x16.size a ≤ S4194304x16.size a
  hwx0_0 : ∀ i : grid0.Coords, EltTy.bits .i32 = 32 ∨ (Rect.block (s := S4194304x16) S2048x16.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x384.size a ≤ S256x384.size a
  hwx0_1 : ∀ i : grid0.Coords, EltTy.bits .bf16 = 32 ∨ (Rect.block (s := S256x384) S256x384.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S4194304x16.size a
  hwx0_2 : ∀ i : grid0.Coords, EltTy.bits .f32 = 32 ∨ (Rect.block (s := S4194304x16) S2048x16.size (cc0_transform_2 i) (hinb0_2 i)).WholeWords (EltTy.packing .f32)

variable [Facts₀]

def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S2048x256_S256x384_S2048x384_1_0_0_1_n_n : DotDims S2048x256 S256x384 S2048x384 where
  lhsContracting := [1]
  rhsContracting := [0]
  lhsNonContracting := [0]
  rhsNonContracting := [1]
  lhsBatch := []
  rhsBatch := []
  wf := dot_S2048x256_S256x384_S2048x384_1_0_0_1_n_n_wf

abbrev win0_0 : Pipeline.Window sig grid0 :=
  Pipeline.Window.ofSpec (Memref.whole main_arg0) S2048x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S256x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v87) S2048x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4194304x16 : Shape := ⟨2, ![4194304, 16]⟩
abbrev S16x32768 : Shape := ⟨2, ![16, 32768]⟩
abbrev S16 : Shape := ⟨1, ![16]⟩
abbrev S_ : Shape := ⟨0, ![]⟩
abbrev S1x16 : Shape := ⟨2, ![1, 16]⟩
abbrev S4194304x16x1 : Shape := ⟨3, ![4194304, 16, 1]⟩
abbrev S4194304x16x2 : Shape := ⟨3, ![4194304, 16, 2]⟩

abbrev nBuf : Space → Nat
  | .hbm => 134
  | .vmem => 0
  | .smem => 0
  | _ => 0

abbrev hbmTy0_0 (i : Nat) : BufTy := match i % 128 with
  | 0 => ⟨S4194304x16, .i32⟩
  | 1 => ⟨S16x32768, .f32⟩
  | 2 => ⟨S4194304x16, .i32⟩
  | 3 => ⟨S16, .i32⟩
  | 4 => ⟨S_, .i32⟩
  | 5 => ⟨S_, .i32⟩
  | 6 => ⟨S_, .i1⟩
  | 7 => ⟨S_, .i32⟩
  | 8 => ⟨S16, .i32⟩
  | 9 => ⟨S16, .i1⟩
  | 10 => ⟨S16, .i1⟩
  | 11 => ⟨S16, .i1⟩
  | 12 => ⟨S_, .i32⟩
  | 13 => ⟨S_, .i32⟩
  | 14 => ⟨S16, .i32⟩
  | 15 => ⟨S16, .i32⟩
  | 16 => ⟨S16, .i32⟩
  | 17 => ⟨S_, .i32⟩
  | 18 => ⟨S16, .i32⟩
  | 19 => ⟨S16, .i32⟩
  | 20 => ⟨S_, .i32⟩
  | 21 => ⟨S16, .i32⟩
  | 22 => ⟨S16, .i32⟩
  | 23 => ⟨S_, .i32⟩
  | 24 => ⟨S16, .i32⟩
  | 25 => ⟨S16, .i1⟩
  | 26 => ⟨S16, .i32⟩
  | 27 => ⟨S_, .i32⟩
  | 28 => ⟨S_, .i32⟩
  | 29 => ⟨S_, .i32⟩
  | 30 => ⟨S_, .i32⟩
  | 31 => ⟨S16, .i32⟩
  | 32 => ⟨S16, .i32⟩
  | 33 => ⟨S_, .i32⟩
  | 34 => ⟨S16, .i32⟩
  | 35 => ⟨S16, .i32⟩
  | 36 => ⟨S16, .i32⟩
  | 37 => ⟨S16, .i32⟩
  | 38 => ⟨S_, .i32⟩
  | 39 => ⟨S16, .i32⟩
  | 40 => ⟨S16, .i1⟩
  | 41 => ⟨S16, .i32⟩
  | 42 => ⟨S_, .i32⟩
  | 43 => ⟨S_, .i32⟩
  | 44 => ⟨S16, .i32⟩
  | 45 => ⟨S16, .i32⟩
  | 46 => ⟨S_, .i32⟩
  | 47 => ⟨S16, .i32⟩
  | 48 => ⟨S16, .i32⟩
  | 49 => ⟨S16, .i32⟩
  | 50 => ⟨S16, .i32⟩
  | 51 => ⟨S_, .i32⟩
  | 52 => ⟨S16, .i32⟩
  | 53 => ⟨S16, .i1⟩
  | 54 => ⟨S16, .i32⟩
  | 55 => ⟨S_, .i32⟩
  | 56 => ⟨S_, .i32⟩
  | 57 => ⟨S16, .i32⟩
  | 58 => ⟨S16, .i32⟩
  | 59 => ⟨S_, .i32⟩
  | 60 => ⟨S16, .i32⟩
  | 61 => ⟨S16, .i32⟩
  | 62 => ⟨S16, .i32⟩
  | 63 => ⟨S16, .i32⟩
  | 64 => ⟨S_, .i32⟩
  | 65 => ⟨S16, .i32⟩
  | 66 => ⟨S16, .i1⟩
  | 67 => ⟨S16, .i32⟩
  | 68 => ⟨S_, .i32⟩
  | 69 => ⟨S_, .i32⟩
  | 70 => ⟨S16, .i32⟩
  | 71 => ⟨S16, .i32⟩
  | 72 => ⟨S_, .i32⟩
  | 73 => ⟨S16, .i32⟩
  | 74 => ⟨S16, .i32⟩
  | 75 => ⟨S16, .i32⟩
  | 76 => ⟨S16, .i32⟩
  | 77 => ⟨S_, .i32⟩
  | 78 => ⟨S16, .i32⟩
  | 79 => ⟨S16, .i1⟩
  | 80 => ⟨S16, .i32⟩
  | 81 => ⟨S_, .i32⟩
  | 82 => ⟨S_, .i32⟩
  | 83 => ⟨S16, .i32⟩
  | 84 => ⟨S16, .i32⟩
  | 85 => ⟨S_, .i32⟩
  | 86 => ⟨S16, .i32⟩
  | 87 => ⟨S16, .i32⟩
  | 88 => ⟨S16, .i32⟩
  | 89 => ⟨S16, .i32⟩
  | 90 => ⟨S_, .i32⟩
  | 91 => ⟨S16, .i32⟩
  | 92 => ⟨S16, .i1⟩
  | 93 => ⟨S16, .i32⟩
  | 94 => ⟨S_, .i32⟩
  | 95 => ⟨S_, .i32⟩
  | 96 => ⟨S16, .i32⟩
  | 97 => ⟨S16, .i32⟩
  | 98 => ⟨S1x16, .i32⟩
  | 99 => ⟨S4194304x16, .i32⟩
  | 100 => ⟨S4194304x16, .i32⟩
  | 101 => ⟨S_, .i32⟩
  | 102 => ⟨S_, .i32⟩
  | 103 => ⟨S4194304x16, .i32⟩
  | 104 => ⟨S4194304x16, .i32⟩
  | 105 => ⟨S16, .i32⟩
  | 106 => ⟨S1x16, .i32⟩
  | 107 => ⟨S_, .i32⟩
  | 108 => ⟨S1x16, .i32⟩
  | 109 => ⟨S1x16, .i1⟩
  | 110 => ⟨S_, .i32⟩
  | 111 => ⟨S1x16, .i32⟩
  | 112 => ⟨S1x16, .i32⟩
  | 113 => ⟨S1x16, .i32⟩
  | 114 => ⟨S_, .i32⟩
  | 115 => ⟨S4194304x16, .i32⟩
  | 116 => ⟨S4194304x16, .i1⟩
  | 117 => ⟨S_, .i32⟩
  | 118 => ⟨S4194304x16, .i32⟩
  | 119 => ⟨S4194304x16, .i32⟩
  | 120 => ⟨S4194304x16, .i32⟩
  | 121 => ⟨S4194304x16, .i32⟩
  | 122 => ⟨S4194304x16x1, .i32⟩
  | 123 => ⟨S4194304x16x1, .i32⟩
  | 124 => ⟨S4194304x16x2, .i32⟩
  | 125 => ⟨S4194304x16, .f32⟩
  | 126 => ⟨S4194304x16, .f32⟩
  | 127 => ⟨S4194304x16, .f32⟩
  | _ => ⟨S4194304x16, .i32⟩

abbrev hbmTy0_1 (i : Nat) : BufTy := match i % 128 with
  | 0 => ⟨S_, .f32⟩
  | 1 => ⟨S4194304x16, .f32⟩
  | 2 => ⟨S4194304x16, .f32⟩
  | 3 => ⟨S4194304x16, .f32⟩
  | 4 => ⟨S4194304x16, .f32⟩
  | 5 => ⟨S4194304x16, .f32⟩
  | _ => ⟨S4194304x16, .i32⟩

abbrev hbmTy (i : Nat) : BufTy := match i / 128 with
  | 0 => hbmTy0_0 i
  | 1 => hbmTy0_1 i
  | _ => ⟨S4194304x16, .i32⟩

abbrev bufTy : (tb : Table) → Fin (tcTables nBuf tb) → BufTy
  | .hbm, ⟨i, _⟩ => hbmTy i
  | _, _ => ⟨S4194304x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_2 : Ref sig .tc := ⟨.hbm, 12, rfl⟩
abbrev main_c_3 : Ref sig .tc := ⟨.hbm, 13, rfl⟩
abbrev main_call0_v0 : Ref sig .tc := ⟨.hbm, 14, rfl⟩
abbrev main_call0_v1 : Ref sig .tc := ⟨.hbm, 15, rfl⟩
abbrev main_v7 : Ref sig .tc := ⟨.hbm, 16, rfl⟩
abbrev main_c_4 : Ref sig .tc := ⟨.hbm, 17, rfl⟩
abbrev main_v8 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_c_6 : Ref sig .tc := ⟨.hbm, 27, rfl⟩
abbrev main_c_7 : Ref sig .tc := ⟨.hbm, 28, rfl⟩
abbrev main_v13 : Ref sig .tc := ⟨.hbm, 29, rfl⟩
abbrev main_c_8 : Ref sig .tc := ⟨.hbm, 30, rfl⟩
abbrev main_v14 : Ref sig .tc := ⟨.hbm, 31, rfl⟩
abbrev main_v15 : Ref sig .tc := ⟨.hbm, 32, rfl⟩
abbrev main_c_9 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_v20 : Ref sig .tc := ⟨.hbm, 41, rfl⟩
abbrev main_v21 : Ref sig .tc := ⟨.hbm, 42, rfl⟩
abbrev main_c_10 : Ref sig .tc := ⟨.hbm, 43, rfl⟩
abbrev main_v22 : Ref sig .tc := ⟨.hbm, 44, rfl⟩
abbrev main_v23 : Ref sig .tc := ⟨.hbm, 45, rfl⟩
abbrev main_c_11 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call3_c : Ref sig .tc := ⟨.hbm, 51, rfl⟩
abbrev main_call3_v0 : Ref sig .tc := ⟨.hbm, 52, rfl⟩
abbrev main_call3_v1 : Ref sig .tc := ⟨.hbm, 53, rfl⟩
abbrev main_v28 : Ref sig .tc := ⟨.hbm, 54, rfl⟩
abbrev main_v29 : Ref sig .tc := ⟨.hbm, 55, rfl⟩
abbrev main_c_12 : Ref sig .tc := ⟨.hbm, 56, rfl⟩
abbrev main_v30 : Ref sig .tc := ⟨.hbm, 57, rfl⟩
abbrev main_v31 : Ref sig .tc := ⟨.hbm, 58, rfl⟩
abbrev main_c_13 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_call4_c : Ref sig .tc := ⟨.hbm, 64, rfl⟩
abbrev main_call4_v0 : Ref sig .tc := ⟨.hbm, 65, rfl⟩
abbrev main_call4_v1 : Ref sig .tc := ⟨.hbm, 66, rfl⟩
abbrev main_v36 : Ref sig .tc := ⟨.hbm, 67, rfl⟩
abbrev main_v37 : Ref sig .tc := ⟨.hbm, 68, rfl⟩
abbrev main_c_14 : Ref sig .tc := ⟨.hbm, 69, rfl⟩
abbrev main_v38 : Ref sig .tc := ⟨.hbm, 70, rfl⟩
abbrev main_v39 : Ref sig .tc := ⟨.hbm, 71, rfl⟩
abbrev main_c_15 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_call5_c : Ref sig .tc := ⟨.hbm, 77, rfl⟩
abbrev main_call5_v0 : Ref sig .tc := ⟨.hbm, 78, rfl⟩
abbrev main_call5_v1 : Ref sig .tc := ⟨.hbm, 79, rfl⟩
abbrev main_v44 : Ref sig .tc := ⟨.hbm, 80, rfl⟩
abbrev main_v45 : Ref sig .tc := ⟨.hbm, 81, rfl⟩
abbrev main_c_16 : Ref sig .tc := ⟨.hbm, 82, rfl⟩
abbrev main_v46 : Ref sig .tc := ⟨.hbm, 83, rfl⟩
abbrev main_v47 : Ref sig .tc := ⟨.hbm, 84, rfl⟩
abbrev main_c_17 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_call6_c : Ref sig .tc := ⟨.hbm, 90, rfl⟩
abbrev main_call6_v0 : Ref sig .tc := ⟨.hbm, 91, rfl⟩
abbrev main_call6_v1 : Ref sig .tc := ⟨.hbm, 92, rfl⟩
abbrev main_v52 : Ref sig .tc := ⟨.hbm, 93, rfl⟩
abbrev main_v53 : Ref sig .tc := ⟨.hbm, 94, rfl⟩
abbrev main_c_18 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_call7_call0_c : Ref sig .tc := ⟨.hbm, 101, rfl⟩
abbrev main_call7_call0_v0 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_c_19 : Ref sig .tc := ⟨.hbm, 107, rfl⟩
abbrev main_v63 : Ref sig .tc := ⟨.hbm, 108, rfl⟩
abbrev main_v64 : Ref sig .tc := ⟨.hbm, 109, rfl⟩
abbrev main_c_20 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_c_21 : Ref sig .tc := ⟨.hbm, 114, rfl⟩
abbrev main_v68 : Ref sig .tc := ⟨.hbm, 115, rfl⟩
abbrev main_v69 : Ref sig .tc := ⟨.hbm, 116, rfl⟩
abbrev main_c_22 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4194304x16_0_1 : S1x16.BroadcastsInDim S4194304x16 (![0, 1] : Fin 2 → Fin S4194304x16.rank)
  bcast_S_S_ : S_.BroadcastsInDim S_ (![] : Fin 0 → Fin S_.rank)
  reduceWindows_S4194304x16_S4194304x16_w1s1p0_0_w16s1p15_0 : S4194304x16.ReduceWindows (![1, 16] : Fin 2 → Nat) ![1, 1] ![0, 15] ![0, 0] S4194304x16
  h_S_ : 0 < S_.numel
  bcast_S_S1x16 : S_.BroadcastsInDim S1x16 (![] : Fin 0 → Fin S1x16.rank)
  bcast_S_S4194304x16 : S_.BroadcastsInDim S4194304x16 (![] : Fin 0 → Fin S4194304x16.rank)
  bcast_S4194304x16_S4194304x16x1_0_1 : S4194304x16.BroadcastsInDim S4194304x16x1 (![0, 1] : Fin 2 → Fin S4194304x16x1.rank)
  concatenates_S4194304x16x1_S4194304x16x1_S4194304x16x2_d2 : Shape.Concatenates [S4194304x16x1, S4194304x16x1] S4194304x16x2 2
  gather_S16x32768_S4194304x16x2_S4194304x16_n_01_n_n_01_2_11_wf : GatherDims.WF S16x32768 S4194304x16x2 S4194304x16 [] [0, 1] [] [0, 1] [] 2 ![1, 1]

variable [Facts₀]

def gather_S16x32768_S4194304x16x2_S4194304x16_n_01_n_n_01_2_11 : GatherDims S16x32768 S4194304x16x2 S4194304x16 where
  offsetDims := []
  collapsedSliceDims := [0, 1]
  operandBatchingDims := []
  startIndicesBatchingDims := []
  startIndexMap := [0, 1]
  indexVectorDim := 2
  sliceSizes := ![1, 1]
  wf := gather_S16x32768_S4194304x16x2_S4194304x16_n_01_n_n_01_2_11_wf

class Facts : Prop extends Facts₀ where

variable [Facts]
-- ==== Proof.EntryB.lean ====
/- What the region finds: the argument arrays and the packed matrix after the host lines that build it.

   @main is a stretch of host lines that slice, tile, transpose and concatenate the table rows into the packed
   matrix, a two-line padding call, one conversion, and then the single region.  `V` is the fold of those lines
   over the launch contents; no line writes an argument array, so the region finds both as launched. -/
import proofs.«410118_j27668179321271_3_alg».proof.Proof.Gen.Kernel.Launch
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: after every host line of @main. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the three stretches of host lines, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host line writes the array of digits. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

/-- No host line writes the table. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

end Cert.Kernel.Hand

end
-- ==== Proof.PayB.lean ====
/- The value the body stores, as one function of the two blocks it loads.

   The body loads its block of digits x0 (2048 rows of 16) and the packed matrix x1 (256 × 384), computes, and
   stores one block of 2048 × 16 results.  The stored value is the last payload of the body's skeleton applied
   to the earlier payloads, each itself a function of x0 and x1; `pay` is that composite. -/
import proofs.«410118_j27668179321271_3_alg».proof.Proof.Gen.Kernel.Skeleton

noncomputable section

namespace Cert.Kernel.Hand

open Cert.Kernel Cert.Kernel.Gen
open Idealize.ShloMosaic Idealize.SL.Sem

variable {F : FTy → Type} [FloatOps F]

/-- The column numbers 0 … 63 as a row, which the second segment's one-hot compares against. -/
def iota64 : IVec S1x64 32 := iota .tc S1x64 32 [1] iota_S1x64_d1_w32

/-- The stored block as a function of the loaded blocks. -/
def pay (x0 : Vec F S2048x16 .i32) (x1 : Vec F S256x384 .bf16) : FVec F S2048x16 .f32 :=
  k0_pay1 x0 (k0_pay2 x0) (k0_pay3 x0) (k0_pay4 x0 x1) (k0_pay5 x0 x1) (k0_pay6 x0 x1)
    (k0_pay9 (k0_pay7 x0 x1) (k0_pay8 x0) iota64)
    (k0_pay10 (k0_pay2 x0) (k0_pay3 x0) (k0_pay4 x0 x1))
    (k0_pay11 (k0_pay2 x0) (k0_pay3 x0) (k0_pay4 x0 x1))
    (k0_pay12 (k0_pay2 x0) (k0_pay3 x0) (k0_pay4 x0 x1))
    (k0_pay13 (k0_pay4 x0 x1))
    (k0_pay14 (k0_pay2 x0) (k0_pay3 x0))

end Cert.Kernel.Hand

end
-- ==== Proof.FrameB.lean ====
/- The frame: @main runs to the end, faults nowhere, and leaves both argument arrays as launched.

   The body at a grid point reads two staged blocks (its 2048 rows of digits and the whole packed matrix) and
   overwrites the whole staged output block with `pay` of them.  So after the body the two input buffers hold
   their blocks as before and the output buffer holds that one stored piece; the pipeline's proof data says
   exactly this at every point, and the launch theorem turns the per-point statement into the run of @main. -/
import proofs.«410118_j27668179321271_3_alg».proof.Proof.EntryB
import proofs.«410118_j27668179321271_3_alg».proof.Proof.PayB
import proofs.«410118_j27668179321271_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staged block of digits is the array's block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staged packed matrix is the whole matrix at every point: it is fetched once and its block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S2048x16 := Rect.unit (s := S2048x16) ![0, 0] S2048x16.size inb_S2048x16_S2048x16_0_0
abbrev r0_1 : Rect S256x384 := Rect.unit (s := S256x384) ![0, 0] S256x384.size inb_S256x384_S256x384_0_0

/-- The output buffer after the body: its one store, of `pay` of the two loaded blocks, over the whole block. -/
def out0_2 (x0 : Vec F S2048x16 .i32) (x1 : Vec F S256x384 .bf16) : Vec F S2048x16 .f32 :=
  View.canon [⟨r0_0, pay (View.ld x0 r0_0) (View.ld x1 r0_1)⟩]

theorem cover0_2 (p0 : Vec F S2048x16 .f32) (y : S2048x16.Idx) :
    ∃ pc ∈ ([⟨r0_0, p0⟩] : List (View.Piece (Elt F) S2048x16 .f32)), y ∈ pc.1.set :=
  View.cover_of_tiled [⟨r0_0, p0⟩] S2048x16.size (by rfl) y

/-! ## The body's triple -/

set_option maxHeartbeats 4000000 in
theorem sound_kernel (c : Dev nD) (E : Set ℕ) (i : grid0.Coords) (arg1 : Memref sig .tc .vmem S2048x16 .i32) (harg1 : arg1.IsWhole) (arg2 : Memref sig .tc .vmem S256x384 .bf16) (harg2 : arg2.IsWhole) (arg3 : Memref sig .tc .vmem S2048x16 .f32) (harg3 : arg3.IsWhole)
    (x0 : Vec F S2048x16 .i32) (x1 : Vec F S256x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__lookup_kernel i arg1 harg1 arg2 harg2 arg3 harg3) K := by
  simp only [cc0__lookup_kernel_eq_skeleton]; unfold cc0__lookup_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.EntryI.lean ====
/- What the region finds: the argument arrays and the packed matrix after the host lines that build it.

   @main is a stretch of host lines that slice, tile, transpose and concatenate the table rows into the packed
   matrix, a two-line padding call, one conversion, and then the single region.  `V` is the fold of those lines
   over the launch contents; no line writes an argument array, so the region finds both as launched. -/
import proofs.«410118_j27668179321271_3_alg».proof.Proof.Gen.KernelIdeal.Launch
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- Core `c`'s TensorCore buffers when the region is entered: after every host line of @main. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor

/-- @main up to the region: the three stretches of host lines, then the region's entry. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

/-- No host line writes the array of digits. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

/-- No host line writes the table. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

end Cert.KernelIdeal.Hand

end
-- ==== Proof.PayI.lean ====
/- The value the body stores, as one function of the two blocks it loads.

   The body loads its block of digits x0 (2048 rows of 16) and the packed matrix x1 (256 × 384), computes, and
   stores one block of 2048 × 16 results.  The stored value is the last payload of the body's skeleton applied
   to the earlier payloads, each itself a function of x0 and x1; `pay` is that composite. -/
import proofs.«410118_j27668179321271_3_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

/-- The column numbers 0 … 63 as a row, which the second segment's one-hot compares against. -/
def iota64 : IVec S1x64 32 := iota .tc S1x64 32 [1] iota_S1x64_d1_w32

/-- The stored block as a function of the loaded blocks. -/
def pay (x0 : Vec F S2048x16 .i32) (x1 : Vec F S256x384 .bf16) : FVec F S2048x16 .f32 :=
  k0_pay1 x0 (k0_pay2 x0) (k0_pay3 x0) (k0_pay4 x0 x1) (k0_pay5 x0 x1) (k0_pay6 x0 x1)
    (k0_pay9 (k0_pay7 x0 x1) (k0_pay8 x0) iota64)
    (k0_pay10 (k0_pay2 x0) (k0_pay3 x0) (k0_pay4 x0 x1))
    (k0_pay11 (k0_pay2 x0) (k0_pay3 x0) (k0_pay4 x0 x1))
    (k0_pay12 (k0_pay2 x0) (k0_pay3 x0) (k0_pay4 x0 x1))
    (k0_pay13 (k0_pay4 x0 x1))
    (k0_pay14 (k0_pay2 x0) (k0_pay3 x0))

end Cert.KernelIdeal.Hand

end
-- ==== Proof.FrameI.lean ====
/- The frame: @main runs to the end, faults nowhere, and leaves both argument arrays as launched.

   The body at a grid point reads two staged blocks (its 2048 rows of digits and the whole packed matrix) and
   overwrites the whole staged output block with `pay` of them.  So after the body the two input buffers hold
   their blocks as before and the output buffer holds that one stored piece; the pipeline's proof data says
   exactly this at every point, and the launch theorem turns the per-point statement into the run of @main. -/
import proofs.«410118_j27668179321271_3_alg».proof.Proof.EntryI
import proofs.«410118_j27668179321271_3_alg».proof.Proof.PayI
import proofs.«410118_j27668179321271_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The staged block of digits is the array's block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The staged packed matrix is the whole matrix at every point: it is fetched once and its block never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the launch theorem's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (V_main_arg1 m c)⟩) h

/-! ## The body's accesses -/

abbrev r0_0 : Rect S2048x16 := Rect.unit (s := S2048x16) ![0, 0] S2048x16.size inb_S2048x16_S2048x16_0_0
abbrev r0_1 : Rect S256x384 := Rect.unit (s := S256x384) ![0, 0] S256x384.size inb_S256x384_S256x384_0_0

/-- The output buffer after the body: its one store, of `pay` of the two loaded blocks, over the whole block. -/
def out0_2 (x0 : Vec F S2048x16 .i32) (x1 : Vec F S256x384 .bf16) : Vec F S2048x16 .f32 :=
  View.canon [⟨r0_0, pay (View.ld x0 r0_0) (View.ld x1 r0_1)⟩]

theorem cover0_2 (p0 : Vec F S2048x16 .f32) (y : S2048x16.Idx) :
    ∃ pc ∈ ([⟨r0_0, p0⟩] : List (View.Piece (Elt F) S2048x16 .f32)), y ∈ pc.1.set :=
  View.cover_of_tiled [⟨r0_0, p0⟩] S2048x16.size (by rfl) y

/-! ## The body's triple -/

set_option maxHeartbeats 4000000 in
theorem sound_kernel (c : Dev nD) (E : Set ℕ) (i : grid0.Coords) (arg1 : Memref sig .tc .vmem S2048x16 .i32) (harg1 : arg1.IsWhole) (arg2 : Memref sig .tc .vmem S256x384 .bf16) (harg2 : arg2.IsWhole) (arg3 : Memref sig .tc .vmem S2048x16 .f32) (harg3 : arg3.IsWhole)
    (x0 : Vec F S2048x16 .i32) (x1 : Vec F S256x384 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__lookup_kernel i arg1 harg1 arg2 harg2 arg3 harg3) K := by
  simp only [cc0__lookup_kernel_eq_skeleton]; unfold cc0__lookup_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.Spec.lean ====
/- The mathematics both programs compute, stated once over plain coordinates.

   A row of sixteen words x(0) … x(15), each the word 0 or 1, is a binary numeral written most significant
   digit first.  The CONTEXT ADDRESS of column c is the number spelt by the digits strictly to its right,
   addr x c = Σ_{c' > c} x(c') · 2^(15 − c'), which is below 2^(15 − c).  Output entry (r, c) looks the
   table row 15 − c up at that address and combines the value f found there with the digit b = x(c) by
   the arithmetic form of exclusive-or, b + f − (2·b)·f.

   The kernel does the look-up through a packed matrix of 256 rows and 384 columns (`himat`): column
   j < 9 of row k holds table row 8 − j at k mod 2^(8 − j); the next 254 columns are seven segments of
   widths 128, 64, 32, 16, 8, 4, 2, segment i holding table row 15 − i at h·256 + k in its column h;
   the last 121 columns are zero. -/
import Idealize.ShloMosaic.PureOps.Ideal
import Idealize.ShloMosaic.Lib.ValueIdx

noncomputable section

open scoped BigOperators

namespace Cert.Spec

open Idealize.ShloMosaic Idealize.ShloMosaic.ValueIdx

/-- Every entry is the word 0 or the word 1. -/
def IsBit {s : Shape} (x : IVec s 32) : Prop := ∀ i, x i = 0#32 ∨ x i = 1#32

/-- Row `r` of an array of sixteen columns, as a function of the column. -/
def row {n : Nat} (x : IVec ⟨2, ![n, 16]⟩ 32) (r : Fin n) : Fin 16 → BitVec 32 := fun c => x (ix2 r c)

/-- The context address of column `c`: the digits strictly to its right, read as a binary numeral. -/
def addr (x : Fin 16 → BitVec 32) (c : Fin 16) : ℕ :=
  ∑ c' : Fin 16, if c < c' then (x c').toNat * 2 ^ (15 - c'.val) else 0

/-- A table entry by natural coordinates, each taken modulo its extent so that the accessor is total. -/
def tab (t : FVec Ideal ⟨2, ![16, 32768]⟩ .f32) (p n : ℕ) : EReal :=
  t (ix2 ⟨p % 16, Nat.mod_lt _ (by norm_num)⟩ ⟨n % 32768, Nat.mod_lt _ (by norm_num)⟩)

/-- The literal 2. -/
def two : EReal := Ideal.ofBits .f32 0x40000000#32

/-- Exclusive-or of a digit with a table value, in arithmetic form: b + f − (2·b)·f. -/
def flip (b : BitVec 32) (f : EReal) : EReal :=
  (((b.toInt : ℝ) : EReal) + f) - (two * ((b.toInt : ℝ) : EReal)) * f

/-- The result array: entry (r, c) flips digit (r, c) by table row 15 − c at the context address of column c. -/
def G (bits : IVec ⟨2, ![4194304, 16]⟩ 32) (t : FVec Ideal ⟨2, ![16, 32768]⟩ .f32) :
    FVec Ideal ⟨2, ![4194304, 16]⟩ .f32 :=
  fun i => flip (bits i) (tab t (15 - (i 1).val) (addr (row bits (i 0)) (i 1)))

/-- Which segment a packed column at or past 9 lies in, and where that segment starts. -/
def segOf (col : ℕ) : ℕ × ℕ :=
  if col < 137 then (0, 9) else if col < 201 then (1, 137) else if col < 233 then (2, 201)
  else if col < 249 then (3, 233) else if col < 257 then (4, 249) else if col < 261 then (5, 257) else (6, 261)

/-- The packed matrix the kernel multiplies a one-hot row against. -/
def himat (t : FVec Ideal ⟨2, ![16, 32768]⟩ .f32) : FVec Ideal ⟨2, ![256, 384]⟩ .bf16 :=
  fun j =>
    if (j 1).val < 9 then tab t (8 - (j 1).val) ((j 0).val % 2 ^ (8 - (j 1).val))
    else if (j 1).val < 263 then
      tab t (15 - (segOf (j 1).val).1) (((j 1).val - (segOf (j 1).val).2) * 256 + (j 0).val)
    else 0

end Cert.Spec

end
-- ==== Proof.KHost.lean ====
/- The packed matrix the region finds is `Spec.himat` of the table.

   The host lines build sixteen pieces from the table and set them side by side.  Nine are columns: the first
   2^p entries of table row p (p = 8 … 0), tiled down 256 entries.  Seven are blocks: the first 2^p entries of
   table row p (p = 15 … 9) laid out in rows of 256 and transposed.  The nine columns, then the seven blocks, are
   concatenated along the second axis, 121 columns of the integer zero converted are appended, and the result is
   narrowed, which is the identity on extended reals.  Each layout operation read at an index is its operand read
   at one index; following the chain down from an entry (k, j) of the result ends at the table entry
   `Spec.himat` names. -/
import proofs.«410118_j27668179321271_3_alg».proof.Proof.EntryI
import proofs.«410118_j27668179321271_3_alg».proof.Proof.Spec
import Idealize.ShloMosaic.Lib.Pipeline.Value
import Idealize.ShloMosaic.Lib.ValueLayout
import Idealize.ShloMosaic.Lib.KernelVsHost

noncomputable section

namespace Cert.KernelIdeal.Hand

open Cert.KernelIdeal Cert.KernelIdeal.Gen Cert.Spec
open Idealize.ShloMosaic Idealize.ShloMosaic.TcCoe Idealize.ShloMosaic.ValueIdx Idealize.SL.Sem

section Pieces
variable {α : Type}

/-- One of the nine leading columns.  Row `p` of the table is cut to its first `n` entries, tiled `a` times down
    a column of `a * n = 256` entries and stood up as a 256 × 1 matrix: entry `k` of the column is entry `k % n`
    of the row. -/
theorem col_apply {n a : ℕ} (p : ℕ) (t : (⟨2, ![16, 32768]⟩ : Shape).Idx → α)
    (hs : (⟨2, ![16, 32768]⟩ : Shape).Slices ![p, 0] ⟨2, ![1, n]⟩)
    (h1 : (⟨2, ![1, n]⟩ : Shape).ShapeCasts ⟨1, ![n]⟩)
    (h2 : (⟨1, ![n]⟩ : Shape).ShapeCasts ⟨2, ![1, n]⟩)
    (hb : (⟨2, ![1, n]⟩ : Shape).BroadcastsInDim ⟨2, ![a, n]⟩ ![0, 1])
    (h3 : (⟨2, ![a, n]⟩ : Shape).ShapeCasts ⟨1, ![256]⟩)
    (hc : (⟨1, ![256]⟩ : Shape).BroadcastsInDim ⟨2, ![256, 1]⟩ ![0])
    (k : Fin 256) (z : Fin 1) (hp : p < 16) (hn : 0 < n) (hn' : n ≤ 32768) (han : a * n = 256) :
    broadcastInDim ⟨2, ![256, 1]⟩ ![0] hc
      (shapeCast ⟨1, ![256]⟩
        (broadcastInDim ⟨2, ![a, n]⟩ ![0, 1] hb
          (shapeCast ⟨2, ![1, n]⟩ (shapeCast ⟨1, ![n]⟩ (extractStridedSlice ⟨2, ![1, n]⟩ ![p, 0] t hs) h1) h2)) h3)
      (ix2 k z)
    = t (ix2 ⟨p, hp⟩ ⟨k.val % n, lt_of_lt_of_le (Nat.mod_lt _ hn) hn'⟩) := by
  have hr : k.val % n < n := Nat.mod_lt _ hn
  have hq : k.val / n < a := Nat.div_lt_of_lt_mul (by have := k.isLt; rw [Nat.mul_comm]; omega)
  -- the column [256, 1] at (k, 0) reads the vector [256] at k
  refine (broadcastInDim_apply _ _ _ (ix2 k z) (ix1 k) (fun b => match b with | ⟨0, _⟩ => rfl)).trans ?_
  -- the vector [256] at k reads the tiling [a, n] at (k / n, k % n)
  refine (shapeCast_apply _ _ (ix1 k) (ix2 ⟨k.val / n, hq⟩ ⟨k.val % n, hr⟩)
    (by rw [Shape.rowMajor_val_two, Shape.rowMajor_val_one]
        show k.val / n * n + k.val % n = k.val
        exact Nat.div_add_mod' _ _)).trans ?_
  -- the tiling [a, n] at (q, r) reads the row [1, n] at (0, r)
  refine (broadcastInDim_apply _ _ _ _ (ix2 (⟨0, Nat.one_pos⟩ : Fin 1) ⟨k.val % n, hr⟩) (fun b => match b with
    | ⟨0, _⟩ => rfl
    | ⟨1, _⟩ => by
        show k.val % n = if n = 1 then 0 else k.val % n
        split_ifs with h1
        · subst h1; exact Nat.mod_one _
        · rfl)).trans ?_
  -- the row [1, n] at (0, r) reads the vector [n] at r
  refine (shapeCast_apply _ _ _ (ix1 ⟨k.val % n, hr⟩)
    (by rw [Shape.rowMajor_val_one, Shape.rowMajor_val_two]
        show k.val % n = 0 * n + k.val % n
        omega)).trans ?_
  -- the vector [n] at r reads the slice [1, n] at (0, r)
  refine (shapeCast_apply _ _ _ (ix2 (⟨0, Nat.one_pos⟩ : Fin 1) ⟨k.val % n, hr⟩)
    (by rw [Shape.rowMajor_val_two, Shape.rowMajor_val_one]
        show 0 * n + k.val % n = k.val % n
        omega)).trans ?_
  -- the slice at (p, 0): [1, n] at (0, r) reads the table at (p, r)
  exact extractStridedSlice_apply _ _ _ _ _ (fun b => match b with
    | ⟨0, _⟩ => by show p = p + 0; omega
    | ⟨1, _⟩ => by show k.val % n = 0 + k.val % n; omega)

/-- One of the seven segments.  The first `N = w * 256` entries of row `p` of the table, laid out as `w` rows of 256
    and transposed: entry `(k, h)` is entry `h * 256 + k` of the row. -/
theorem seg_apply {w N : ℕ} (p : ℕ) (t : (⟨2, ![16, 32768]⟩ : Shape).Idx → α)
    (hs : (⟨2, ![16, 32768]⟩ : Shape).Slices ![p, 0] ⟨2, ![1, N]⟩)
    (h1 : (⟨2, ![1, N]⟩ : Shape).ShapeCasts ⟨1, ![N]⟩)
    (h2 : (⟨1, ![N]⟩ : Shape).ShapeCasts ⟨2, ![w, 256]⟩)
    (htr : (⟨2, ![w, 256]⟩ : Shape).Transposes [1, 0] ⟨2, ![256, w]⟩)
    (k : Fin 256) (h : Fin w) (hp : p < 16) (hN : N = w * 256) (hN' : N ≤ 32768) :
    transpose ⟨2, ![256, w]⟩ [1, 0]
      (shapeCast ⟨2, ![w, 256]⟩ (shapeCast ⟨1, ![N]⟩ (extractStridedSlice ⟨2, ![1, N]⟩ ![p, 0] t hs) h1) h2) htr
      (ix2 k h)
    = t (ix2 ⟨p, hp⟩ ⟨h.val * 256 + k.val, by have := k.isLt; have := h.isLt; omega⟩) := by
  have hk : k.val < 256 := k.isLt
  have hh : h.val < w := h.isLt
  have hx : h.val * 256 + k.val < N := by omega
  -- the transpose: [256, w] at (k, h) reads [w, 256] at (h, k)
  refine (transpose_apply _ _ _ (ix2 k h) (ix2 h k) (fun b => match b with | ⟨0, _⟩ => rfl | ⟨1, _⟩ => rfl)).trans ?_
  -- the rows [w, 256] at (h, k) read the vector [N] at h * 256 + k
  refine (shapeCast_apply _ _ _ (ix1 ⟨h.val * 256 + k.val, hx⟩)
    (by rw [Shape.rowMajor_val_one, Shape.rowMajor_val_two]
        show h.val * 256 + k.val = h.val * 256 + k.val
        rfl)).trans ?_
  -- the vector [N] at x reads the slice [1, N] at (0, x)
  refine (shapeCast_apply _ _ _ (ix2 (⟨0, Nat.one_pos⟩ : Fin 1) ⟨h.val * 256 + k.val, hx⟩)
    (by rw [Shape.rowMajor_val_two, Shape.rowMajor_val_one]
        show 0 * N + (h.val * 256 + k.val) = h.val * 256 + k.val
        omega)).trans ?_
  -- the slice at (p, 0): [1, N] at (0, x) reads the table at (p, x)
  exact extractStridedSlice_apply _ _ _ _ _ (fun b => match b with
    | ⟨0, _⟩ => by show p = p + 0; omega
    | ⟨1, _⟩ => by show h.val * 256 + k.val = 0 + (h.val * 256 + k.val); omega)

end Pieces

/-- Two rank-2 indices with the same row agree on every axis but the second. -/
theorem off_axis {n a b : ℕ} (k : Fin n) (x : Fin a) (y : Fin b) :
    ∀ d : Fin (⟨2, ![n, a]⟩ : Shape).rank, d.cast (rfl : (⟨2, ![n, a]⟩ : Shape).rank = (⟨2, ![n, b]⟩ : Shape).rank) ≠ 1 →
      ((ix2 k x : (⟨2, ![n, a]⟩ : Shape).Idx) d).val = ((ix2 k y : (⟨2, ![n, b]⟩ : Shape).Idx) (d.cast rfl)).val :=
  fun d => match d with
    | ⟨0, _⟩ => fun _ => rfl
    | ⟨1, _⟩ => fun hne => absurd rfl hne

section Assembly
variable {α : Type}

/-- The layout of the packed matrix over arbitrary pieces: nine columns side by side, then seven blocks of widths
    128, 64, 32, 16, 8, 4, 2 side by side, the two groups side by side, and 121 columns of the padding value. -/
def packed (cs : Fin 9 → (S256x1.Idx → α)) (s0 : S256x128.Idx → α) (s1 : S256x64.Idx → α) (s2 : S256x32.Idx → α)
    (s3 : S256x16.Idx → α) (s4 : S256x8.Idx → α) (s5 : S256x4.Idx → α) (s6 : S256x2.Idx → α) (z : S_.Idx → α) :
    S256x384.Idx → α :=
  pad S256x384 ![0, 0] ![0, 121] ![0, 0]
    (concatenate S256x263 1
      [⟨S256x9, concatenate S256x9 1 [⟨S256x1, cs 0⟩, ⟨S256x1, cs 1⟩, ⟨S256x1, cs 2⟩, ⟨S256x1, cs 3⟩, ⟨S256x1, cs 4⟩,
          ⟨S256x1, cs 5⟩, ⟨S256x1, cs 6⟩, ⟨S256x1, cs 7⟩, ⟨S256x1, cs 8⟩]
          concatenates_S256x1_S256x1_S256x1_S256x1_S256x1_S256x1_S256x1_S256x1_S256x1_S256x9_d1⟩,
       ⟨S256x254, concatenate S256x254 1 [⟨S256x128, s0⟩, ⟨S256x64, s1⟩, ⟨S256x32, s2⟩, ⟨S256x16, s3⟩, ⟨S256x8, s4⟩,
          ⟨S256x4, s5⟩, ⟨S256x2, s6⟩]
          concatenates_S256x128_S256x64_S256x32_S256x16_S256x8_S256x4_S256x2_S256x254_d1⟩]
      concatenates_S256x9_S256x254_S256x263_d1)
    z pads_S256x263_S256x384_000_01210 h_S_

variable (cs : Fin 9 → (S256x1.Idx → α)) (s0 : S256x128.Idx → α) (s1 : S256x64.Idx → α) (s2 : S256x32.Idx → α)
    (s3 : S256x16.Idx → α) (s4 : S256x8.Idx → α) (s5 : S256x4.Idx → α) (s6 : S256x2.Idx → α) (z : S_.Idx → α)

/-- Below column 263 the padded matrix is the concatenation itself. -/
theorem packed_inside (k : Fin 256) (col : Fin 384) (hcol : col.val < 263) :
    packed cs s0 s1 s2 s3 s4 s5 s6 z (ix2 k col)
      = concatenate S256x263 1
      [⟨S256x9, concatenate S256x9 1 [⟨S256x1, cs 0⟩, ⟨S256x1, cs 1⟩, ⟨S256x1, cs 2⟩, ⟨S256x1, cs 3⟩, ⟨S256x1, cs 4⟩,
          ⟨S256x1, cs 5⟩, ⟨S256x1, cs 6⟩, ⟨S256x1, cs 7⟩, ⟨S256x1, cs 8⟩]
          concatenates_S256x1_S256x1_S256x1_S256x1_S256x1_S256x1_S256x1_S256x1_S256x1_S256x9_d1⟩,
       ⟨S256x254, concatenate S256x254 1 [⟨S256x128, s0⟩, ⟨S256x64, s1⟩, ⟨S256x32, s2⟩, ⟨S256x16, s3⟩, ⟨S256x8, s4⟩,
          ⟨S256x4, s5⟩, ⟨S256x2, s6⟩]
          concatenates_S256x128_S256x64_S256x32_S256x16_S256x8_S256x4_S256x2_S256x254_d1⟩]
      concatenates_S256x9_S256x254_S256x263_d1 (ix2 k (⟨col.val, hcol⟩ : Fin 263)) := by
  unfold packed
  exact pad_apply_of_inside _ _ _ _ _ _ _ (ix2 k col) (ix2 k (⟨col.val, hcol⟩ : Fin 263)) (fun a => match a with
    | ⟨0, _⟩ => by show k.val = 0 + k.val * (0 + 1); omega
    | ⟨1, _⟩ => by show col.val = 0 + col.val * (0 + 1); omega)

/-- From column 263 on the padded matrix is the padding value. -/
theorem packed_outside (k : Fin 256) (col : Fin 384) (hcol : 263 ≤ col.val) :
    packed cs s0 s1 s2 s3 s4 s5 s6 z (ix2 k col) = z (Shape.Idx.first h_S_) := by
  unfold packed
  refine pad_apply_of_not_inside _ _ _ _ _ _ _ (ix2 k col) (⟨1, by decide⟩ : Fin 2) (fun h => ?_)
  have h3 : (col.val - 0) / (0 + 1) < 263 := h.2.2
  omega

/-- Column `j < 9` of the packed matrix is the `j`-th of the nine columns. -/
theorem packed_col (k : Fin 256) (j : Fin 9) :
    packed cs s0 s1 s2 s3 s4 s5 s6 z (ix2 k (⟨j.val, by have := j.isLt; omega⟩ : Fin 384)) = cs j (ix2 k (0 : Fin 1)) := by
  have hj := j.isLt
  refine (packed_inside cs s0 s1 s2 s3 s4 s5 s6 z k _ (by show j.val < 263; omega)).trans ?_
  -- the first group
  refine (concatenate_pair_apply_left (t := S256x263) (s₁ := S256x9) (s₂ := S256x254) 1 _ _ _
    (ix2 k (⟨j.val, by omega⟩ : Fin 263)) rfl (ix2 k j) (fun b => match b with | ⟨0, _⟩ => rfl | ⟨1, _⟩ => rfl)).trans ?_
  -- its j-th column
  have hi : ∀ b : Fin S256x1.rank, b.cast (rfl : S256x1.rank = S256x9.rank) ≠ 1 →
      ((ix2 k (0 : Fin 1) : S256x1.Idx) b).val = ((ix2 k j : S256x9.Idx) (b.cast rfl)).val := fun b => match b with
    | ⟨0, _⟩ => fun _ => rfl
    | ⟨1, _⟩ => fun hne => absurd rfl hne
  match j with
  | ⟨0, _⟩ =>
    refine concatenate_apply_piece (t := S256x9) 1 _ _ (ix2 k _) 0 ?_ S256x1 _ ?_ rfl 0 ?_ (ix2 k (0 : Fin 1)) hi ?_ <;> first | rfl | exact Nat.le_of_ble_eq_true rfl
  | ⟨1, _⟩ =>
    refine concatenate_apply_piece (t := S256x9) 1 _ _ (ix2 k _) 1 ?_ S256x1 _ ?_ rfl 1 ?_ (ix2 k (0 : Fin 1)) hi ?_ <;> first | rfl | exact Nat.le_of_ble_eq_true rfl
  | ⟨2, _⟩ =>
    refine concatenate_apply_piece (t := S256x9) 1 _ _ (ix2 k _) 2 ?_ S256x1 _ ?_ rfl 2 ?_ (ix2 k (0 : Fin 1)) hi ?_ <;> first | rfl | exact Nat.le_of_ble_eq_true rfl
  | ⟨3, _⟩ =>
    refine concatenate_apply_piece (t := S256x9) 1 _ _ (ix2 k _) 3 ?_ S256x1 _ ?_ rfl 3 ?_ (ix2 k (0 : Fin 1)) hi ?_ <;> first | rfl | exact Nat.le_of_ble_eq_true rfl
  | ⟨4, _⟩ =>
    refine concatenate_apply_piece (t := S256x9) 1 _ _ (ix2 k _) 4 ?_ S256x1 _ ?_ rfl 4 ?_ (ix2 k (0 : Fin 1)) hi ?_ <;> first | rfl | exact Nat.le_of_ble_eq_true rfl
  | ⟨5, _⟩ =>
    refine concatenate_apply_piece (t := S256x9) 1 _ _ (ix2 k _) 5 ?_ S256x1 _ ?_ rfl 5 ?_ (ix2 k (0 : Fin 1)) hi ?_ <;> first | rfl | exact Nat.le_of_ble_eq_true rfl
  | ⟨6, _⟩ =>
    refine concatenate_apply_piece (t := S256x9) 1 _ _ (ix2 k _) 6 ?_ S256x1 _ ?_ rfl 6 ?_ (ix2 k (0 : Fin 1)) hi ?_ <;> first | rfl | exact Nat.le_of_ble_eq_true rfl
  | ⟨7, _⟩ =>
    refine concatenate_apply_piece (t := S256x9) 1 _ _ (ix2 k _) 7 ?_ S256x1 _ ?_ rfl 7 ?_ (ix2 k (0 : Fin 1)) hi ?_ <;> first | rfl | exact Nat.le_of_ble_eq_true rfl
  | ⟨8, _⟩ =>
    refine concatenate_apply_piece (t := S256x9) 1 _ _ (ix2 k _) 8 ?_ S256x1 _ ?_ rfl 8 ?_ (ix2 k (0 : Fin 1)) hi ?_ <;> first | rfl | exact Nat.le_of_ble_eq_true rfl

/-- Columns 9 … 136 of the packed matrix are block 0 of the second group. -/
theorem packed_seg0 (k : Fin 256) (h : Fin 128) :
    packed cs s0 s1 s2 s3 s4 s5 s6 z (ix2 k (⟨9 + h.val, by have := h.isLt; omega⟩ : Fin 384)) = s0 (ix2 k h) := by
  have hh := h.isLt
  refine (packed_inside cs s0 s1 s2 s3 s4 s5 s6 z k _ (by show 9 + h.val < 263; omega)).trans ?_
  -- the second group, nine columns in
  refine (concatenate_pair_apply_right (t := S256x263) (s₁ := S256x9) (s₂ := S256x254) 1 _ _ _
    (ix2 k (⟨9 + h.val, by omega⟩ : Fin 263)) rfl rfl (ix2 k (⟨0 + h.val, by omega⟩ : Fin 254))
    (off_axis k _ _) (by show 0 + h.val + 9 = 9 + h.val; omega)).trans ?_
  -- its block 0, 0 columns in
  refine concatenate_apply_piece (t := S256x254) 1 _ _ (ix2 k _) 0 ?_ S256x128 _ ?_ rfl 0 ?_ (ix2 k h) (off_axis k _ _) ?_
    <;> first | rfl | exact Nat.le_of_ble_eq_true rfl

/-- Columns 137 … 200 of the packed matrix are block 1 of the second group. -/
theorem packed_seg1 (k : Fin 256) (h : Fin 64) :
    packed cs s0 s1 s2 s3 s4 s5 s6 z (ix2 k (⟨137 + h.val, by have := h.isLt; omega⟩ : Fin 384)) = s1 (ix2 k h) := by
  have hh := h.isLt
  refine (packed_inside cs s0 s1 s2 s3 s4 s5 s6 z k _ (by show 137 + h.val < 263; omega)).trans ?_
  -- the second group, nine columns in
  refine (concatenate_pair_apply_right (t := S256x263) (s₁ := S256x9) (s₂ := S256x254) 1 _ _ _
    (ix2 k (⟨137 + h.val, by omega⟩ : Fin 263)) rfl rfl (ix2 k (⟨128 + h.val, by omega⟩ : Fin 254))
    (off_axis k _ _) (by show 128 + h.val + 9 = 137 + h.val; omega)).trans ?_
  -- its block 1, 128 columns in
  refine concatenate_apply_piece (t := S256x254) 1 _ _ (ix2 k _) 1 ?_ S256x64 _ ?_ rfl 128 ?_ (ix2 k h) (off_axis k _ _) ?_
    <;> first | rfl | exact Nat.le_of_ble_eq_true rfl

/-- Columns 201 … 232 of the packed matrix are block 2 of the second group. -/
theorem packed_seg2 (k : Fin 256) (h : Fin 32) :
    packed cs s0 s1 s2 s3 s4 s5 s6 z (ix2 k (⟨201 + h.val, by have := h.isLt; omega⟩ : Fin 384)) = s2 (ix2 k h) := by
  have hh := h.isLt
  refine (packed_inside cs s0 s1 s2 s3 s4 s5 s6 z k _ (by show 201 + h.val < 263; omega)).trans ?_
  -- the second group, nine columns in
  refine (concatenate_pair_apply_right (t := S256x263) (s₁ := S256x9) (s₂ := S256x254) 1 _ _ _
    (ix2 k (⟨201 + h.val, by omega⟩ : Fin 263)) rfl rfl (ix2 k (⟨192 + h.val, by omega⟩ : Fin 254))
    (off_axis k _ _) (by show 192 + h.val + 9 = 201 + h.val; omega)).trans ?_
  -- its block 2, 192 columns in
  refine concatenate_apply_piece (t := S256x254) 1 _ _ (ix2 k _) 2 ?_ S256x32 _ ?_ rfl 192 ?_ (ix2 k h) (off_axis k _ _) ?_
    <;> first | rfl | exact Nat.le_of_ble_eq_true rfl

/-- Columns 233 … 248 of the packed matrix are block 3 of the second group. -/
theorem packed_seg3 (k : Fin 256) (h : Fin 16) :
    packed cs s0 s1 s2 s3 s4 s5 s6 z (ix2 k (⟨233 + h.val, by have := h.isLt; omega⟩ : Fin 384)) = s3 (ix2 k h) := by
  have hh := h.isLt
  refine (packed_inside cs s0 s1 s2 s3 s4 s5 s6 z k _ (by show 233 + h.val < 263; omega)).trans ?_
  -- the second group, nine columns in
  refine (concatenate_pair_apply_right (t := S256x263) (s₁ := S256x9) (s₂ := S256x254) 1 _ _ _
    (ix2 k (⟨233 + h.val, by omega⟩ : Fin 263)) rfl rfl (ix2 k (⟨224 + h.val, by omega⟩ : Fin 254))
    (off_axis k _ _) (by show 224 + h.val + 9 = 233 + h.val; omega)).trans ?_
  -- its block 3, 224 columns in
  refine concatenate_apply_piece (t := S256x254) 1 _ _ (ix2 k _) 3 ?_ S256x16 _ ?_ rfl 224 ?_ (ix2 k h) (off_axis k _ _) ?_
    <;> first | rfl | exact Nat.le_of_ble_eq_true rfl

/-- Columns 249 … 256 of the packed matrix are block 4 of the second group. -/
theorem packed_seg4 (k : Fin 256) (h : Fin 8) :
    packed cs s0 s1 s2 s3 s4 s5 s6 z (ix2 k (⟨249 + h.val, by have := h.isLt; omega⟩ : Fin 384)) = s4 (ix2 k h) := by
  have hh := h.isLt
  refine (packed_inside cs s0 s1 s2 s3 s4 s5 s6 z k _ (by show 249 + h.val < 263; omega)).trans ?_
  -- the second group, nine columns in
  refine (concatenate_pair_apply_right (t := S256x263) (s₁ := S256x9) (s₂ := S256x254) 1 _ _ _
    (ix2 k (⟨249 + h.val, by omega⟩ : Fin 263)) rfl rfl (ix2 k (⟨240 + h.val, by omega⟩ : Fin 254))
    (off_axis k _ _) (by show 240 + h.val + 9 = 249 + h.val; omega)).trans ?_
  -- its block 4, 240 columns in
  refine concatenate_apply_piece (t := S256x254) 1 _ _ (ix2 k _) 4 ?_ S256x8 _ ?_ rfl 240 ?_ (ix2 k h) (off_axis k _ _) ?_
    <;> first | rfl | exact Nat.le_of_ble_eq_true rfl

/-- Columns 257 … 260 of the packed matrix are block 5 of the second group. -/
theorem packed_seg5 (k : Fin 256) (h : Fin 4) :
    packed cs s0 s1 s2 s3 s4 s5 s6 z (ix2 k (⟨257 + h.val, by have := h.isLt; omega⟩ : Fin 384)) = s5 (ix2 k h) := by
  have hh := h.isLt
  refine (packed_inside cs s0 s1 s2 s3 s4 s5 s6 z k _ (by show 257 + h.val < 263; omega)).trans ?_
  -- the second group, nine columns in
  refine (concatenate_pair_apply_right (t := S256x263) (s₁ := S256x9) (s₂ := S256x254) 1 _ _ _
    (ix2 k (⟨257 + h.val, by omega⟩ : Fin 263)) rfl rfl (ix2 k (⟨248 + h.val, by omega⟩ : Fin 254))
    (off_axis k _ _) (by show 248 + h.val + 9 = 257 + h.val; omega)).trans ?_
  -- its block 5, 248 columns in
  refine concatenate_apply_piece (t := S256x254) 1 _ _ (ix2 k _) 5 ?_ S256x4 _ ?_ rfl 248 ?_ (ix2 k h) (off_axis k _ _) ?_
    <;> first | rfl | exact Nat.le_of_ble_eq_true rfl

/-- Columns 261 … 262 of the packed matrix are block 6 of the second group. -/
theorem packed_seg6 (k : Fin 256) (h : Fin 2) :
    packed cs s0 s1 s2 s3 s4 s5 s6 z (ix2 k (⟨261 + h.val, by have := h.isLt; omega⟩ : Fin 384)) = s6 (ix2 k h) := by
  have hh := h.isLt
  refine (packed_inside cs s0 s1 s2 s3 s4 s5 s6 z k _ (by show 261 + h.val < 263; omega)).trans ?_
  -- the second group, nine columns in
  refine (concatenate_pair_apply_right (t := S256x263) (s₁ := S256x9) (s₂ := S256x254) 1 _ _ _
    (ix2 k (⟨261 + h.val, by omega⟩ : Fin 263)) rfl rfl (ix2 k (⟨252 + h.val, by omega⟩ : Fin 254))
    (off_axis k _ _) (by show 252 + h.val + 9 = 261 + h.val; omega)).trans ?_
  -- its block 6, 252 columns in
  refine concatenate_apply_piece (t := S256x254) 1 _ _ (ix2 k _) 6 ?_ S256x2 _ ?_ rfl 252 ?_ (ix2 k h) (off_axis k _ _) ?_
    <;> first | rfl | exact Nat.le_of_ble_eq_true rfl

end Assembly

/-- The nine leading columns as the host lines build them from the table `t`: column `j` takes the first `2^(8-j)`
    entries of table row `8 - j`, tiles them down 256 entries and stands the result up as a 256 × 1 matrix. -/
def cols (t : FVec Ideal S16x32768 .f32) : Fin 9 → (S256x1.Idx → EReal) :=
  ![broadcastInDim S256x1 ![0] bcast_S256_S256x1_0 (shapeCast S256 (broadcastInDim S1x256 ![0, 1] bcast_S1x256_S1x256_0_1
      (shapeCast S1x256 (shapeCast S256 (extractStridedSlice S1x256 ![8, 0] t slices_S16x32768_S1x256_8_0)
        shapeCasts_S1x256_S256) shapeCasts_S256_S1x256)) shapeCasts_S1x256_S256),
    broadcastInDim S256x1 ![0] bcast_S256_S256x1_0 (shapeCast S256 (broadcastInDim S2x128 ![0, 1] bcast_S1x128_S2x128_0_1
      (shapeCast S1x128 (shapeCast S128 (extractStridedSlice S1x128 ![7, 0] t slices_S16x32768_S1x128_7_0)
        shapeCasts_S1x128_S128) shapeCasts_S128_S1x128)) shapeCasts_S2x128_S256),
    broadcastInDim S256x1 ![0] bcast_S256_S256x1_0 (shapeCast S256 (broadcastInDim S4x64 ![0, 1] bcast_S1x64_S4x64_0_1
      (shapeCast S1x64 (shapeCast S64 (extractStridedSlice S1x64 ![6, 0] t slices_S16x32768_S1x64_6_0)
        shapeCasts_S1x64_S64) shapeCasts_S64_S1x64)) shapeCasts_S4x64_S256),
    broadcastInDim S256x1 ![0] bcast_S256_S256x1_0 (shapeCast S256 (broadcastInDim S8x32 ![0, 1] bcast_S1x32_S8x32_0_1
      (shapeCast S1x32 (shapeCast S32 (extractStridedSlice S1x32 ![5, 0] t slices_S16x32768_S1x32_5_0)
        shapeCasts_S1x32_S32) shapeCasts_S32_S1x32)) shapeCasts_S8x32_S256),
    broadcastInDim S256x1 ![0] bcast_S256_S256x1_0 (shapeCast S256 (broadcastInDim S16x16 ![0, 1] bcast_S1x16_S16x16_0_1
      (shapeCast S1x16 (shapeCast S16 (extractStridedSlice S1x16 ![4, 0] t slices_S16x32768_S1x16_4_0)
        shapeCasts_S1x16_S16) shapeCasts_S16_S1x16)) shapeCasts_S16x16_S256),
    broadcastInDim S256x1 ![0] bcast_S256_S256x1_0 (shapeCast S256 (broadcastInDim S32x8 ![0, 1] bcast_S1x8_S32x8_0_1
      (shapeCast S1x8 (shapeCast S8 (extractStridedSlice S1x8 ![3, 0] t slices_S16x32768_S1x8_3_0)
        shapeCasts_S1x8_S8) shapeCasts_S8_S1x8)) shapeCasts_S32x8_S256),
    broadcastInDim S256x1 ![0] bcast_S256_S256x1_0 (shapeCast S256 (broadcastInDim S64x4 ![0, 1] bcast_S1x4_S64x4_0_1
      (shapeCast S1x4 (shapeCast S4 (extractStridedSlice S1x4 ![2, 0] t slices_S16x32768_S1x4_2_0)
        shapeCasts_S1x4_S4) shapeCasts_S4_S1x4)) shapeCasts_S64x4_S256),
    broadcastInDim S256x1 ![0] bcast_S256_S256x1_0 (shapeCast S256 (broadcastInDim S128x2 ![0, 1] bcast_S1x2_S128x2_0_1
      (shapeCast S1x2 (shapeCast S2 (extractStridedSlice S1x2 ![1, 0] t slices_S16x32768_S1x2_1_0)
        shapeCasts_S1x2_S2) shapeCasts_S2_S1x2)) shapeCasts_S128x2_S256),
    broadcastInDim S256x1 ![0] bcast_S256_S256x1_0 (shapeCast S256 (broadcastInDim S256x1 ![0, 1] bcast_S1x1_S256x1_0_1
      (shapeCast S1x1 (shapeCast S1 (extractStridedSlice S1x1 ![0, 0] t slices_S16x32768_S1x1_0_0)
        shapeCasts_S1x1_S1) shapeCasts_S1_S1x1)) shapeCasts_S256x1_S256)]

/-- The seven segments as the host lines build them: segment `i` takes the first `2^(15-i)` entries of table row
    `15 - i`, lays them out in rows of 256 and transposes. -/
def seg0 (t : FVec Ideal S16x32768 .f32) : S256x128.Idx → EReal :=
  transpose S256x128 [1, 0] (shapeCast S128x256 (shapeCast S32768
    (extractStridedSlice S1x32768 ![15, 0] t slices_S16x32768_S1x32768_15_0) shapeCasts_S1x32768_S32768)
    shapeCasts_S32768_S128x256) transposes_S128x256_S256x128_1_0
def seg1 (t : FVec Ideal S16x32768 .f32) : S256x64.Idx → EReal :=
  transpose S256x64 [1, 0] (shapeCast S64x256 (shapeCast S16384
    (extractStridedSlice S1x16384 ![14, 0] t slices_S16x32768_S1x16384_14_0) shapeCasts_S1x16384_S16384)
    shapeCasts_S16384_S64x256) transposes_S64x256_S256x64_1_0
def seg2 (t : FVec Ideal S16x32768 .f32) : S256x32.Idx → EReal :=
  transpose S256x32 [1, 0] (shapeCast S32x256 (shapeCast S8192
    (extractStridedSlice S1x8192 ![13, 0] t slices_S16x32768_S1x8192_13_0) shapeCasts_S1x8192_S8192)
    shapeCasts_S8192_S32x256) transposes_S32x256_S256x32_1_0
def seg3 (t : FVec Ideal S16x32768 .f32) : S256x16.Idx → EReal :=
  transpose S256x16 [1, 0] (shapeCast S16x256 (shapeCast S4096
    (extractStridedSlice S1x4096 ![12, 0] t slices_S16x32768_S1x4096_12_0) shapeCasts_S1x4096_S4096)
    shapeCasts_S4096_S16x256) transposes_S16x256_S256x16_1_0
def seg4 (t : FVec Ideal S16x32768 .f32) : S256x8.Idx → EReal :=
  transpose S256x8 [1, 0] (shapeCast S8x256 (shapeCast S2048
    (extractStridedSlice S1x2048 ![11, 0] t slices_S16x32768_S1x2048_11_0) shapeCasts_S1x2048_S2048)
    shapeCasts_S2048_S8x256) transposes_S8x256_S256x8_1_0
def seg5 (t : FVec Ideal S16x32768 .f32) : S256x4.Idx → EReal :=
  transpose S256x4 [1, 0] (shapeCast S4x256 (shapeCast S1024
    (extractStridedSlice S1x1024 ![10, 0] t slices_S16x32768_S1x1024_10_0) shapeCasts_S1x1024_S1024)
    shapeCasts_S1024_S4x256) transposes_S4x256_S256x4_1_0
def seg6 (t : FVec Ideal S16x32768 .f32) : S256x2.Idx → EReal :=
  transpose S256x2 [1, 0] (shapeCast S2x256 (shapeCast S512
    (extractStridedSlice S1x512 ![9, 0] t slices_S16x32768_S1x512_9_0) shapeCasts_S1x512_S512)
    shapeCasts_S512_S2x256) transposes_S2x256_S256x2_1_0

/-- A table entry named by in-range natural coordinates is the table at those coordinates. -/
theorem tab_eq (t : FVec Ideal ⟨2, ![16, 32768]⟩ .f32) (p n : ℕ) (hp : p < 16) (hn : n < 32768) :
    tab t p n = t (ix2 ⟨p, hp⟩ ⟨n, hn⟩) := by
  unfold tab
  refine congrArg t (funext fun a => ?_)
  match a with
  | ⟨0, _⟩ => exact Fin.ext (Nat.mod_eq_of_lt hp)
  | ⟨1, _⟩ => exact Fin.ext (Nat.mod_eq_of_lt hn)

/-- Column `j` of the nine holds table row `8 - j` at `k mod 2^(8-j)`. -/
theorem cols_apply (t : FVec Ideal S16x32768 .f32) (k : Fin 256) (j : Fin 9) :
    cols t j (ix2 k (0 : Fin 1)) = tab t (8 - j.val) (k.val % 2 ^ (8 - j.val)) := by
  have hk := k.isLt
  match j with
  | ⟨0, _⟩ =>
    exact (col_apply (n := 256) (a := 1) 8 t slices_S16x32768_S1x256_8_0 shapeCasts_S1x256_S256 shapeCasts_S256_S1x256 bcast_S1x256_S1x256_0_1 shapeCasts_S1x256_S256
      bcast_S256_S256x1_0 k 0 (by decide) (by decide) (by decide) (by decide)).trans
      (tab_eq t 8 (k.val % 256) (by decide) (by omega)).symm
  | ⟨1, _⟩ =>
    exact (col_apply (n := 128) (a := 2) 7 t slices_S16x32768_S1x128_7_0 shapeCasts_S1x128_S128 shapeCasts_S128_S1x128 bcast_S1x128_S2x128_0_1 shapeCasts_S2x128_S256
      bcast_S256_S256x1_0 k 0 (by decide) (by decide) (by decide) (by decide)).trans
      (tab_eq t 7 (k.val % 128) (by decide) (by omega)).symm
  | ⟨2, _⟩ =>
    exact (col_apply (n := 64) (a := 4) 6 t slices_S16x32768_S1x64_6_0 shapeCasts_S1x64_S64 shapeCasts_S64_S1x64 bcast_S1x64_S4x64_0_1 shapeCasts_S4x64_S256
      bcast_S256_S256x1_0 k 0 (by decide) (by decide) (by decide) (by decide)).trans
      (tab_eq t 6 (k.val % 64) (by decide) (by omega)).symm
  | ⟨3, _⟩ =>
    exact (col_apply (n := 32) (a := 8) 5 t slices_S16x32768_S1x32_5_0 shapeCasts_S1x32_S32 shapeCasts_S32_S1x32 bcast_S1x32_S8x32_0_1 shapeCasts_S8x32_S256
      bcast_S256_S256x1_0 k 0 (by decide) (by decide) (by decide) (by decide)).trans
      (tab_eq t 5 (k.val % 32) (by decide) (by omega)).symm
  | ⟨4, _⟩ =>
    exact (col_apply (n := 16) (a := 16) 4 t slices_S16x32768_S1x16_4_0 shapeCasts_S1x16_S16 shapeCasts_S16_S1x16 bcast_S1x16_S16x16_0_1 shapeCasts_S16x16_S256
      bcast_S256_S256x1_0 k 0 (by decide) (by decide) (by decide) (by decide)).trans
      (tab_eq t 4 (k.val % 16) (by decide) (by omega)).symm
  | ⟨5, _⟩ =>
    exact (col_apply (n := 8) (a := 32) 3 t slices_S16x32768_S1x8_3_0 shapeCasts_S1x8_S8 shapeCasts_S8_S1x8 bcast_S1x8_S32x8_0_1 shapeCasts_S32x8_S256
      bcast_S256_S256x1_0 k 0 (by decide) (by decide) (by decide) (by decide)).trans
      (tab_eq t 3 (k.val % 8) (by decide) (by omega)).symm
  | ⟨6, _⟩ =>
    exact (col_apply (n := 4) (a := 64) 2 t slices_S16x32768_S1x4_2_0 shapeCasts_S1x4_S4 shapeCasts_S4_S1x4 bcast_S1x4_S64x4_0_1 shapeCasts_S64x4_S256
      bcast_S256_S256x1_0 k 0 (by decide) (by decide) (by decide) (by decide)).trans
      (tab_eq t 2 (k.val % 4) (by decide) (by omega)).symm
  | ⟨7, _⟩ =>
    exact (col_apply (n := 2) (a := 128) 1 t slices_S16x32768_S1x2_1_0 shapeCasts_S1x2_S2 shapeCasts_S2_S1x2 bcast_S1x2_S128x2_0_1 shapeCasts_S128x2_S256
      bcast_S256_S256x1_0 k 0 (by decide) (by decide) (by decide) (by decide)).trans
      (tab_eq t 1 (k.val % 2) (by decide) (by omega)).symm
  | ⟨8, _⟩ =>
    exact (col_apply (n := 1) (a := 256) 0 t slices_S16x32768_S1x1_0_0 shapeCasts_S1x1_S1 shapeCasts_S1_S1x1 bcast_S1x1_S256x1_0_1 shapeCasts_S256x1_S256
      bcast_S256_S256x1_0 k 0 (by decide) (by decide) (by decide) (by decide)).trans
      (tab_eq t 0 (k.val % 1) (by decide) (by omega)).symm

/-- Segment `i` holds table row `15 - i` at `h * 256 + k` in its column `h`. -/
theorem seg0_apply (t : FVec Ideal S16x32768 .f32) (k : Fin 256) (h : Fin 128) :
    seg0 t (ix2 k h) = tab t 15 (h.val * 256 + k.val) :=
  (seg_apply (w := 128) (N := 32768) 15 t slices_S16x32768_S1x32768_15_0 shapeCasts_S1x32768_S32768
    shapeCasts_S32768_S128x256 transposes_S128x256_S256x128_1_0 k h (by decide) (by decide) (by decide)).trans
    (tab_eq t 15 _ (by decide) (by have := k.isLt; have := h.isLt; omega)).symm
theorem seg1_apply (t : FVec Ideal S16x32768 .f32) (k : Fin 256) (h : Fin 64) :
    seg1 t (ix2 k h) = tab t 14 (h.val * 256 + k.val) :=
  (seg_apply (w := 64) (N := 16384) 14 t slices_S16x32768_S1x16384_14_0 shapeCasts_S1x16384_S16384
    shapeCasts_S16384_S64x256 transposes_S64x256_S256x64_1_0 k h (by decide) (by decide) (by decide)).trans
    (tab_eq t 14 _ (by decide) (by have := k.isLt; have := h.isLt; omega)).symm
theorem seg2_apply (t : FVec Ideal S16x32768 .f32) (k : Fin 256) (h : Fin 32) :
    seg2 t (ix2 k h) = tab t 13 (h.val * 256 + k.val) :=
  (seg_apply (w := 32) (N := 8192) 13 t slices_S16x32768_S1x8192_13_0 shapeCasts_S1x8192_S8192
    shapeCasts_S8192_S32x256 transposes_S32x256_S256x32_1_0 k h (by decide) (by decide) (by decide)).trans
    (tab_eq t 13 _ (by decide) (by have := k.isLt; have := h.isLt; omega)).symm
theorem seg3_apply (t : FVec Ideal S16x32768 .f32) (k : Fin 256) (h : Fin 16) :
    seg3 t (ix2 k h) = tab t 12 (h.val * 256 + k.val) :=
  (seg_apply (w := 16) (N := 4096) 12 t slices_S16x32768_S1x4096_12_0 shapeCasts_S1x4096_S4096
    shapeCasts_S4096_S16x256 transposes_S16x256_S256x16_1_0 k h (by decide) (by decide) (by decide)).trans
    (tab_eq t 12 _ (by decide) (by have := k.isLt; have := h.isLt; omega)).symm
theorem seg4_apply (t : FVec Ideal S16x32768 .f32) (k : Fin 256) (h : Fin 8) :
    seg4 t (ix2 k h) = tab t 11 (h.val * 256 + k.val) :=
  (seg_apply (w := 8) (N := 2048) 11 t slices_S16x32768_S1x2048_11_0 shapeCasts_S1x2048_S2048
    shapeCasts_S2048_S8x256 transposes_S8x256_S256x8_1_0 k h (by decide) (by decide) (by decide)).trans
    (tab_eq t 11 _ (by decide) (by have := k.isLt; have := h.isLt; omega)).symm
theorem seg5_apply (t : FVec Ideal S16x32768 .f32) (k : Fin 256) (h : Fin 4) :
    seg5 t (ix2 k h) = tab t 10 (h.val * 256 + k.val) :=
  (seg_apply (w := 4) (N := 1024) 10 t slices_S16x32768_S1x1024_10_0 shapeCasts_S1x1024_S1024
    shapeCasts_S1024_S4x256 transposes_S4x256_S256x4_1_0 k h (by decide) (by decide) (by decide)).trans
    (tab_eq t 10 _ (by decide) (by have := k.isLt; have := h.isLt; omega)).symm
theorem seg6_apply (t : FVec Ideal S16x32768 .f32) (k : Fin 256) (h : Fin 2) :
    seg6 t (ix2 k h) = tab t 9 (h.val * 256 + k.val) :=
  (seg_apply (w := 2) (N := 512) 9 t slices_S16x32768_S1x512_9_0 shapeCasts_S1x512_S512
    shapeCasts_S512_S2x256 transposes_S2x256_S256x2_1_0 k h (by decide) (by decide) (by decide)).trans
    (tab_eq t 9 _ (by decide) (by have := k.isLt; have := h.isLt; omega)).symm

/-- Which segment a column lies in, on each segment's range. -/
theorem segOf_eq (lo hi i : ℕ) (col : ℕ) (hlo : lo ≤ col) (hhi : col < hi)
    (hr : (lo, hi, i) = (9, 137, 0) ∨ (lo, hi, i) = (137, 201, 1) ∨ (lo, hi, i) = (201, 233, 2) ∨ (lo, hi, i) = (233, 249, 3)
      ∨ (lo, hi, i) = (249, 257, 4) ∨ (lo, hi, i) = (257, 261, 5) ∨ (lo, hi, i) = (261, 263, 6)) :
    segOf col = (i, lo) := by
  unfold segOf
  rcases hr with h | h | h | h | h | h | h <;> (cases h; split_ifs <;> first | rfl | (exfalso; omega))

/-- The padding value: the integer zero converted is the real zero. -/
theorem pad_zero (i : S_.Idx) : (sitofp (F := Ideal) .f32 (constantI S_ 32 0#32) : FVec Ideal S_ .f32) i = 0 := by
  show (((0#32 : BitVec 32).toInt : ℝ) : EReal) = 0
  rw [show (0#32 : BitVec 32).toInt = 0 from by decide]
  simp

/-- The packed layout of the sixteen pieces is `Spec.himat` of the table, entry by entry: a column below 9 is one of
    the tiled rows, a column below 263 lies in one of the seven transposed segments, and the rest is padding. -/
theorem himat_of (t : FVec Ideal S16x32768 .f32) :
    (truncf .bf16 (packed (cols t) (seg0 t) (seg1 t) (seg2 t) (seg3 t) (seg4 t) (seg5 t) (seg6 t)
      (sitofp (F := Ideal) .f32 (constantI S_ 32 0#32))) bitsLt_bf16_f32 : FVec Ideal S256x384 .bf16) = himat t := by
  funext j
  obtain ⟨k, col, rfl⟩ : ∃ (k : Fin 256) (col : Fin 384), j = ix2 k col := ⟨j 0, j 1, eq_ix2 j⟩
  obtain ⟨cv, hcv⟩ := col
  show packed (cols t) (seg0 t) (seg1 t) (seg2 t) (seg3 t) (seg4 t) (seg5 t) (seg6 t)
      (sitofp (F := Ideal) .f32 (constantI S_ 32 0#32)) (ix2 k ⟨cv, hcv⟩)
    = if cv < 9 then tab t (8 - cv) (k.val % 2 ^ (8 - cv))
      else if cv < 263 then tab t (15 - (segOf cv).1) ((cv - (segOf cv).2) * 256 + k.val) else _
  by_cases h9 : cv < 9
  · rw [if_pos h9]
    exact (packed_col _ _ _ _ _ _ _ _ _ k ⟨cv, h9⟩).trans (cols_apply t k ⟨cv, h9⟩)
  rw [if_neg h9]
  by_cases h263 : cv < 263
  · rw [if_pos h263]
    by_cases h137 : cv < 137
    · obtain ⟨h, rfl⟩ : ∃ h, cv = 9 + h := ⟨cv - 9, by omega⟩
      rw [segOf_eq 9 137 0 _ (by omega) (by omega) (Or.inl rfl)]
      show _ = tab t 15 ((9 + h - 9) * 256 + k.val)
      rw [Nat.add_sub_cancel_left]
      exact (packed_seg0 _ _ _ _ _ _ _ _ _ k ⟨h, by omega⟩).trans (seg0_apply t k ⟨h, by omega⟩)
    by_cases h201 : cv < 201
    · obtain ⟨h, rfl⟩ : ∃ h, cv = 137 + h := ⟨cv - 137, by omega⟩
      rw [segOf_eq 137 201 1 _ (by omega) (by omega) (Or.inr (Or.inl rfl))]
      show _ = tab t 14 ((137 + h - 137) * 256 + k.val)
      rw [Nat.add_sub_cancel_left]
      exact (packed_seg1 _ _ _ _ _ _ _ _ _ k ⟨h, by omega⟩).trans (seg1_apply t k ⟨h, by omega⟩)
    by_cases h233 : cv < 233
    · obtain ⟨h, rfl⟩ : ∃ h, cv = 201 + h := ⟨cv - 201, by omega⟩
      rw [segOf_eq 201 233 2 _ (by omega) (by omega) (Or.inr (Or.inr (Or.inl rfl)))]
      show _ = tab t 13 ((201 + h - 201) * 256 + k.val)
      rw [Nat.add_sub_cancel_left]
      exact (packed_seg2 _ _ _ _ _ _ _ _ _ k ⟨h, by omega⟩).trans (seg2_apply t k ⟨h, by omega⟩)
    by_cases h249 : cv < 249
    · obtain ⟨h, rfl⟩ : ∃ h, cv = 233 + h := ⟨cv - 233, by omega⟩
      rw [segOf_eq 233 249 3 _ (by omega) (by omega) (Or.inr (Or.inr (Or.inr (Or.inl rfl))))]
      show _ = tab t 12 ((233 + h - 233) * 256 + k.val)
      rw [Nat.add_sub_cancel_left]
      exact (packed_seg3 _ _ _ _ _ _ _ _ _ k ⟨h, by omega⟩).trans (seg3_apply t k ⟨h, by omega⟩)
    by_cases h257 : cv < 257
    · obtain ⟨h, rfl⟩ : ∃ h, cv = 249 + h := ⟨cv - 249, by omega⟩
      rw [segOf_eq 249 257 4 _ (by omega) (by omega) (Or.inr (Or.inr (Or.inr (Or.inr (Or.inl rfl)))))]
      show _ = tab t 11 ((249 + h - 249) * 256 + k.val)
      rw [Nat.add_sub_cancel_left]
      exact (packed_seg4 _ _ _ _ _ _ _ _ _ k ⟨h, by omega⟩).trans (seg4_apply t k ⟨h, by omega⟩)
    by_cases h261 : cv < 261
    · obtain ⟨h, rfl⟩ : ∃ h, cv = 257 + h := ⟨cv - 257, by omega⟩
      rw [segOf_eq 257 261 5 _ (by omega) (by omega) (Or.inr (Or.inr (Or.inr (Or.inr (Or.inr (Or.inl rfl))))))]
      show _ = tab t 10 ((257 + h - 257) * 256 + k.val)
      rw [Nat.add_sub_cancel_left]
      exact (packed_seg5 _ _ _ _ _ _ _ _ _ k ⟨h, by omega⟩).trans (seg5_apply t k ⟨h, by omega⟩)
    · obtain ⟨h, rfl⟩ : ∃ h, cv = 261 + h := ⟨cv - 261, by omega⟩
      rw [segOf_eq 261 263 6 _ (by omega) (by omega) (Or.inr (Or.inr (Or.inr (Or.inr (Or.inr (Or.inr rfl))))))]
      show _ = tab t 9 ((261 + h - 261) * 256 + k.val)
      rw [Nat.add_sub_cancel_left]
      exact (packed_seg6 _ _ _ _ _ _ _ _ _ k ⟨h, by omega⟩).trans (seg6_apply t k ⟨h, by omega⟩)
  · rw [if_neg h263]
    exact (packed_outside _ _ _ _ _ _ _ _ _ k ⟨cv, hcv⟩ (by show 263 ≤ cv; omega)).trans (pad_zero _)

set_option maxHeartbeats 4000000 in
/-- The host lines, run: the staged matrix is the packed layout of the sixteen pieces of the table, padded with the
    integer zero converted, then narrowed.  Each line writes its own buffer with its function of its operands'
    contents and leaves every other buffer as it was, so the fold over the lines, read at the last buffer, unfolds
    to the composition of the lines' functions along the data flow; that composition is the right-hand side. -/
theorem run_v86 (m : (ℓ : Loc nD τ sig) → Buf (Elt Ideal) ℓ) (c : Dev nD) :
    (V m c main_v86 : S256x384.Idx → EReal)
      = (truncf .bf16 (packed (cols (m ((c : Thread nD τ).loc main_arg1)))
          (seg0 (m ((c : Thread nD τ).loc main_arg1))) (seg1 (m ((c : Thread nD τ).loc main_arg1)))
          (seg2 (m ((c : Thread nD τ).loc main_arg1))) (seg3 (m ((c : Thread nD τ).loc main_arg1)))
          (seg4 (m ((c : Thread nD τ).loc main_arg1))) (seg5 (m ((c : Thread nD τ).loc main_arg1)))
          (seg6 (m ((c : Thread nD τ).loc main_arg1)))
          (sitofp (F := Ideal) .f32 (constantI S_ 32 0#32))) bitsLt_bf16_f32 : FVec Ideal S256x384 .bf16) := by
  dsimp only [V]
  simp only [hostOps0, hostOps0_1, hostOps0_2, List.flatten_cons, List.flatten_nil, List.append_nil, List.cons_append,
    List.nil_append]
  simp only [StableHlo.after_cons, StableHlo.after_nil]
  rfl

/-- After the host lines, the matrix staged for the kernel holds, at row k and column j, the table entry
    `Spec.himat` names. -/
theorem himat_eq (m : (ℓ : Loc nD τ sig) → Buf (Elt Ideal) ℓ) (c : Dev nD) :
    (V m c main_v86 : S256x384.Idx → EReal) = himat (m ((c : Thread nD τ).loc main_arg1)) :=
  (run_v86 m c).trans (himat_of (m ((c : Thread nD τ).loc main_arg1)))

end Cert.KernelIdeal.Hand

end
-- ==== Proof.KBodyA.lean ====
/- The body's addresses and its matrix product, read at an index.

   The first product multiplies each digit by its place value 2^(15 − c) and sums, over the columns strictly
   to the right of c, through the strict triangle tri(k, c) = [c < k]: at the extended reals the contraction is
   the exact sum, a natural number below 2^15, which the conversion back to words returns unchanged.  The second
   product contracts a row that is 1 at the low address and 0 elsewhere against the packed matrix: since
   0 · x = 0 for every extended real x, only the term at the low address survives. -/
import proofs.«410118_j27668179321271_3_alg».proof.Proof.PayI
import proofs.«410118_j27668179321271_3_alg».proof.Proof.Spec
import Idealize.ShloMosaic.Lib.Pipeline.Value
import Idealize.ShloMosaic.Lib.ValueLayout
import Idealize.ShloMosaic.PureOps.Ideal.Laws
import Mathlib.Tactic.FinCases
import Mathlib.Algebra.BigOperators.Fin

noncomputable section

namespace Cert.KernelIdeal.Hand

open Cert.KernelIdeal Cert.KernelIdeal.Gen Cert.Spec
open Idealize.ShloMosaic Idealize.ShloMosaic.ValueIdx Idealize.SL.Sem
open scoped BigOperators

/-- The context address of a column of digits stays below the place value of that column. -/
theorem addr_lt (x : Fin 16 → BitVec 32) (hx : ∀ c, x c = 0#32 ∨ x c = 1#32) (c : Fin 16) :
    addr x c < 2 ^ (15 - c.val) := by
  -- each digit reads as a natural number at most 1, so the sum over the columns right of c is at most
  -- 2^(14 − c) + … + 2 + 1 = 2^(15 − c) − 1: linear arithmetic once the sixteen terms are written out
  have h : ∀ k, (x k).toNat ≤ 1 := fun k => by
    rcases hx k with h | h <;> rw [h] <;> decide
  have h0 := h 0; have h1 := h 1; have h2 := h 2; have h3 := h 3
  have h4 := h 4; have h5 := h 5; have h6 := h 6; have h7 := h 7
  have h8 := h 8; have h9 := h 9; have h10 := h 10; have h11 := h 11
  have h12 := h 12; have h13 := h 13; have h14 := h 14; have h15 := h 15
  fin_cases c <;> simp [addr, Fin.sum_univ_succ] <;> omega

namespace KBodyA

/-! ## Words and casts -/

/-- A finite sum of natural numbers, each read as an extended real, is the sum read as an extended real. -/
theorem sum_natCast_ereal {ι : Type} (s : Finset ι) (f : ι → ℕ) :
    ∑ k ∈ s, (((f k : ℕ) : ℝ) : EReal) = (((∑ k ∈ s, f k : ℕ) : ℝ) : EReal) := by
  classical
  induction s using Finset.induction_on with
  | empty => simp
  | insert a s ha ih =>
    rw [Finset.sum_insert ha, Finset.sum_insert ha, ih, Nat.cast_add, EReal.coe_add]

/-- Rounding toward zero and clamping to the signed 32-bit range leaves a natural number below 2^31 as it is. -/
theorem fptosi_natCast (n : ℕ) (h : n < 2 ^ 31) : Ideal.fptosi 32 (((n : ℝ)) : EReal) = BitVec.ofNat 32 n := by
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    have h2 : ((2 ^ (32 - 1) : ℕ) : ℤ) = 2147483648 := by norm_num
    rw [h2]; omega
  rw [e]
  exact BitVec.ofInt_natCast 32 n

/-- A digit times a place value 2^(15 − k), as words, read signed: no wrap, since the product is at most 2^15. -/
theorem word_mul (k : Fin 16) (b : BitVec 32) (hb : b = 0#32 ∨ b = 1#32) :
    (IntOp.muli b (BitVec.ofNat 32 (2 ^ (15 - k.val)))).toInt = ((b.toNat * 2 ^ (15 - k.val) : ℕ) : ℤ) := by
  rcases hb with rfl | rfl <;> revert k <;> decide

/-- Equality of two words below 2^32, widened to a word and read signed, is 1 or 0 as the numbers are equal or not. -/
theorem eq_word (m n : ℕ) (hm : m < 2 ^ 32) (hn : n < 2 ^ 32) :
    ((IntOp.cmpi .eq (BitVec.ofNat 32 m) (BitVec.ofNat 32 n)).setWidth 32).toInt = if m = n then 1 else 0 := by
  by_cases h : m = n
  · subst h
    rw [if_pos rfl]
    show ((BitVec.ofBool (BitVec.ofNat 32 m == BitVec.ofNat 32 m)).setWidth 32).toInt = 1
    rw [beq_self_eq_true]; decide
  · rw [if_neg h]
    have hne : (BitVec.ofNat 32 m == BitVec.ofNat 32 n) = false := by
      rw [beq_eq_false_iff_ne]
      intro e
      apply h
      have e' := congrArg BitVec.toNat e
      rw [BitVec.toNat_ofNat, BitVec.toNat_ofNat, Nat.mod_eq_of_lt hm, Nat.mod_eq_of_lt hn] at e'
      exact e'
    show ((BitVec.ofBool (BitVec.ofNat 32 m == BitVec.ofNat 32 n)).setWidth 32).toInt = 0
    rw [hne]; decide

/-! ## The place values and the left operand of the first product -/

/-- The row of place values: 1 shifted left by 15 − c in column c. -/
def pv : IVec S1x16 32 :=
  shli (broadcast S1x16 1#32) (subi (broadcast S1x16 15#32) (iota .tc S1x16 32 [1] iota_S1x16_d1_w32))

/-- Column c of that row is the word 2^(15 − c): the shift amount is below 32, so the shift is the plain one. -/
theorem pv_apply (c : Fin 16) : pv (ix2 0 c) = BitVec.ofNat 32 (2 ^ (15 - c.val)) := by
  show IntOp.shli .vector 1#32 (IntOp.subi 15#32 (iota .tc S1x16 32 [1] iota_S1x16_d1_w32 (ix2 0 c))) = _
  rw [iota_single_apply]
  show IntOp.shli .vector 1#32 (IntOp.subi 15#32 (BitVec.ofNat 32 c.val)) = _
  revert c; decide

/-- The left operand: each digit times its column's place value, converted to a float. -/
def lhsv (x0 : Vec Ideal S2048x16 .i32) : FVec Ideal S2048x16 .f32 :=
  sitofp .f32 (muli x0 (broadcastTo S2048x16 pv broadcasts_S1x16_S2048x16))

/-- Entry (r, k) of the left operand is the natural number x0(r, k) · 2^(15 − k). -/
theorem lhsv_apply (x0 : Vec Ideal S2048x16 .i32) (hx : IsBit x0) (r : Fin 2048) (k : Fin 16) :
    lhsv x0 (ix2 r k) = ((((x0 (ix2 r k)).toNat * 2 ^ (15 - k.val) : ℕ) : ℝ) : EReal) := by
  show FloatOps.sitofp .f32 (IntOp.muli (x0 (ix2 r k)) (broadcastTo S2048x16 pv broadcasts_S1x16_S2048x16 (ix2 r k))) = _
  rw [broadcastTo_apply pv broadcasts_S1x16_S2048x16 (ix2 r k) (ix2 0 k)
    (fun a => match a with | ⟨0, _⟩ => rfl | ⟨1, _⟩ => rfl), pv_apply]
  show ((((IntOp.muli (x0 (ix2 r k)) (BitVec.ofNat 32 (2 ^ (15 - k.val)))).toInt : ℝ)) : EReal) = _
  rw [word_mul k _ (hx _)]
  norm_cast

/-! ## The strict triangle, the right operand of the first product -/

/-- tri(k, c) = [k > c] as a float: row number against column number, compared signed. -/
def tri : FVec Ideal S16x16 .f32 :=
  sitofp .f32 (extui 32 (cmpi .sgt (iota .tc S16x16 32 [0] iota_S16x16_d0_w32) (iota .tc S16x16 32 [1] iota_S16x16_d1_w32)) natLt_1_32)

/-- On coordinates below 16 the signed comparison of the words is the comparison of the numbers. -/
theorem tri_word (k c : Fin 16) :
    ((IntOp.cmpi .sgt (BitVec.ofNat 32 k.val) (BitVec.ofNat 32 c.val)).setWidth 32).toInt = if c < k then 1 else 0 := by
  revert k c; decide

theorem tri_apply (k c : Fin 16) : tri (ix2 k c) = if c < k then 1 else 0 := by
  show FloatOps.sitofp .f32 ((IntOp.cmpi .sgt (iota .tc S16x16 32 [0] iota_S16x16_d0_w32 (ix2 k c)) (iota .tc S16x16 32 [1] iota_S16x16_d1_w32 (ix2 k c))).setWidth 32) = _
  rw [iota_single_apply, iota_single_apply]
  show (((((IntOp.cmpi .sgt (BitVec.ofNat 32 k.val) (BitVec.ofNat 32 c.val)).setWidth 32).toInt : ℝ)) : EReal) = _
  rw [tri_word]
  by_cases h : c < k
  · rw [if_pos h, if_pos h]; norm_num
  · rw [if_neg h, if_neg h]; norm_num

/-- The word array is the conversion of the product of these two operands onto the zero accumulator. -/
theorem k0_pay2_eq (x0 : Vec Ideal S2048x16 .i32) :
    k0_pay2 (F := Ideal) x0 = fptosi 32 (matmul dot_S2048x16_S16x16_S2048x16_1_0_0_1_n_n (some .fp32) (lhsv x0) tri (constant S2048x16 .f32 0x00000000#32)) := rfl

/-! ## The first product's operand indices: (r, k) on the left and (k, c) on the right -/

theorem lhs16_0 (j : S2048x16.Idx) (k : dot_S2048x16_S16x16_S2048x16_1_0_0_1_n_n.contr.Idx) :
    (dot_S2048x16_S16x16_S2048x16_1_0_0_1_n_n.lhsIdx j k 0 : ℕ) = j 0 := by
  simp [DotDims.lhsIdx, dot_S2048x16_S16x16_S2048x16_1_0_0_1_n_n]; rfl
theorem lhs16_1 (j : S2048x16.Idx) (k : dot_S2048x16_S16x16_S2048x16_1_0_0_1_n_n.contr.Idx) :
    (dot_S2048x16_S16x16_S2048x16_1_0_0_1_n_n.lhsIdx j k 1 : ℕ) = k ⟨0, by decide⟩ := by
  simp [DotDims.lhsIdx, dot_S2048x16_S16x16_S2048x16_1_0_0_1_n_n]; rfl
theorem rhs16_0 (j : S2048x16.Idx) (k : dot_S2048x16_S16x16_S2048x16_1_0_0_1_n_n.contr.Idx) :
    (dot_S2048x16_S16x16_S2048x16_1_0_0_1_n_n.rhsIdx j k 0 : ℕ) = k ⟨0, by decide⟩ := by
  simp [DotDims.rhsIdx, dot_S2048x16_S16x16_S2048x16_1_0_0_1_n_n]; rfl
theorem rhs16_1 (j : S2048x16.Idx) (k : dot_S2048x16_S16x16_S2048x16_1_0_0_1_n_n.contr.Idx) :
    (dot_S2048x16_S16x16_S2048x16_1_0_0_1_n_n.rhsIdx j k 1 : ℕ) = j 1 := by
  simp [DotDims.rhsIdx, dot_S2048x16_S16x16_S2048x16_1_0_0_1_n_n]; rfl

theorem lhsIdx16 (r : Fin 2048) (c k : Fin 16) :
    dot_S2048x16_S16x16_S2048x16_1_0_0_1_n_n.lhsIdx (ix2 r c)
      ((contrEquiv1 dot_S2048x16_S16x16_S2048x16_1_0_0_1_n_n 16 rfl rfl).symm k) = ix2 r k :=
  Shape.idx_ext₂ (lhs16_0 _ _) ((lhs16_1 _ _).trans (contrEquiv1_symm_val _ 16 rfl rfl k))

theorem rhsIdx16 (r : Fin 2048) (c k : Fin 16) :
    dot_S2048x16_S16x16_S2048x16_1_0_0_1_n_n.rhsIdx (ix2 r c)
      ((contrEquiv1 dot_S2048x16_S16x16_S2048x16_1_0_0_1_n_n 16 rfl rfl).symm k) = ix2 k c :=
  Shape.idx_ext₂ ((rhs16_0 _ _).trans (contrEquiv1_symm_val _ 16 rfl rfl k)) (rhs16_1 _ _)

/-- The first product at (r, c): Σ_k x0(r, k) · 2^(15 − k) · [c < k], the context address of column c. -/
theorem mm16_apply (x0 : Vec Ideal S2048x16 .i32) (hx : IsBit x0) (r : Fin 2048) (c : Fin 16) :
    FloatOps.matmul dot_S2048x16_S16x16_S2048x16_1_0_0_1_n_n (some .fp32) (lhsv x0) tri
        (constant S2048x16 .f32 0x00000000#32) (ix2 r c)
      = (((addr (row x0 r) c : ℕ) : ℝ) : EReal) := by
  rw [Ideal.matmul_constant_zero_apply,
    ← Equiv.sum_comp (contrEquiv1 dot_S2048x16_S16x16_S2048x16_1_0_0_1_n_n 16 rfl rfl).symm]
  have hk : ∀ k : Fin 16,
      lhsv x0 (dot_S2048x16_S16x16_S2048x16_1_0_0_1_n_n.lhsIdx (ix2 r c)
          ((contrEquiv1 dot_S2048x16_S16x16_S2048x16_1_0_0_1_n_n 16 rfl rfl).symm k))
        * tri (dot_S2048x16_S16x16_S2048x16_1_0_0_1_n_n.rhsIdx (ix2 r c)
          ((contrEquiv1 dot_S2048x16_S16x16_S2048x16_1_0_0_1_n_n 16 rfl rfl).symm k))
      = ((((if c < k then (x0 (ix2 r k)).toNat * 2 ^ (15 - k.val) else 0 : ℕ)) : ℝ) : EReal) := by
    intro k
    rw [lhsIdx16, rhsIdx16, lhsv_apply x0 hx, tri_apply]
    by_cases h : c < k
    · rw [if_pos h, if_pos h, mul_one]
    · rw [if_neg h, if_neg h, mul_zero]; norm_num
  rw [Finset.sum_congr rfl (fun k _ => hk k), sum_natCast_ereal]
  rfl

end KBodyA

/-- The word array the body computes first holds, in column c of row r, the context address of that column. -/
theorem idx_apply (x0 : Vec Ideal S2048x16 .i32) (hx : IsBit x0) (r : Fin 2048) (c : Fin 16) :
    k0_pay2 (F := Ideal) x0 (ix2 r c) = BitVec.ofNat 32 (addr (row x0 r) c) := by
  rw [KBodyA.k0_pay2_eq]
  refine (congrArg (Ideal.fptosi 32) (KBodyA.mm16_apply x0 hx r c)).trans ?_
  refine KBodyA.fptosi_natCast _ ?_
  -- the address is below 2^(15 − c) ≤ 2^31
  have h1 := addr_lt (row x0 r) (fun c => hx _) c
  have h2 : 2 ^ (15 - c.val) ≤ 2 ^ 31 := Nat.pow_le_pow_right (by norm_num) (by omega)
  omega

/-- Its column 7, the eight-digit low address. -/
theorem lo_apply (x0 : Vec Ideal S2048x16 .i32) (hx : IsBit x0) (r : Fin 2048) :
    k0_pay3 (F := Ideal) x0 (ix2 r 0) = BitVec.ofNat 32 (addr (row x0 r) 7) := by
  -- the slice at offsets (0, 7) of width 1 reads (r, 0) at (r, 7)
  show extractStridedSlice S2048x1 ![0, 7] (k0_pay2 (F := Ideal) x0) slices_S2048x16_o0_7_S2048x1 (ix2 r 0) = _
  rw [extractStridedSlice_apply ![0, 7] (k0_pay2 (F := Ideal) x0) slices_S2048x16_o0_7_S2048x1 (ix2 r 0) (ix2 r 7)
    (fun a => match a with | ⟨0, _⟩ => (Nat.zero_add _).symm | ⟨1, _⟩ => rfl)]
  exact idx_apply x0 hx r 7

namespace KBodyA

/-! ## The one-hot row, the left operand of the second product -/

/-- Row r is 1 in the column whose number is the low address of row r and 0 elsewhere (the narrowing of the
    float format changes nothing at the extended reals). -/
def onehot (x0 : Vec Ideal S2048x16 .i32) : FVec Ideal S2048x256 .bf16 :=
  truncf .bf16 (sitofp .f32 (extui 32 (cmpi .eq
    (broadcastTo S2048x256 (iota .tc S1x256 32 [1] iota_S1x256_d1_w32) broadcasts_S1x256_S2048x256)
    (broadcastTo S2048x256 (k0_pay3 (F := Ideal) x0) broadcasts_S2048x1_S2048x256)) natLt_1_32)) bitsLt_bf16_f32

/-- The low address is below 2^8. -/
theorem addr7_lt (x0 : Vec Ideal S2048x16 .i32) (hx : IsBit x0) (r : Fin 2048) : addr (row x0 r) 7 < 256 :=
  addr_lt (row x0 r) (fun c => hx _) 7

theorem onehot_apply (x0 : Vec Ideal S2048x16 .i32) (hx : IsBit x0) (r : Fin 2048) (k : Fin 256) :
    onehot x0 (ix2 r k) = if k.val = addr (row x0 r) 7 then 1 else 0 := by
  show ((((IntOp.cmpi .eq
      (broadcastTo S2048x256 (iota .tc S1x256 32 [1] iota_S1x256_d1_w32) broadcasts_S1x256_S2048x256 (ix2 r k))
      (broadcastTo S2048x256 (k0_pay3 (F := Ideal) x0) broadcasts_S2048x1_S2048x256 (ix2 r k))).setWidth 32).toInt : ℝ) : EReal) = _
  -- the column numbers are broadcast down the rows, the low addresses across the columns
  rw [broadcastTo_apply (iota .tc S1x256 32 [1] iota_S1x256_d1_w32) broadcasts_S1x256_S2048x256 (ix2 r k) (ix2 0 k)
      (fun a => match a with | ⟨0, _⟩ => rfl | ⟨1, _⟩ => rfl),
    broadcastTo_apply (k0_pay3 (F := Ideal) x0) broadcasts_S2048x1_S2048x256 (ix2 r k) (ix2 r 0)
      (fun a => match a with | ⟨0, _⟩ => rfl | ⟨1, _⟩ => rfl),
    iota_single_apply, lo_apply x0 hx r]
  show ((((IntOp.cmpi .eq (BitVec.ofNat 32 k.val) (BitVec.ofNat 32 (addr (row x0 r) 7))).setWidth 32).toInt : ℝ) : EReal) = _
  have h7 := addr7_lt x0 hx r
  rw [eq_word _ _ (by omega) (by omega)]
  by_cases h : k.val = addr (row x0 r) 7
  · rw [if_pos h, if_pos h]; norm_num
  · rw [if_neg h, if_neg h]; norm_num

/-- The second product: the one-hot rows against the packed matrix (cast to its own shape) onto the zero accumulator. -/
theorem k0_pay4_eq (x0 : Vec Ideal S2048x16 .i32) (x1 : Vec Ideal S256x384 .bf16) :
    k0_pay4 (F := Ideal) x0 x1 = matmul dot_S2048x256_S256x384_S2048x384_1_0_0_1_n_n none (onehot x0)
      (shapeCast S256x384 x1 shapeCasts_S256x384_S256x384 : FVec Ideal S256x384 .bf16) (constant S2048x384 .f32 0x00000000#32) := rfl

/-! ## The second product's operand indices: (r, k) on the left and (k, col) on the right -/

theorem lhs256_0 (j : S2048x384.Idx) (k : dot_S2048x256_S256x384_S2048x384_1_0_0_1_n_n.contr.Idx) :
    (dot_S2048x256_S256x384_S2048x384_1_0_0_1_n_n.lhsIdx j k 0 : ℕ) = j 0 := by
  simp [DotDims.lhsIdx, dot_S2048x256_S256x384_S2048x384_1_0_0_1_n_n]; rfl
theorem lhs256_1 (j : S2048x384.Idx) (k : dot_S2048x256_S256x384_S2048x384_1_0_0_1_n_n.contr.Idx) :
    (dot_S2048x256_S256x384_S2048x384_1_0_0_1_n_n.lhsIdx j k 1 : ℕ) = k ⟨0, by decide⟩ := by
  simp [DotDims.lhsIdx, dot_S2048x256_S256x384_S2048x384_1_0_0_1_n_n]; rfl
theorem rhs256_0 (j : S2048x384.Idx) (k : dot_S2048x256_S256x384_S2048x384_1_0_0_1_n_n.contr.Idx) :
    (dot_S2048x256_S256x384_S2048x384_1_0_0_1_n_n.rhsIdx j k 0 : ℕ) = k ⟨0, by decide⟩ := by
  simp [DotDims.rhsIdx, dot_S2048x256_S256x384_S2048x384_1_0_0_1_n_n]; rfl
theorem rhs256_1 (j : S2048x384.Idx) (k : dot_S2048x256_S256x384_S2048x384_1_0_0_1_n_n.contr.Idx) :
    (dot_S2048x256_S256x384_S2048x384_1_0_0_1_n_n.rhsIdx j k 1 : ℕ) = j 1 := by
  simp [DotDims.rhsIdx, dot_S2048x256_S256x384_S2048x384_1_0_0_1_n_n]; rfl

theorem lhsIdx256 (r : Fin 2048) (col : Fin 384) (k : Fin 256) :
    dot_S2048x256_S256x384_S2048x384_1_0_0_1_n_n.lhsIdx (ix2 r col)
      ((contrEquiv1 dot_S2048x256_S256x384_S2048x384_1_0_0_1_n_n 256 rfl rfl).symm k) = ix2 r k :=
  Shape.idx_ext₂ (lhs256_0 _ _) ((lhs256_1 _ _).trans (contrEquiv1_symm_val _ 256 rfl rfl k))

theorem rhsIdx256 (r : Fin 2048) (col : Fin 384) (k : Fin 256) :
    dot_S2048x256_S256x384_S2048x384_1_0_0_1_n_n.rhsIdx (ix2 r col)
      ((contrEquiv1 dot_S2048x256_S256x384_S2048x384_1_0_0_1_n_n 256 rfl rfl).symm k) = ix2 k col :=
  Shape.idx_ext₂ ((rhs256_0 _ _).trans (contrEquiv1_symm_val _ 256 rfl rfl k)) (rhs256_1 _ _)

end KBodyA

/-- The one-hot row times the packed matrix is the matrix's row at the low address. -/
theorem proj_apply (x0 : Vec Ideal S2048x16 .i32) (hx : IsBit x0) (x1 : Vec Ideal S256x384 .bf16) (r : Fin 2048) (col : Fin 384) :
    k0_pay4 (F := Ideal) x0 x1 (ix2 r col)
      = x1 (ix2 ⟨addr (row x0 r) 7 % 256, Nat.mod_lt _ (by norm_num)⟩ col) := by
  rw [KBodyA.k0_pay4_eq, shapeCast_self]
  show FloatOps.matmul dot_S2048x256_S256x384_S2048x384_1_0_0_1_n_n none (KBodyA.onehot x0) (x1 : FVec Ideal S256x384 .bf16)
    (constant S2048x384 .f32 0x00000000#32) (ix2 r col) = _
  rw [Ideal.matmul_constant_zero_apply,
    ← Equiv.sum_comp (contrEquiv1 dot_S2048x256_S256x384_S2048x384_1_0_0_1_n_n 256 rfl rfl).symm]
  have h7 := KBodyA.addr7_lt x0 hx r
  -- Σ_k onehot(r, k) · x1(k, col): every term off the low address is 0 · x1(k, col) = 0, whatever x1(k, col) is
  rw [Finset.sum_eq_single (⟨addr (row x0 r) 7 % 256, Nat.mod_lt _ (by norm_num)⟩ : Fin 256)]
  · rw [KBodyA.lhsIdx256, KBodyA.rhsIdx256, KBodyA.onehot_apply x0 hx, if_pos (Nat.mod_eq_of_lt h7), one_mul]
  · intro k _ hne
    rw [KBodyA.lhsIdx256, KBodyA.rhsIdx256, KBodyA.onehot_apply x0 hx, if_neg, zero_mul]
    intro e
    apply hne
    apply Fin.ext
    show k.val = addr (row x0 r) 7 % 256
    rw [Nat.mod_eq_of_lt h7]
    exact e
  · intro h; exact absurd (Finset.mem_univ _) h

end Cert.KernelIdeal.Hand

end
-- ==== Proof.SpecArith.lean ====
/- Arithmetic of the context address: its size, how it splits at the eighth digit, and its prefix-sum form. -/
import proofs.«410118_j27668179321271_3_alg».proof.Proof.Spec

noncomputable section

open scoped BigOperators

namespace Cert.Spec

open Idealize.ShloMosaic Idealize.ShloMosaic.ValueIdx

/-- Digit `n` of the row as a natural number; zero past the sixteenth column. -/
def natDigit (x : Fin 16 → BitVec 32) (n : ℕ) : ℕ := if h : n < 16 then (x ⟨n, h⟩).toNat else 0

/-- A digit that is the word 0 or the word 1 is at most 1 as a natural number. -/
theorem natDigit_le_one (x : Fin 16 → BitVec 32) (hx : ∀ c, x c = 0#32 ∨ x c = 1#32) (n : ℕ) : natDigit x n ≤ 1 := by
  unfold natDigit
  split
  · next h => rcases hx ⟨n, h⟩ with e | e <;> rw [e] <;> decide
  · exact Nat.zero_le _

/-- The context address as a sum over the column numbers 0 … 15. -/
theorem addr_eq_sum_range (x : Fin 16 → BitVec 32) (c : Fin 16) :
    addr x c = ∑ n ∈ Finset.range 16, if c.val < n then natDigit x n * 2 ^ (15 - n) else 0 := by
  unfold addr
  rw [← Fin.sum_univ_eq_sum_range (fun n => if c.val < n then natDigit x n * 2 ^ (15 - n) else 0) 16]
  refine Finset.sum_congr rfl fun c' _ => ?_
  simp only [natDigit, Fin.lt_def, c'.isLt, dite_true, Fin.eta]

/-- The same sum written out: sixteen terms with literal weights. -/
theorem addr_explicit (x : Fin 16 → BitVec 32) (c : Fin 16) :
    addr x c =
      (if c.val < 0 then natDigit x 0 * 32768 else 0) + (if c.val < 1 then natDigit x 1 * 16384 else 0)
      + (if c.val < 2 then natDigit x 2 * 8192 else 0) + (if c.val < 3 then natDigit x 3 * 4096 else 0)
      + (if c.val < 4 then natDigit x 4 * 2048 else 0) + (if c.val < 5 then natDigit x 5 * 1024 else 0)
      + (if c.val < 6 then natDigit x 6 * 512 else 0) + (if c.val < 7 then natDigit x 7 * 256 else 0)
      + (if c.val < 8 then natDigit x 8 * 128 else 0) + (if c.val < 9 then natDigit x 9 * 64 else 0)
      + (if c.val < 10 then natDigit x 10 * 32 else 0) + (if c.val < 11 then natDigit x 11 * 16 else 0)
      + (if c.val < 12 then natDigit x 12 * 8 else 0) + (if c.val < 13 then natDigit x 13 * 4 else 0)
      + (if c.val < 14 then natDigit x 14 * 2 else 0) + (if c.val < 15 then natDigit x 15 * 1 else 0) := by
  rw [addr_eq_sum_range]
  simp only [Finset.sum_range_succ, Finset.sum_range_zero, zero_add]
  norm_num

/-- The digits to the right of column c spell a number below 2^(15 − c). -/
theorem addr_bound (x : Fin 16 → BitVec 32) (hx : ∀ c, x c = 0#32 ∨ x c = 1#32) (c : Fin 16) :
    addr x c < 2 ^ (15 - c.val) := by
  -- every digit is at most 1, so the sixteen-term sum with the terms left of c dropped is below the geometric bound
  have d := natDigit_le_one x hx
  have d0 := d 0; have d1 := d 1; have d2 := d 2; have d3 := d 3; have d4 := d 4; have d5 := d 5; have d6 := d 6; have d7 := d 7
  have d8 := d 8; have d9 := d 9; have d10 := d 10; have d11 := d 11; have d12 := d 12; have d13 := d 13; have d14 := d 14; have d15 := d 15
  rw [addr_explicit]
  obtain ⟨c, hc⟩ := c
  dsimp only
  interval_cases c <;> norm_num <;> omega

/-- Left of the eighth digit: the address is the low address (column 7's) plus 256 times the number spelt by the
    digits strictly between, which is below 2^(7 − c). -/
theorem addr_split_hi (x : Fin 16 → BitVec 32) (hx : ∀ c, x c = 0#32 ∨ x c = 1#32) (c : Fin 16) (hc : c.val ≤ 6) :
    ∃ hi : ℕ, hi < 2 ^ (7 - c.val) ∧ addr x c = addr x 7 + 256 * hi := by
  -- the witness is the quotient of the difference by 256: the digits in columns c+1 … 7, each at most 1,
  -- carry the weights 256·2^(7−c'), so the difference is 256 times a number below 2^(7−c)
  have d := natDigit_le_one x hx
  have d0 := d 0; have d1 := d 1; have d2 := d 2; have d3 := d 3; have d4 := d 4; have d5 := d 5; have d6 := d 6; have d7 := d 7
  have d8 := d 8; have d9 := d 9; have d10 := d 10; have d11 := d 11; have d12 := d 12; have d13 := d 13; have d14 := d 14; have d15 := d 15
  refine ⟨(addr x c - addr x 7) / 256, ?_, ?_⟩ <;>
  · rw [addr_explicit x c, addr_explicit x 7]
    obtain ⟨c, hc'⟩ := c
    dsimp only at hc ⊢
    interval_cases c <;> norm_num <;> omega

/-- From the eighth digit on: the address is the low address modulo 2^(15 − c). -/
theorem addr_mod_lo (x : Fin 16 → BitVec 32) (hx : ∀ c, x c = 0#32 ∨ x c = 1#32) (c : Fin 16) (hc : 7 ≤ c.val) :
    addr x c = addr x 7 % 2 ^ (15 - c.val) := by
  -- the digits in columns 8 … c carry weights that are multiples of 2^(15−c); what is left is below 2^(15−c)
  have d := natDigit_le_one x hx
  have d0 := d 0; have d1 := d 1; have d2 := d 2; have d3 := d 3; have d4 := d 4; have d5 := d 5; have d6 := d 6; have d7 := d 7
  have d8 := d 8; have d9 := d 9; have d10 := d 10; have d11 := d 11; have d12 := d 12; have d13 := d 13; have d14 := d 14; have d15 := d 15
  rw [addr_explicit x c, addr_explicit x 7]
  obtain ⟨c, hc'⟩ := c
  dsimp only at hc ⊢
  interval_cases c <;> norm_num <;> omega

/-- Counting positions from the least significant digit: the address of the column holding position p is the
    sum over the positions q below p of digit q times 2^q. -/
theorem addr_prefix (x : Fin 16 → BitVec 32) (p : Fin 16) :
    addr x ⟨15 - p.val, by omega⟩
      = ∑ q : Fin 16, if q < p then (x ⟨15 - q.val, by omega⟩).toNat * 2 ^ q.val else 0 := by
  -- reindex the sum by the reversal c' ↦ 15 − c': column c' holds position 15 − c', its weight 2^(15−c') is
  -- 2^position, and "to the right of the column holding p" becomes "position below p"
  unfold addr
  refine Fintype.sum_equiv Fin.revPerm _ _ fun c' => ?_
  have hv : (Fin.revPerm c').val = 15 - c'.val := by
    rw [Fin.revPerm_apply, Fin.val_rev]; omega
  have hc' : (⟨15 - (Fin.revPerm c').val, by omega⟩ : Fin 16) = c' := Fin.ext (by dsimp only; rw [hv]; omega)
  rw [hc', hv]
  have hiff : ((⟨15 - p.val, by omega⟩ : Fin 16) < c') ↔ Fin.revPerm c' < p := by
    rw [Fin.lt_def, Fin.lt_def, hv]; dsimp only; omega
  by_cases hlt : (⟨15 - p.val, by omega⟩ : Fin 16) < c'
  · rw [if_pos hlt, if_pos (hiff.1 hlt)]
  · rw [if_neg hlt, if_neg (fun h => hlt (hiff.2 h))]

end Cert.Spec

end
-- ==== Proof.LibKeepdims.lean ====
/-
  Two reads of a "keep the reduced axis" pair, as a sum or a maximum over an array's rows is used afterwards: the vector
  of per-row results `[a]` is cast to a column `[a, 1]`, and the column is broadcast along the rows to `[a, b]`.
  Read at `(i, j)` the result is the vector's entry `i`, whatever the column `j`.
-/
import Idealize.ShloMosaic.Lib.Pipeline.Value
import Idealize.ShloMosaic.Lib.ValueIdx

noncomputable section

namespace Cert.Lib

open Idealize.ShloMosaic Idealize.ShloMosaic.ValueIdx

variable {α : Type}

/-- A vector `[a]` cast to a column `[a, 1]` reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The pair together: a vector of per-row results kept as a column and broadcast along the rows reads, at `(i, j)`,
    the vector at `i`. -/
theorem keepdims_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (i : Fin a) (j : Fin b) :
    broadcastTo ⟨2, ![a, b]⟩ (shapeCast ⟨2, ![a, 1]⟩ x h₁) h₂ (ix2 i j) = x (ix1 i) :=
  (broadcastTo_a1_ab_apply _ h₂ i j).trans (shapeCast_a_a1_apply x h₁ i 0)

end Cert.Lib

end
-- ==== Proof.KBodyB.lean ====
/- The stored block, read at an index: the digit flipped by the table entry at its context address.

   The block is b + v − (2·b)·v pointwise, b the digit as a number and v a sixteen-column array of looked-up values.
   Columns 7 … 15 of v are the first nine packed columns of the matrix product, which is the packed matrix's row at the
   low address a(7); column j of that row is table row 8 − j at a(7) mod 2^(8 − j), and a(c) = a(7) mod 2^(15 − c).
   Columns 0 … 6 are each a sum along a row of a slice of the product (one segment of the packed row) times a one-hot
   row; the hot position is (a(c) − a(7)) shifted right by eight, which is the number hi with a(c) = a(7) + 256·hi,
   so the sum is the segment's entry hi, table row 15 − c at hi·256 + a(7) = a(c). -/
import proofs.«410118_j27668179321271_3_alg».proof.Proof.KBodyA
import proofs.«410118_j27668179321271_3_alg».proof.Proof.SpecArith
import proofs.«410118_j27668179321271_3_alg».proof.Proof.LibKeepdims

noncomputable section

open scoped BigOperators

namespace Cert.KernelIdeal.Hand.KBodyB

open Cert.KernelIdeal Cert.KernelIdeal.Gen Cert.Spec
open Idealize.ShloMosaic Idealize.ShloMosaic.ValueIdx Idealize.SL.Sem

/-! ## Words -/

/-- Subtracting a smaller number from a larger one, both below the word size, does not wrap. -/
theorem word_sub (A B : ℕ) (hA : A < 2 ^ 32) (hB : B ≤ A) :
    IntOp.subi (BitVec.ofNat 32 A) (BitVec.ofNat 32 B) = BitVec.ofNat 32 (A - B) := by
  unfold IntOp.subi
  apply BitVec.eq_of_toNat_eq
  rw [BitVec.toNat_sub]
  simp only [BitVec.toNat_ofNat]
  omega

/-- The arithmetic shift right by eight of a non-negative word divides by 256. -/
theorem word_shr8 (n : ℕ) (hn : n < 2 ^ 31) :
    IntOp.shrsi .vector (BitVec.ofNat 32 n) 8#32 = BitVec.ofNat 32 (n / 256) := by
  have hm : (BitVec.ofNat 32 n).msb = false := by
    rw [BitVec.msb_eq_false_iff_two_mul_lt]; simp only [BitVec.toNat_ofNat]; omega
  unfold IntOp.shrsi
  rw [if_pos (by decide), BitVec.sshiftRight_eq', BitVec.sshiftRight_eq_of_msb_false hm,
    show (8#32 : BitVec 32).toNat = 8 from rfl]
  apply BitVec.eq_of_toNat_eq
  rw [BitVec.toNat_ushiftRight]
  simp only [BitVec.toNat_ofNat, Nat.shiftRight_eq_div_pow]
  omega

/-- The one-hot factor: the comparison of two small numbers as words, widened and converted, is 1 where they agree and 0 elsewhere. -/
theorem onehot_factor (h hi : ℕ) (hh : h < 2 ^ 32) (hhi : hi < 2 ^ 32) :
    (FloatOps.sitofp (F := Ideal) .f32 ((IntOp.cmpi .eq (BitVec.ofNat 32 h) (BitVec.ofNat 32 hi)).setWidth 32) : EReal)
      = if h = hi then 1 else 0 := by
  have hne : BitVec.ofNat 32 h = BitVec.ofNat 32 hi → h = hi := by
    intro e; have := congrArg BitVec.toNat e; simp only [BitVec.toNat_ofNat] at this; omega
  show ((((IntOp.cmpi .eq (BitVec.ofNat 32 h) (BitVec.ofNat 32 hi)).setWidth 32).toInt : ℝ) : EReal) = _
  unfold IntOp.cmpi
  by_cases e : h = hi
  · subst e; simp
  · have hw : ¬ BitVec.ofNat 32 h = BitVec.ofNat 32 hi := fun e' => e (hne e')
    have hb : (BitVec.ofNat 32 h == BitVec.ofNat 32 hi) = false := beq_eq_false_iff_ne.mpr hw
    simp [hb, e]

/-! ## One segment's column: a one-hot row against a slice, summed along the row -/

/-- The source index over row r with coordinate k inserted on axis 1. -/
theorem lift_row {W : ℕ} (hred : (⟨2, ![2048, W]⟩ : Shape).Reduces [1] ⟨1, ![2048]⟩) (r : Fin 2048) (k : Fin W) :
    hred.lift (ix1 r) k = ix2 r k := by
  funext a
  apply Fin.ext
  match a with
  | ⟨0, _⟩ => rfl
  | ⟨1, _⟩ => rfl

/-- A row of column numbers broadcast along the rows reads, at (r, k), the word k. -/
theorem iota_row_apply {W : ℕ} (hio : (⟨2, ![1, W]⟩ : Shape).Iotas .tc 32 [1])
    (hb1 : (⟨2, ![1, W]⟩ : Shape).Broadcasts ⟨2, ![2048, W]⟩) (r : Fin 2048) (k : Fin W) :
    broadcastTo ⟨2, ![2048, W]⟩ (iota .tc ⟨2, ![1, W]⟩ 32 [1] hio) hb1 (ix2 r k) = BitVec.ofNat 32 k.val := by
  rw [broadcastTo_1b_ab_apply, iota_single_apply]
  rfl

/-- The segment's column at row r: the sum along the row of the slice times the one-hot row picks the slice's entry at the
    shifted address. -/
theorem onehot_col {W : ℕ} (hW : W ≤ 2 ^ 32) (seg : FVec Ideal ⟨2, ![2048, W]⟩ .f32) (sh : IVec ⟨2, ![2048, 1]⟩ 32)
    (hio : (⟨2, ![1, W]⟩ : Shape).Iotas .tc 32 [1])
    (hb1 : (⟨2, ![1, W]⟩ : Shape).Broadcasts ⟨2, ![2048, W]⟩)
    (hb2 : (⟨2, ![2048, 1]⟩ : Shape).Broadcasts ⟨2, ![2048, W]⟩)
    (hred : (⟨2, ![2048, W]⟩ : Shape).Reduces [1] ⟨1, ![2048]⟩)
    (hsc : (⟨1, ![2048]⟩ : Shape).ShapeCasts ⟨2, ![2048, 1]⟩)
    (hlt : 1 < 32) (hφ : FKind.Formats .f32) (hacc : (0x00000000#32 : BitVec 32) = FKind.add.neutral .f32 hφ)
    (r : Fin 2048) (hi : Fin W) (hsh : sh (ix2 r 0) = BitVec.ofNat 32 hi.val) :
    shapeCast ⟨2, ![2048, 1]⟩ (multiReduction (F := Ideal) .add [1] ⟨1, ![2048]⟩
        (mulf seg (sitofp .f32 (extui 32 (cmpi .eq
          (broadcastTo ⟨2, ![2048, W]⟩ (iota .tc ⟨2, ![1, W]⟩ 32 [1] hio) hb1)
          (broadcastTo ⟨2, ![2048, W]⟩ sh hb2)) hlt)))
        0x00000000#32 hred hφ hacc) hsc (ix2 r 0) = seg (ix2 r hi) := by
  rw [Cert.Lib.shapeCast_a_a1_apply]
  refine (Ideal.multiReduction_add_single _ _ hred hφ hacc (ix1 r)).trans ?_
  show ∑ k : Fin W, _ = _
  have hterm : ∀ k : Fin W,
      (mulf seg (sitofp .f32 (extui 32 (cmpi .eq
          (broadcastTo ⟨2, ![2048, W]⟩ (iota .tc ⟨2, ![1, W]⟩ 32 [1] hio) hb1)
          (broadcastTo ⟨2, ![2048, W]⟩ sh hb2)) hlt))) (hred.lift (ix1 r) k)
        = seg (ix2 r k) * (if k.val = hi.val then 1 else 0) := by
    intro k
    rw [lift_row hred r k, mulf_apply, sitofp_apply, extui_apply]
    show seg (ix2 r k) * FloatOps.sitofp (F := Ideal) .f32 ((IntOp.cmpi .eq
        (broadcastTo ⟨2, ![2048, W]⟩ (iota .tc ⟨2, ![1, W]⟩ 32 [1] hio) hb1 (ix2 r k))
        (broadcastTo ⟨2, ![2048, W]⟩ sh hb2 (ix2 r k))).setWidth 32) = _
    rw [iota_row_apply, Cert.Lib.broadcastTo_a1_ab_apply, hsh,
      onehot_factor k.val hi.val (by have := k.isLt; omega) (by have := hi.isLt; omega)]
  rw [Finset.sum_congr rfl (fun k _ => hterm k), Finset.sum_eq_single hi]
  · rw [if_pos rfl, mul_one]
  · intro k _ hk
    rw [if_neg (fun e => hk (Fin.ext e)), mul_zero]
  · intro h; exact absurd (Finset.mem_univ hi) h

/-! ## The shifted address -/

/-- Every context address is below 2^15. -/
theorem addr_lt_15 (x : Fin 16 → BitVec 32) (hx : ∀ c, x c = 0#32 ∨ x c = 1#32) (c : Fin 16) : addr x c < 32768 :=
  lt_of_lt_of_le (addr_bound x hx c)
    (le_of_le_of_eq (Nat.pow_le_pow_right (by norm_num) (by omega : 15 - c.val ≤ 15)) (by norm_num))

/-- Column c of the address words less the low address, shifted right by eight, is the number spelt by the digits
    strictly between column c and the eighth digit. -/
theorem shift_apply (idx : IVec S2048x16 32) (lo : IVec S2048x1 32) (r : Fin 2048) (o : ℕ) (c : Fin 16) (hoc : c.val = o)
    (hs : S2048x16.Slices ![0, o] S2048x1) (A B hi : ℕ) (hA : A < 32768) (hAB : A = B + 256 * hi)
    (hidx : idx (ix2 r c) = BitVec.ofNat 32 A) (hlo : lo (ix2 r 0) = BitVec.ofNat 32 B) :
    shrsi (subi (extractStridedSlice S2048x1 ![0, o] idx hs) lo) (broadcast S2048x1 8#32) (ix2 r 0) = BitVec.ofNat 32 hi := by
  show IntOp.shrsi .vector (IntOp.subi (extractStridedSlice S2048x1 ![0, o] idx hs (ix2 r 0)) (lo (ix2 r 0))) 8#32 = _
  rw [slice2_axis1_apply o idx hs r 0 c (by rw [hoc]; rfl), hidx, hlo, word_sub A B (by omega) (by omega),
    word_shr8 (A - B) (by omega)]
  congr 1
  omega

/-! ## The looked-up table value, column by column -/

/-- The low address is below 256. -/
theorem addr7_lt (x : Fin 16 → BitVec 32) (hx : ∀ c, x c = 0#32 ∨ x c = 1#32) : addr x 7 < 256 := by
  have h := addr_bound x hx 7
  have e : (2 : ℕ) ^ (15 - (7 : Fin 16).val) = 256 := by norm_num
  omega

/-- Columns 0 … 6: segment o of the packed row at the low address, read at the shifted address, is table row 15 − o at
    the column's context address. -/
theorem seg_col (x0 : Vec Ideal S2048x16 .i32) (hx : IsBit x0) (t : FVec Ideal ⟨2, ![16, 32768]⟩ .f32) (r : Fin 2048)
    {W : ℕ} (start o : ℕ) (c : Fin 16) (hoc : c.val = o) (hc : o ≤ 6) (hWo : W = 2 ^ (7 - o))
    (hstart : 9 ≤ start) (hend : start + W ≤ 263) (hseg : ∀ h, h < W → segOf (start + h) = (o, start))
    (hsl : S2048x384.Slices ![0, start] ⟨2, ![2048, W]⟩) (hs : S2048x16.Slices ![0, o] S2048x1)
    (hio : (⟨2, ![1, W]⟩ : Shape).Iotas .tc 32 [1])
    (hb1 : (⟨2, ![1, W]⟩ : Shape).Broadcasts ⟨2, ![2048, W]⟩)
    (hb2 : (⟨2, ![2048, 1]⟩ : Shape).Broadcasts ⟨2, ![2048, W]⟩)
    (hred : (⟨2, ![2048, W]⟩ : Shape).Reduces [1] ⟨1, ![2048]⟩)
    (hsc : (⟨1, ![2048]⟩ : Shape).ShapeCasts ⟨2, ![2048, 1]⟩)
    (hlt : 1 < 32) (hφ : FKind.Formats .f32) (hacc : (0x00000000#32 : BitVec 32) = FKind.add.neutral .f32 hφ) :
    shapeCast ⟨2, ![2048, 1]⟩ (multiReduction (F := Ideal) .add [1] ⟨1, ![2048]⟩
        (mulf (extractStridedSlice ⟨2, ![2048, W]⟩ ![0, start] (k0_pay4 (F := Ideal) x0 (himat t)) hsl)
          (sitofp .f32 (extui 32 (cmpi .eq
            (broadcastTo ⟨2, ![2048, W]⟩ (iota .tc ⟨2, ![1, W]⟩ 32 [1] hio) hb1)
            (broadcastTo ⟨2, ![2048, W]⟩
              (shrsi (subi (extractStridedSlice S2048x1 ![0, o] (k0_pay2 (F := Ideal) x0) hs) (k0_pay3 (F := Ideal) x0))
                (broadcast S2048x1 8#32)) hb2)) hlt)))
        0x00000000#32 hred hφ hacc) hsc (ix2 r 0) = tab t (15 - o) (addr (row x0 r) c) := by
  have hxr : ∀ c', row x0 r c' = 0#32 ∨ row x0 r c' = 1#32 := fun c' => hx _
  obtain ⟨hi, hhi, hAB⟩ := addr_split_hi (row x0 r) hxr c (by omega)
  have hhiW : hi < W := by rw [hWo, ← hoc]; exact hhi
  have hA := addr_lt_15 (row x0 r) hxr c
  have hB := addr7_lt (row x0 r) hxr
  have hsh := shift_apply (k0_pay2 (F := Ideal) x0) (k0_pay3 (F := Ideal) x0) r o c hoc hs _ _ hi hA hAB
    (idx_apply x0 hx r c) (lo_apply x0 hx r)
  have hW32 : W ≤ 2 ^ 32 := by
    rw [hWo]; exact Nat.pow_le_pow_right (by norm_num) (by omega)
  refine (onehot_col hW32 _ _ hio hb1 hb2 hred hsc hlt hφ hacc r ⟨hi, hhiW⟩ hsh).trans ?_
  rw [slice2_axis1_apply start _ hsl r ⟨hi, hhiW⟩ ⟨start + hi, by omega⟩ rfl,
    proj_apply x0 hx (himat t) r ⟨start + hi, by omega⟩]
  unfold himat
  show (if start + hi < 9 then _ else if start + hi < 263 then
      tab t (15 - (segOf (start + hi)).1) ((start + hi - (segOf (start + hi)).2) * 256 + addr (row x0 r) 7 % 256) else 0) = _
  rw [if_neg (by omega), if_pos (by omega), hseg hi hhiW]
  show tab t (15 - o) ((start + hi - start) * 256 + addr (row x0 r) 7 % 256) = _
  have e : (start + hi - start) * 256 + addr (row x0 r) 7 % 256 = addr (row x0 r) c := by
    rw [Nat.mod_eq_of_lt hB, hAB]
    omega
  rw [e]

/-- Columns 7 … 15: packed column c − 7 of the row at the low address is table row 15 − c at the column's context
    address, the low address reduced modulo 2^(15 − c). -/
theorem low_col (x0 : Vec Ideal S2048x16 .i32) (hx : IsBit x0) (t : FVec Ideal ⟨2, ![16, 32768]⟩ .f32) (r : Fin 2048)
    (c : Fin 16) (k : Fin 9) (hk : k.val + 7 = c.val) :
    k0_pay5 (F := Ideal) x0 (himat t) (ix2 r k) = tab t (15 - c.val) (addr (row x0 r) c) := by
  have hxr : ∀ c', row x0 r c' = 0#32 ∨ row x0 r c' = 1#32 := fun c' => hx _
  have hB := addr7_lt (row x0 r) hxr
  show extractStridedSlice S2048x9 ![0, 0] (k0_pay4 (F := Ideal) x0 (himat t)) slices_S2048x384_o0_0_S2048x9 (ix2 r k) = _
  rw [slice2_axis1_apply 0 _ _ r k ⟨k.val, by omega⟩ (by simp), proj_apply x0 hx (himat t) r ⟨k.val, by omega⟩]
  unfold himat
  show (if k.val < 9 then tab t (8 - k.val) ((addr (row x0 r) 7 % 256) % 2 ^ (8 - k.val)) else _) = _
  rw [if_pos k.isLt, addr_mod_lo (row x0 r) hxr c (by omega), Nat.mod_eq_of_lt hB]
  have e : 15 - c.val = 8 - k.val := by omega
  rw [e]

/-! ## The two concatenations -/

/-- The sixteen-column concatenation at a column below seven reads the seven-column piece at that column. -/
theorem cat2_left (A : FVec Ideal S2048x7 .f32) (B : FVec Ideal S2048x9 .f32)
    (h : Shape.Concatenates [S2048x7, S2048x9] S2048x16 1) (r : Fin 2048) (c : Fin 16) (k : Fin 7) (hk : k.val = c.val) :
    concatenate S2048x16 1 [⟨S2048x7, A⟩, ⟨S2048x9, B⟩] h (ix2 r c) = A (ix2 r k) :=
  concatenate_pair_apply_left 1 A B h (ix2 r c) rfl (ix2 r k) (fun b => by
    match b with
    | ⟨0, _⟩ => rfl
    | ⟨1, _⟩ => exact hk)

/-- At a column from seven on it reads the nine-column piece seven columns to the left. -/
theorem cat2_right (A : FVec Ideal S2048x7 .f32) (B : FVec Ideal S2048x9 .f32)
    (h : Shape.Concatenates [S2048x7, S2048x9] S2048x16 1) (r : Fin 2048) (c : Fin 16) (k : Fin 9) (hk : k.val + 7 = c.val) :
    concatenate S2048x16 1 [⟨S2048x7, A⟩, ⟨S2048x9, B⟩] h (ix2 r c) = B (ix2 r k) :=
  concatenate_pair_apply_right 1 A B h (ix2 r c) rfl rfl (ix2 r k) (fun b hb => by
    match b with
    | ⟨0, _⟩ => rfl
    | ⟨1, _⟩ => exact absurd rfl hb) hk

/-- The seven-column concatenation of single columns reads, at column k, piece k at its only column. -/
theorem cat7_apply (xs : List ((s : Shape) × (s.Idx → EReal))) (h : Shape.Concatenates (xs.map (·.1)) S2048x7 1)
    (r : Fin 2048) (k : Fin 7) (hk : k.val < xs.length) (vk : FVec Ideal S2048x1 .f32) (hvk : xs[k.val] = ⟨S2048x1, vk⟩)
    (hpre : (((xs.take k.val).map (·.1)).map fun s =>
      if h : s.rank = S2048x7.rank then s.size ((1 : Fin S2048x7.rank).cast h.symm) else 0).sum = k.val) :
    concatenate S2048x7 1 xs h (ix2 r k) = vk (ix2 r 0) :=
  concatenate_apply_piece 1 xs h (ix2 r k) k.val hk S2048x1 vk hvk rfl k.val hpre (ix2 r 0)
    (fun b hb => by
      match b with
      | ⟨0, _⟩ => rfl
      | ⟨1, _⟩ => exact absurd rfl hb) (Nat.add_zero _)

/-! ## The stored block -/

/-- Segment 5's column: the width-4 slice against its one-hot row. -/
def col5 (x0 : Vec Ideal S2048x16 .i32) (x1 : Vec Ideal S256x384 .bf16) : FVec Ideal S2048x1 .f32 :=
  shapeCast S2048x1 (multiReduction (F := Ideal) .add [1] S2048
    (mulf (k0_pay13 (F := Ideal) (k0_pay4 x0 x1))
      (sitofp .f32 (extui 32 (cmpi .eq
        (broadcastTo S2048x4 (iota .tc S1x4 32 [1] iota_S1x4_d1_w32) broadcasts_S1x4_S2048x4)
        (broadcastTo S2048x4 (shrsi (k0_pay14 (k0_pay2 (F := Ideal) x0) (k0_pay3 (F := Ideal) x0)) (broadcast S2048x1 8#32))
          broadcasts_S2048x1_S2048x4)) natLt_1_32)))
    0x00000000#32 reduces_S2048x4_S2048 (.inl rfl) rfl) shapeCasts_S2048_S2048x1

/-- Segment 6's column: the width-2 slice against its one-hot row. -/
def col6 (x0 : Vec Ideal S2048x16 .i32) (x1 : Vec Ideal S256x384 .bf16) : FVec Ideal S2048x1 .f32 :=
  shapeCast S2048x1 (multiReduction (F := Ideal) .add [1] S2048
    (mulf (extractStridedSlice S2048x2 ![0, 261] (k0_pay4 (F := Ideal) x0 x1) slices_S2048x384_o0_261_S2048x2)
      (sitofp .f32 (extui 32 (cmpi .eq
        (broadcastTo S2048x2 (iota .tc S1x2 32 [1] iota_S1x2_d1_w32) broadcasts_S1x2_S2048x2)
        (broadcastTo S2048x2 (shrsi (subi (extractStridedSlice S2048x1 ![0, 6] (k0_pay2 (F := Ideal) x0)
            slices_S2048x16_o0_6_S2048x1) (k0_pay3 (F := Ideal) x0)) (broadcast S2048x1 8#32))
          broadcasts_S2048x1_S2048x2)) natLt_1_32)))
    0x00000000#32 reduces_S2048x2_S2048 (.inl rfl) rfl) shapeCasts_S2048_S2048x1

/-- The looked-up table values before the digit is applied: columns 0 … 6 from the seven segments, columns 7 … 15 the
    first nine packed columns. -/
def lookups (x0 : Vec Ideal S2048x16 .i32) (x1 : Vec Ideal S256x384 .bf16) : FVec Ideal S2048x16 .f32 :=
  concatenate S2048x16 1 [⟨S2048x7, concatenate S2048x7 1
      [⟨S2048x1, k0_pay6 (F := Ideal) x0 x1⟩,
       ⟨S2048x1, k0_pay9 (F := Ideal) (k0_pay7 x0 x1) (k0_pay8 x0) iota64⟩,
       ⟨S2048x1, k0_pay10 (F := Ideal) (k0_pay2 x0) (k0_pay3 x0) (k0_pay4 x0 x1)⟩,
       ⟨S2048x1, k0_pay11 (F := Ideal) (k0_pay2 x0) (k0_pay3 x0) (k0_pay4 x0 x1)⟩,
       ⟨S2048x1, k0_pay12 (F := Ideal) (k0_pay2 x0) (k0_pay3 x0) (k0_pay4 x0 x1)⟩,
       ⟨S2048x1, col5 x0 x1⟩, ⟨S2048x1, col6 x0 x1⟩]
      concatenates_S2048x1_S2048x1_S2048x1_S2048x1_S2048x1_S2048x1_S2048x1_S2048x7_d1⟩,
    ⟨S2048x9, k0_pay5 (F := Ideal) x0 x1⟩] concatenates_S2048x7_S2048x9_S2048x16_d1

/-- The stored block is the digit, as a number, combined with the looked-up value: b + f − (2·b)·f. -/
theorem pay_eq (x0 : Vec Ideal S2048x16 .i32) (x1 : Vec Ideal S256x384 .bf16) :
    pay (F := Ideal) x0 x1
      = subf (addf (sitofp .f32 x0) (lookups x0 x1))
          (mulf (mulf (broadcast S2048x16 (Scalar.ofBits (F := Ideal) .f32 0x40000000#32)) (sitofp .f32 x0)) (lookups x0 x1)) :=
  rfl

/-- Which segment a packed column lies in, for the columns of one segment. -/
theorem segOf_of (o start W : ℕ) (h : ℕ) (hh : h < W)
    (hlo : (o = 0 ∧ start = 9 ∧ W = 128) ∨ (o = 1 ∧ start = 137 ∧ W = 64) ∨ (o = 2 ∧ start = 201 ∧ W = 32)
      ∨ (o = 3 ∧ start = 233 ∧ W = 16) ∨ (o = 4 ∧ start = 249 ∧ W = 8) ∨ (o = 5 ∧ start = 257 ∧ W = 4)
      ∨ (o = 6 ∧ start = 261 ∧ W = 2)) : segOf (start + h) = (o, start) := by
  unfold segOf
  rcases hlo with ⟨rfl, rfl, rfl⟩ | ⟨rfl, rfl, rfl⟩ | ⟨rfl, rfl, rfl⟩ | ⟨rfl, rfl, rfl⟩ | ⟨rfl, rfl, rfl⟩ | ⟨rfl, rfl, rfl⟩ | ⟨rfl, rfl, rfl⟩ <;>
    split_ifs <;> first | rfl | omega

/-- Entry (r, c) of the looked-up values: table row 15 − c at the context address of column c. -/
theorem lookups_apply (x0 : Vec Ideal S2048x16 .i32) (hx : IsBit x0) (t : FVec Ideal ⟨2, ![16, 32768]⟩ .f32)
    (r : Fin 2048) (c : Fin 16) :
    lookups x0 (himat t) (ix2 r c) = tab t (15 - c.val) (addr (row x0 r) c) := by
  unfold lookups
  obtain ⟨cv, hcv⟩ := c
  interval_cases cv
  · refine (cat2_left _ _ _ r _ 0 rfl).trans ((cat7_apply _ _ r 0 (lt_of_lt_of_le (Fin.isLt _) (le_of_eq rfl)) _ rfl rfl).trans ?_)
    exact seg_col x0 hx t r (W := 128) 9 0 _ rfl (by omega) rfl (by omega) (by omega)
      (fun h hh => segOf_of 0 9 128 h hh (by omega))
      slices_S2048x384_o0_9_S2048x128 slices_S2048x16_o0_0_S2048x1 iota_S1x128_d1_w32 broadcasts_S1x128_S2048x128
      broadcasts_S2048x1_S2048x128 reduces_S2048x128_S2048 shapeCasts_S2048_S2048x1 natLt_1_32 (.inl rfl) rfl
  · refine (cat2_left _ _ _ r _ 1 rfl).trans ((cat7_apply _ _ r 1 (lt_of_lt_of_le (Fin.isLt _) (le_of_eq rfl)) _ rfl rfl).trans ?_)
    exact seg_col x0 hx t r (W := 64) 137 1 _ rfl (by omega) rfl (by omega) (by omega)
      (fun h hh => segOf_of 1 137 64 h hh (by omega))
      slices_S2048x384_o0_137_S2048x64 slices_S2048x16_o0_1_S2048x1 iota_S1x64_d1_w32 broadcasts_S1x64_S2048x64
      broadcasts_S2048x1_S2048x64 reduces_S2048x64_S2048 shapeCasts_S2048_S2048x1 natLt_1_32 (.inl rfl) rfl
  · refine (cat2_left _ _ _ r _ 2 rfl).trans ((cat7_apply _ _ r 2 (lt_of_lt_of_le (Fin.isLt _) (le_of_eq rfl)) _ rfl rfl).trans ?_)
    exact seg_col x0 hx t r (W := 32) 201 2 _ rfl (by omega) rfl (by omega) (by omega)
      (fun h hh => segOf_of 2 201 32 h hh (by omega))
      slices_S2048x384_o0_201_S2048x32 slices_S2048x16_o0_2_S2048x1 iota_S1x32_d1_w32 broadcasts_S1x32_S2048x32
      broadcasts_S2048x1_S2048x32 reduces_S2048x32_S2048 shapeCasts_S2048_S2048x1 natLt_1_32 (.inl rfl) rfl
  · refine (cat2_left _ _ _ r _ 3 rfl).trans ((cat7_apply _ _ r 3 (lt_of_lt_of_le (Fin.isLt _) (le_of_eq rfl)) _ rfl rfl).trans ?_)
    exact seg_col x0 hx t r (W := 16) 233 3 _ rfl (by omega) rfl (by omega) (by omega)
      (fun h hh => segOf_of 3 233 16 h hh (by omega))
      slices_S2048x384_o0_233_S2048x16 slices_S2048x16_o0_3_S2048x1 iota_S1x16_d1_w32 broadcasts_S1x16_S2048x16
      broadcasts_S2048x1_S2048x16 reduces_S2048x16_S2048 shapeCasts_S2048_S2048x1 natLt_1_32 (.inl rfl) rfl
  · refine (cat2_left _ _ _ r _ 4 rfl).trans ((cat7_apply _ _ r 4 (lt_of_lt_of_le (Fin.isLt _) (le_of_eq rfl)) _ rfl rfl).trans ?_)
    exact seg_col x0 hx t r (W := 8) 249 4 _ rfl (by omega) rfl (by omega) (by omega)
      (fun h hh => segOf_of 4 249 8 h hh (by omega))
      slices_S2048x384_o0_249_S2048x8 slices_S2048x16_o0_4_S2048x1 iota_S1x8_d1_w32 broadcasts_S1x8_S2048x8
      broadcasts_S2048x1_S2048x8 reduces_S2048x8_S2048 shapeCasts_S2048_S2048x1 natLt_1_32 (.inl rfl) rfl
  · refine (cat2_left _ _ _ r _ 5 rfl).trans ((cat7_apply _ _ r 5 (lt_of_lt_of_le (Fin.isLt _) (le_of_eq rfl)) _ rfl rfl).trans ?_)
    exact seg_col x0 hx t r (W := 4) 257 5 _ rfl (by omega) rfl (by omega) (by omega)
      (fun h hh => segOf_of 5 257 4 h hh (by omega))
      slices_S2048x384_o0_257_S2048x4 slices_S2048x16_o0_5_S2048x1 iota_S1x4_d1_w32 broadcasts_S1x4_S2048x4
      broadcasts_S2048x1_S2048x4 reduces_S2048x4_S2048 shapeCasts_S2048_S2048x1 natLt_1_32 (.inl rfl) rfl
  · refine (cat2_left _ _ _ r _ 6 rfl).trans ((cat7_apply _ _ r 6 (lt_of_lt_of_le (Fin.isLt _) (le_of_eq rfl)) _ rfl rfl).trans ?_)
    exact seg_col x0 hx t r (W := 2) 261 6 _ rfl (by omega) rfl (by omega) (by omega)
      (fun h hh => segOf_of 6 261 2 h hh (by omega))
      slices_S2048x384_o0_261_S2048x2 slices_S2048x16_o0_6_S2048x1 iota_S1x2_d1_w32 broadcasts_S1x2_S2048x2
      broadcasts_S2048x1_S2048x2 reduces_S2048x2_S2048 shapeCasts_S2048_S2048x1 natLt_1_32 (.inl rfl) rfl
  · exact (cat2_right _ _ _ r _ 0 rfl).trans (low_col x0 hx t r _ 0 rfl)
  · exact (cat2_right _ _ _ r _ 1 rfl).trans (low_col x0 hx t r _ 1 rfl)
  · exact (cat2_right _ _ _ r _ 2 rfl).trans (low_col x0 hx t r _ 2 rfl)
  · exact (cat2_right _ _ _ r _ 3 rfl).trans (low_col x0 hx t r _ 3 rfl)
  · exact (cat2_right _ _ _ r _ 4 rfl).trans (low_col x0 hx t r _ 4 rfl)
  · exact (cat2_right _ _ _ r _ 5 rfl).trans (low_col x0 hx t r _ 5 rfl)
  · exact (cat2_right _ _ _ r _ 6 rfl).trans (low_col x0 hx t r _ 6 rfl)
  · exact (cat2_right _ _ _ r _ 7 rfl).trans (low_col x0 hx t r _ 7 rfl)
  · exact (cat2_right _ _ _ r _ 8 rfl).trans (low_col x0 hx t r _ 8 rfl)

end Cert.KernelIdeal.Hand.KBodyB

namespace Cert.KernelIdeal.Hand

open Cert.KernelIdeal Cert.KernelIdeal.Gen Cert.Spec
open Idealize.ShloMosaic Idealize.ShloMosaic.ValueIdx Idealize.SL.Sem

/-- Entry (r, c) of the stored block. -/
theorem pay_apply (x0 : Vec Ideal S2048x16 .i32) (hx : IsBit x0) (t : FVec Ideal ⟨2, ![16, 32768]⟩ .f32)
    (r : Fin 2048) (c : Fin 16) :
    pay (F := Ideal) x0 (himat t) (ix2 r c)
      = flip (x0 (ix2 r c)) (tab t (15 - c.val) (addr (row x0 r) c)) := by
  rw [KBodyB.pay_eq]
  show (FloatOps.sitofp (F := Ideal) .f32 (x0 (ix2 r c)) + KBodyB.lookups x0 (himat t) (ix2 r c))
      - (Scalar.ofBits (F := Ideal) .f32 0x40000000#32 * FloatOps.sitofp (F := Ideal) .f32 (x0 (ix2 r c)))
        * KBodyB.lookups x0 (himat t) (ix2 r c) = _
  rw [KBodyB.lookups_apply x0 hx t r c]
  rfl

end Cert.KernelIdeal.Hand

end
-- ==== Proof.KValue.lean ====
/- From blocks to the array: after the run the result array is `Spec.G` of the arguments.

   The grid has 2048 points.  Point t stages rows t·2048 … t·2048 + 2047 of the array of digits and the whole
   packed matrix, and writes its stored block back over the same rows of the result array.  Entry (r, c) of the
   stored block is the digit (r, c) of the block flipped by the table entry at the context address of column c
   in row r of the block; that row is row t·2048 + r of the array, and the context address reads nothing but its
   own row, so the stored block is block t of `G`.  Row R of the array lies in the block of point R / 2048, so
   the blocks cover the array and the array ends holding `G` everywhere. -/
import proofs.«410118_j27668179321271_3_alg».proof.Proof.FrameI
import proofs.«410118_j27668179321271_3_alg».proof.Proof.KHost
import proofs.«410118_j27668179321271_3_alg».proof.Proof.KBodyB
import Idealize.ShloMosaic.Lib.Pipeline.Value

set_option maxRecDepth 16384

noncomputable section

namespace Cert.KernelIdeal.Hand

open Cert.KernelIdeal Cert.KernelIdeal.Gen Cert.Spec
open Idealize.ShloMosaic Idealize.ShloMosaic.TcCoe Idealize.ShloMosaic.ValueIdx Idealize.SL.Sem
open Idealize.ShloMosaic.Pipeline (Dat)

namespace KValue

variable (m : (ℓ : Loc nD τ sig) → Buf (Elt Ideal) ℓ) (ρ : Dev nD → PrngReg)

/-! ## The grid and the index maps -/

theorem hz : (![0, 0] : Fin 2 → Nat) = fun _ => 0 := funext fun a => by fin_cases a <;> rfl

/-- The grid has 2048 points. -/
theorem N_eq : cfg0.N = 2048 := by decide

/-- The index maps, decided once over the grid: the blocks of digits and of results move down the rows with
    the point, and the packed matrix's one block stays at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem pt_lt (t : Fin cfg0.N) : t.val < 2048 := lt_of_lt_of_eq t.isLt N_eq

/-- Row r of the block at point t is a row of the array. -/
theorem row_lt (t : Fin cfg0.N) (r : Fin 2048) : t.val * 2048 + r.val < 4194304 := by have := pt_lt t; omega

/-! ## One block, over plain coordinates -/

/-- Block n of the result: when the loaded block of digits is rows n·2048 … n·2048 + 2047 of the array and the
    loaded matrix is the packed matrix of the table, entry (r, c) of the stored block is entry
    (n·2048 + r, c) of `G`.  The context address of a column only reads its own row, and row r of the block is
    row n·2048 + r of the array. -/
theorem block_eq (bits : IVec ⟨2, ![4194304, 16]⟩ 32) (hb : IsBit bits) (tb : FVec Ideal ⟨2, ![16, 32768]⟩ .f32)
    (n : ℕ) (hn : n < 2048) (x0 : Vec Ideal S2048x16 .i32) (x1 : Vec Ideal S256x384 .bf16)
    (hx0 : ∀ (r : Fin 2048) (c : Fin 16), x0 (ix2 r c) = bits (ix2 ⟨n * 2048 + r.val, by omega⟩ c))
    (hx1 : x1 = himat tb) (r : Fin 2048) (c : Fin 16) :
    pay (F := Ideal) x0 x1 (ix2 r c) = G bits tb (ix2 ⟨n * 2048 + r.val, by omega⟩ c) := by
  subst hx1
  have hbx : IsBit x0 := by
    intro i
    obtain ⟨r', c', rfl⟩ : ∃ (r' : Fin 2048) (c' : Fin 16), i = ix2 r' c' := ⟨i 0, i 1, eq_ix2 i⟩
    rw [hx0]; exact hb _
  have hrow : row x0 r = row bits ⟨n * 2048 + r.val, by omega⟩ := funext fun c' => hx0 r c'
  rw [pay_apply x0 hbx tb r c, hrow, hx0]
  rfl

/-! ## The blocks' places in their arrays -/

/-- Entry (r, c) of the block of digits at point t is entry (t·2048 + r, c) of the array. -/
theorem emb0 (t : Fin cfg0.N) (r : Fin 2048) (c' : Fin 16) :
    ((cfg0.win 0).blk t).view.emb (ix2 r c')
      = ix2 ⟨t.val * 2048 + r.val, row_lt t r⟩ c' := by
  obtain ⟨e0, e1, -, -, -, -⟩ := idx_facts t
  funext a; apply Fin.ext
  match a with
  | ⟨0, _⟩ => show win0_0.index t (0 : Fin 2) * 2048 + 1 * r.val = t.val * 2048 + r.val; omega
  | ⟨1, _⟩ => show win0_0.index t (1 : Fin 2) * 16 + 1 * c'.val = c'.val; omega

/-- Entry (r, c) of the block of results at point t is entry (t·2048 + r, c) of the array. -/
theorem emb2 (t : Fin cfg0.N) (r : Fin 2048) (c' : Fin 16) :
    ((cfg0.win 2).blk t).view.emb (ix2 r c')
      = ix2 ⟨t.val * 2048 + r.val, row_lt t r⟩ c' := by
  obtain ⟨-, -, -, -, e4, e5⟩ := idx_facts t
  funext a; apply Fin.ext
  match a with
  | ⟨0, _⟩ => show win0_2.index t (0 : Fin 2) * 2048 + 1 * r.val = t.val * 2048 + r.val; omega
  | ⟨1, _⟩ => show win0_2.index t (1 : Fin 2) * 16 + 1 * c'.val = c'.val; omega

/-- The packed matrix's block is the whole matrix at every point. -/
theorem emb1 (t : Fin cfg0.N) (j : S256x384.Idx) : ((cfg0.win 1).blk t).view.emb j = j := by
  obtain ⟨-, -, e2, e3, -, -⟩ := idx_facts t
  funext a; apply Fin.ext
  match a with
  | ⟨0, _⟩ => show win0_1.index t (0 : Fin 2) * 256 + 1 * (j 0).val = (j 0).val; omega
  | ⟨1, _⟩ => show win0_1.index t (1 : Fin 2) * 384 + 1 * (j 1).val = (j 1).val; omega

/-- The block of digits at point t, as a function of literal shape. -/
abbrev xblk (c : Dev nD) (t : Fin cfg0.N) : Vec Ideal S2048x16 .i32 := iblk m c 0 t
/-- The staged matrix at point t, as a function of literal shape. -/
abbrev hblk (c : Dev nD) (t : Fin cfg0.N) : Vec Ideal S256x384 .bf16 := iblk m c 1 t

theorem xblk_apply (c : Dev nD) (t : Fin cfg0.N) (r : Fin 2048) (c' : Fin 16) :
    xblk m c t (ix2 r c') = m ((c : Thread nD τ).loc main_arg0) (ix2 ⟨t.val * 2048 + r.val, row_lt t r⟩ c') := by
  show V m c main_arg0 (((cfg0.win 0).blk t).view.emb (ix2 r c')) = _
  rw [emb0, V_main_arg0]

theorem hblk_eq (c : Dev nD) (t : Fin cfg0.N) : hblk m c t = himat (m ((c : Thread nD τ).loc main_arg1)) := by
  rw [← himat_eq m c]
  funext j
  show V m c main_v86 (((cfg0.win 1).blk t).view.emb j) = V m c main_v86 j
  rw [emb1]

/-! ## What a point writes back -/

/-- Point t writes back block t of `G` of the arguments. -/
theorem flushed_eq (c : Dev nD) (hb : IsBit (m ((c : Thread nD τ).loc main_arg0))) (t : Fin cfg0.N) :
    (dats m 0 c).flushed 2 t = ((cfg0.win 2).blk t).view.read (Elt Ideal)
      (G (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz]
  simp only [View.ld_unit_zero (S := S2048x16) hz, View.ld_unit_zero (S := S256x384) hz]
  funext j
  obtain ⟨r, c', rfl⟩ : ∃ (r : Fin 2048) (c' : Fin 16), j = ix2 r c' := ⟨j 0, j 1, eq_ix2 j⟩
  show pay (F := Ideal) (xblk m c t) (hblk m c t) (ix2 r c')
    = G (m ((c : Thread nD τ).loc main_arg0)) (m ((c : Thread nD τ).loc main_arg1)) (((cfg0.win 2).blk t).view.emb (ix2 r c'))
  rw [emb2]
  exact block_eq _ hb _ t.val (pt_lt t) _ _ (xblk_apply m c t) (hblk_eq m c t) r c'

/-! ## The blocks cover the array -/

/-- An index of the array is in point t's block iff each coordinate is in the block's range on its axis. -/
theorem mem_blk (t : Fin cfg0.N) (i : S4194304x16.Idx) :
    i ∈ ((cfg0.win 2).blk t).view.set ↔ ∀ a : Fin 2, win0_2.index t a * S2048x16.size a ≤ (i a).val ∧ (i a).val < win0_2.index t a * S2048x16.size a + S2048x16.size a := by
  show i ∈ ((View.whole main_v87).slice (win0_2.rect t)).set ↔ _
  rw [View.set_slice_whole, Rect.mem_set_unit]
  exact Iff.rfl

/-- Row R of the array lies in the block of point R / 2048. -/
theorem cover (i : S4194304x16.Idx) :
    ∃ t : Fin cfg0.N, (cfg0.win 2).flush t = true ∧ i ∈ ((cfg0.win 2).blk t).view.set := by
  have hi0 : (i 0).val < 4194304 := (i 0).isLt
  have hi1 : (i 1).val < 16 := (i 1).isLt
  let t : Fin cfg0.N := ⟨(i 0).val / 2048, lt_of_lt_of_eq (by omega) N_eq.symm⟩
  obtain ⟨-, -, -, -, e4, e5⟩ := idx_facts t
  have e4' : win0_2.index t (0 : Fin 2) = (i 0).val / 2048 := e4
  refine ⟨t, flush0_2 t, ?_⟩
  rw [mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 16 ≤ (i 1).val ∧ (i 1).val < win0_2.index t (1 : Fin 2) * 16 + 16; omega

/-! ## The array after the run -/

/-- The result array after the run is `G` of the arguments. -/
theorem final (c : Dev nD) (hb : IsBit (m ((c : Thread nD τ).loc main_arg0))) :
    (dats m 0 c).arrAt 2 cfg0.N = G (m ((c : Thread nD τ).loc main_arg0)) (m ((c : Thread nD τ).loc main_arg1)) :=
  (dats m 0 c).arrAt_eq_of_cover 2 _ (fun t _ => flushed_eq m c hb t) cover

end KValue

/-- The idealized kernel's run, read: the result array is `G` of the arguments, which end as launched. -/
theorem value_run (m : (ℓ : Loc nD τ sig) → Buf (Elt Ideal) ℓ) (ρ : Dev nD → PrngReg)
    (hb : ∀ c : Dev nD, IsBit (m ((c.tc : Thread nD τ).loc main_arg0))) :
    θ_run defs (onTc (τ := τ) (main (F := Ideal))) ⟨m, fun _ => 0, ρ⟩ fun r => ∀ c : Dev nD,
      r.2.mem ((c.tc : Thread nD τ).loc main_v87) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 2).trans (KValue.final m c (hb c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c)⟩)
    (run_main m ρ)

end Cert.KernelIdeal.Hand

end
-- ==== Proof.ROps.lean ====
/- The reference's @main as the list of its 132 host operations in order, each call's body written out at the call over that
   call's buffers; @main is the straight line over the list, every operation touches TensorCore buffers only, and so every
   weakly fair execution ends with each buffer at the fold of the operations over the launch contents. -/
import proofs.«410118_j27668179321271_3_alg».proof.Proof.Gen.ReferenceIdeal
import Idealize.ShloMosaic.Lib.StableHlo.Run

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

set_option maxHeartbeats 40000000 in
/-- @main's 132 operations, in order. -/
abbrev ops : List (HloOp τ sig (Elt F)) :=
  ( StableHlo.unary main_arg0 main_v0 (Host.reverse [1] : (⟨S4194304x16, .i32⟩ : BufTy).Contents (Elt F) → (⟨S4194304x16, .i32⟩ : BufTy).Contents (Elt F))
  :: StableHlo.nullary main_v1 (iotaInDim S16 32 0)
  :: StableHlo.nullary main_c (constantI S_ 32 2#32)
  :: StableHlo.nullary main_c_0 (constantI S_ 32 0#32)
  :: StableHlo.binary main_c main_c_0 main_v2 (cmpi .eq : (⟨S_, .i32⟩ : BufTy).Contents (Elt F) → (⟨S_, .i32⟩ : BufTy).Contents (Elt F) → (⟨S_, .i1⟩ : BufTy).Contents (Elt F))
  :: StableHlo.nullary main_c_1 (constantI S_ 32 0#32)
  :: StableHlo.unary main_c_1 main_v3 (broadcastInDim S16 ![] bcast_S_S16 : (⟨S_, .i32⟩ : BufTy).Contents (Elt F) → (⟨S16, .i32⟩ : BufTy).Contents (Elt F))
  :: StableHlo.binary main_v1 main_v3 main_v4 (cmpi .ne : (⟨S16, .i32⟩ : BufTy).Contents (Elt F) → (⟨S16, .i32⟩ : BufTy).Contents (Elt F) → (⟨S16, .i1⟩ : BufTy).Contents (Elt F))
  :: StableHlo.unary main_v2 main_v5 (broadcastInDim S16 ![] bcast_S_S16 : (⟨S_, .i1⟩ : BufTy).Contents (Elt F) → (⟨S16, .i1⟩ : BufTy).Contents (Elt F))
  :: StableHlo.binary main_v5 main_v4 main_v6 (andi : (⟨S16, .i1⟩ : BufTy).Contents (Elt F) → (⟨S16, .i1⟩ : BufTy).Contents (Elt F) → (⟨S16, .i1⟩ : BufTy).Contents (Elt F))
  :: StableHlo.nullary main_c_2 (constantI S_ 32 0#32)
  :: StableHlo.nullary main_c_3 (constantI S_ 32 1#32)
  :: StableHlo.TRef.unary (.of main_c_2 : StableHlo.TRef sig ⟨S_, .i32⟩) main_call0.v0 (broadcastInDim S16 ![] bcast_S_S16)
  :: StableHlo.TRef.unary (.of main_c_3 : StableHlo.TRef sig ⟨S_, .i32⟩) main_call0.v1 (broadcastInDim S16 ![] bcast_S_S16)
  :: StableHlo.TRef.ternary (.of main_v6 : StableHlo.TRef sig ⟨S16, .i1⟩) main_call0.v0 main_call0.v1 main_call0.v2 select
  :: StableHlo.nullary main_c_4 (constantI S_ 32 1#32)
  :: StableHlo.unary main_c_4 main_v8 (broadcastInDim S16 ![] bcast_S_S16 : (⟨S_, .i32⟩ : BufTy).Contents (Elt F) → (⟨S16, .i32⟩ : BufTy).Contents (Elt F))
  :: StableHlo.binary main_v1 main_v8 main_v9 (andi : (⟨S16, .i32⟩ : BufTy).Contents (Elt F) → (⟨S16, .i32⟩ : BufTy).Contents (Elt F) → (⟨S16, .i32⟩ : BufTy).Contents (Elt F))
  :: StableHlo.nullary main_c_5 (constantI S_ 32 2#32)
  :: StableHlo.unary main_c_5 main_v10 (broadcastInDim S16 ![] bcast_S_S16 : (⟨S_, .i32⟩ : BufTy).Contents (Elt F) → (⟨S16, .i32⟩ : BufTy).Contents (Elt F))
  :: StableHlo.binary main_v7 main_v10 main_v11 (muli : (⟨S16, .i32⟩ : BufTy).Contents (Elt F) → (⟨S16, .i32⟩ : BufTy).Contents (Elt F) → (⟨S16, .i32⟩ : BufTy).Contents (Elt F))
  :: StableHlo.TRef.nullary main_call1.c (constantI S_ 32 0#32)
  :: StableHlo.TRef.unary main_call1.c main_call1.v0 (broadcastInDim S16 ![] bcast_S_S16)
  :: StableHlo.TRef.binary (.of main_v9 : StableHlo.TRef sig ⟨S16, .i32⟩) main_call1.v0 main_call1.v1 (cmpi .ne)
  :: StableHlo.TRef.ternary main_call1.v1 (.of main_v11 : StableHlo.TRef sig ⟨S16, .i32⟩) (.of main_v7 : StableHlo.TRef sig ⟨S16, .i32⟩) main_call1.v2 select
  :: StableHlo.nullary main_c_6 (constantI S_ 32 2#32)
  :: StableHlo.nullary main_c_7 (constantI S_ 32 2#32)
  :: StableHlo.binary main_c_6 main_c_7 main_v13 (muli : (⟨S_, .i32⟩ : BufTy).Contents (Elt F) → (⟨S_, .i32⟩ : BufTy).Contents (Elt F) → (⟨S_, .i32⟩ : BufTy).Contents (Elt F))
  :: StableHlo.nullary main_c_8 (constantI S_ 32 1#32)
  :: StableHlo.unary main_c_8 main_v14 (broadcastInDim S16 ![] bcast_S_S16 : (⟨S_, .i32⟩ : BufTy).Contents (Elt F) → (⟨S16, .i32⟩ : BufTy).Contents (Elt F))
  :: StableHlo.binary main_v1 main_v14 main_v15 (Host.shrui : (⟨S16, .i32⟩ : BufTy).Contents (Elt F) → (⟨S16, .i32⟩ : BufTy).Contents (Elt F) → (⟨S16, .i32⟩ : BufTy).Contents (Elt F))
  :: StableHlo.nullary main_c_9 (constantI S_ 32 1#32)
  :: StableHlo.unary main_c_9 main_v16 (broadcastInDim S16 ![] bcast_S_S16 : (⟨S_, .i32⟩ : BufTy).Contents (Elt F) → (⟨S16, .i32⟩ : BufTy).Contents (Elt F))
  :: StableHlo.binary main_v15 main_v16 main_v17 (andi : (⟨S16, .i32⟩ : BufTy).Contents (Elt F) → (⟨S16, .i32⟩ : BufTy).Contents (Elt F) → (⟨S16, .i32⟩ : BufTy).Contents (Elt F))
  :: StableHlo.unary main_v13 main_v18 (broadcastInDim S16 ![] bcast_S_S16 : (⟨S_, .i32⟩ : BufTy).Contents (Elt F) → (⟨S16, .i32⟩ : BufTy).Contents (Elt F))
  :: StableHlo.binary main_v12 main_v18 main_v19 (muli : (⟨S16, .i32⟩ : BufTy).Contents (Elt F) → (⟨S16, .i32⟩ : BufTy).Contents (Elt F) → (⟨S16, .i32⟩ : BufTy).Contents (Elt F))
  :: StableHlo.TRef.nullary main_call2.c (constantI S_ 32 0#32)
  :: StableHlo.TRef.unary main_call2.c main_call2.v0 (broadcastInDim S16 ![] bcast_S_S16)
  :: StableHlo.TRef.binary (.of main_v17 : StableHlo.TRef sig ⟨S16, .i32⟩) main_call2.v0 main_call2.v1 (cmpi .ne)
  :: StableHlo.TRef.ternary main_call2.v1 (.of main_v19 : StableHlo.TRef sig ⟨S16, .i32⟩) (.of main_v12 : StableHlo.TRef sig ⟨S16, .i32⟩) main_call2.v2 select
  :: StableHlo.binary main_v13 main_v13 main_v21 (muli : (⟨S_, .i32⟩ : BufTy).Contents (Elt F) → (⟨S_, .i32⟩ : BufTy).Contents (Elt F) → (⟨S_, .i32⟩ : BufTy).Contents (Elt F))
  :: StableHlo.nullary main_c_10 (constantI S_ 32 1#32)
  :: StableHlo.unary main_c_10 main_v22 (broadcastInDim S16 ![] bcast_S_S16 : (⟨S_, .i32⟩ : BufTy).Contents (Elt F) → (⟨S16, .i32⟩ : BufTy).Contents (Elt F))
  :: StableHlo.binary main_v15 main_v22 main_v23 (Host.shrui : (⟨S16, .i32⟩ : BufTy).Contents (Elt F) → (⟨S16, .i32⟩ : BufTy).Contents (Elt F) → (⟨S16, .i32⟩ : BufTy).Contents (Elt F))
  :: StableHlo.nullary main_c_11 (constantI S_ 32 1#32)
  :: StableHlo.unary main_c_11 main_v24 (broadcastInDim S16 ![] bcast_S_S16 : (⟨S_, .i32⟩ : BufTy).Contents (Elt F) → (⟨S16, .i32⟩ : BufTy).Contents (Elt F))
  :: StableHlo.binary main_v23 main_v24 main_v25 (andi : (⟨S16, .i32⟩ : BufTy).Contents (Elt F) → (⟨S16, .i32⟩ : BufTy).Contents (Elt F) → (⟨S16, .i32⟩ : BufTy).Contents (Elt F))
  :: StableHlo.unary main_v21 main_v26 (broadcastInDim S16 ![] bcast_S_S16 : (⟨S_, .i32⟩ : BufTy).Contents (Elt F) → (⟨S16, .i32⟩ : BufTy).Contents (Elt F))
  :: StableHlo.binary main_v20 main_v26 main_v27 (muli : (⟨S16, .i32⟩ : BufTy).Contents (Elt F) → (⟨S16, .i32⟩ : BufTy).Contents (Elt F) → (⟨S16, .i32⟩ : BufTy).Contents (Elt F))
  :: StableHlo.TRef.nullary main_call3.c (constantI S_ 32 0#32)
  :: StableHlo.TRef.unary main_call3.c main_call3.v0 (broadcastInDim S16 ![] bcast_S_S16)
  :: StableHlo.TRef.binary (.of main_v25 : StableHlo.TRef sig ⟨S16, .i32⟩) main_call3.v0 main_call3.v1 (cmpi .ne)
  :: StableHlo.TRef.ternary main_call3.v1 (.of main_v27 : StableHlo.TRef sig ⟨S16, .i32⟩) (.of main_v20 : StableHlo.TRef sig ⟨S16, .i32⟩) main_call3.v2 select
  :: StableHlo.binary main_v21 main_v21 main_v29 (muli : (⟨S_, .i32⟩ : BufTy).Contents (Elt F) → (⟨S_, .i32⟩ : BufTy).Contents (Elt F) → (⟨S_, .i32⟩ : BufTy).Contents (Elt F))
  :: StableHlo.nullary main_c_12 (constantI S_ 32 1#32)
  :: StableHlo.unary main_c_12 main_v30 (broadcastInDim S16 ![] bcast_S_S16 : (⟨S_, .i32⟩ : BufTy).Contents (Elt F) → (⟨S16, .i32⟩ : BufTy).Contents (Elt F))
  :: StableHlo.binary main_v23 main_v30 main_v31 (Host.shrui : (⟨S16, .i32⟩ : BufTy).Contents (Elt F) → (⟨S16, .i32⟩ : BufTy).Contents (Elt F) → (⟨S16, .i32⟩ : BufTy).Contents (Elt F))
  :: StableHlo.nullary main_c_13 (constantI S_ 32 1#32)
  :: StableHlo.unary main_c_13 main_v32 (broadcastInDim S16 ![] bcast_S_S16 : (⟨S_, .i32⟩ : BufTy).Contents (Elt F) → (⟨S16, .i32⟩ : BufTy).Contents (Elt F))
  :: StableHlo.binary main_v31 main_v32 main_v33 (andi : (⟨S16, .i32⟩ : BufTy).Contents (Elt F) → (⟨S16, .i32⟩ : BufTy).Contents (Elt F) → (⟨S16, .i32⟩ : BufTy).Contents (Elt F))
  :: StableHlo.unary main_v29 main_v34 (broadcastInDim S16 ![] bcast_S_S16 : (⟨S_, .i32⟩ : BufTy).Contents (Elt F) → (⟨S16, .i32⟩ : BufTy).Contents (Elt F))
  :: StableHlo.binary main_v28 main_v34 main_v35 (muli : (⟨S16, .i32⟩ : BufTy).Contents (Elt F) → (⟨S16, .i32⟩ : BufTy).Contents (Elt F) → (⟨S16, .i32⟩ : BufTy).Contents (Elt F))
  :: StableHlo.TRef.nullary main_call4.c (constantI S_ 32 0#32)
  :: StableHlo.TRef.unary main_call4.c main_call4.v0 (broadcastInDim S16 ![] bcast_S_S16)
  :: StableHlo.TRef.binary (.of main_v33 : StableHlo.TRef sig ⟨S16, .i32⟩) main_call4.v0 main_call4.v1 (cmpi .ne)
  :: StableHlo.TRef.ternary main_call4.v1 (.of main_v35 : StableHlo.TRef sig ⟨S16, .i32⟩) (.of main_v28 : StableHlo.TRef sig ⟨S16, .i32⟩) main_call4.v2 select
  :: StableHlo.binary main_v29 main_v29 main_v37 (muli : (⟨S_, .i32⟩ : BufTy).Contents (Elt F) → (⟨S_, .i32⟩ : BufTy).Contents (Elt F) → (⟨S_, .i32⟩ : BufTy).Contents (Elt F))
  :: StableHlo.nullary main_c_14 (constantI S_ 32 1#32)
  :: StableHlo.unary main_c_14 main_v38 (broadcastInDim S16 ![] bcast_S_S16 : (⟨S_, .i32⟩ : BufTy).Contents (Elt F) → (⟨S16, .i32⟩ : BufTy).Contents (Elt F))
  :: StableHlo.binary main_v31 main_v38 main_v39 (Host.shrui : (⟨S16, .i32⟩ : BufTy).Contents (Elt F) → (⟨S16, .i32⟩ : BufTy).Contents (Elt F) → (⟨S16, .i32⟩ : BufTy).Contents (Elt F))
  :: StableHlo.nullary main_c_15 (constantI S_ 32 1#32)
  :: StableHlo.unary main_c_15 main_v40 (broadcastInDim S16 ![] bcast_S_S16 : (⟨S_, .i32⟩ : BufTy).Contents (Elt F) → (⟨S16, .i32⟩ : BufTy).Contents (Elt F))
  :: StableHlo.binary main_v39 main_v40 main_v41 (andi : (⟨S16, .i32⟩ : BufTy).Contents (Elt F) → (⟨S16, .i32⟩ : BufTy).Contents (Elt F) → (⟨S16, .i32⟩ : BufTy).Contents (Elt F))
  :: StableHlo.unary main_v37 main_v42 (broadcastInDim S16 ![] bcast_S_S16 : (⟨S_, .i32⟩ : BufTy).Contents (Elt F) → (⟨S16, .i32⟩ : BufTy).Contents (Elt F))
  :: StableHlo.binary main_v36 main_v42 main_v43 (muli : (⟨S16, .i32⟩ : BufTy).Contents (Elt F) → (⟨S16, .i32⟩ : BufTy).Contents (Elt F) → (⟨S16, .i32⟩ : BufTy).Contents (Elt F))
  :: StableHlo.TRef.nullary main_call5.c (constantI S_ 32 0#32)
  :: StableHlo.TRef.unary main_call5.c main_call5.v0 (broadcastInDim S16 ![] bcast_S_S16)
  :: StableHlo.TRef.binary (.of main_v41 : StableHlo.TRef sig ⟨S16, .i32⟩) main_call5.v0 main_call5.v1 (cmpi .ne)
  :: StableHlo.TRef.ternary main_call5.v1 (.of main_v43 : StableHlo.TRef sig ⟨S16, .i32⟩) (.of main_v36 : StableHlo.TRef sig ⟨S16, .i32⟩) main_call5.v2 select
  :: StableHlo.binary main_v37 main_v37 main_v45 (muli : (⟨S_, .i32⟩ : BufTy).Contents (Elt F) → (⟨S_, .i32⟩ : BufTy).Contents (Elt F) → (⟨S_, .i32⟩ : BufTy).Contents (Elt F))
  :: StableHlo.nullary main_c_16 (constantI S_ 32 1#32)
  :: StableHlo.unary main_c_16 main_v46 (broadcastInDim S16 ![] bcast_S_S16 : (⟨S_, .i32⟩ : BufTy).Contents (Elt F) → (⟨S16, .i32⟩ : BufTy).Contents (Elt F))
  :: StableHlo.binary main_v39 main_v46 main_v47 (Host.shrui : (⟨S16, .i32⟩ : BufTy).Contents (Elt F) → (⟨S16, .i32⟩ : BufTy).Contents (Elt F) → (⟨S16, .i32⟩ : BufTy).Contents (Elt F))
  :: StableHlo.nullary main_c_17 (constantI S_ 32 1#32)
  :: StableHlo.unary main_c_17 main_v48 (broadcastInDim S16 ![] bcast_S_S16 : (⟨S_, .i32⟩ : BufTy).Contents (Elt F) → (⟨S16, .i32⟩ : BufTy).Contents (Elt F))
  :: StableHlo.binary main_v47 main_v48 main_v49 (andi : (⟨S16, .i32⟩ : BufTy).Contents (Elt F) → (⟨S16, .i32⟩ : BufTy).Contents (Elt F) → (⟨S16, .i32⟩ : BufTy).Contents (Elt F))
  :: StableHlo.unary main_v45 main_v50 (broadcastInDim S16 ![] bcast_S_S16 : (⟨S_, .i32⟩ : BufTy).Contents (Elt F) → (⟨S16, .i32⟩ : BufTy).Contents (Elt F))
  :: StableHlo.binary main_v44 main_v50 main_v51 (muli : (⟨S16, .i32⟩ : BufTy).Contents (Elt F) → (⟨S16, .i32⟩ : BufTy).Contents (Elt F) → (⟨S16, .i32⟩ : BufTy).Contents (Elt F))
  :: StableHlo.TRef.nullary main_call6.c (constantI S_ 32 0#32)
  :: StableHlo.TRef.unary main_call6.c main_call6.v0 (broadcastInDim S16 ![] bcast_S_S16)
  :: StableHlo.TRef.binary (.of main_v49 : StableHlo.TRef sig ⟨S16, .i32⟩) main_call6.v0 main_call6.v1 (cmpi .ne)
  :: StableHlo.TRef.ternary main_call6.v1 (.of main_v51 : StableHlo.TRef sig ⟨S16, .i32⟩) (.of main_v44 : StableHlo.TRef sig ⟨S16, .i32⟩) main_call6.v2 select
  :: StableHlo.binary main_v45 main_v45 main_v53 (muli : (⟨S_, .i32⟩ : BufTy).Contents (Elt F) → (⟨S_, .i32⟩ : BufTy).Contents (Elt F) → (⟨S_, .i32⟩ : BufTy).Contents (Elt F))
  :: StableHlo.nullary main_c_18 (constantI S_ 32 1#32)
  :: StableHlo.unary main_c_18 main_v54 (broadcastInDim S16 ![] bcast_S_S16 : (⟨S_, .i32⟩ : BufTy).Contents (Elt F) → (⟨S16, .i32⟩ : BufTy).Contents (Elt F))
  :: StableHlo.binary main_v47 main_v54 main_v55 (Host.shrui : (⟨S16, .i32⟩ : BufTy).Contents (Elt F) → (⟨S16, .i32⟩ : BufTy).Contents (Elt F) → (⟨S16, .i32⟩ : BufTy).Contents (Elt F))
  :: StableHlo.unary main_v52 main_v56 (broadcastInDim S1x16 ![1] bcast_S16_S1x16_1 : (⟨S16, .i32⟩ : BufTy).Contents (Elt F) → (⟨S1x16, .i32⟩ : BufTy).Contents (Elt F))
  :: StableHlo.unary main_v56 main_v57 (broadcastInDim S4194304x16 ![0, 1] bcast_S1x16_S4194304x16_0_1 : (⟨S1x16, .i32⟩ : BufTy).Contents (Elt F) → (⟨S4194304x16, .i32⟩ : BufTy).Contents (Elt F))
  :: StableHlo.binary main_v0 main_v57 main_v58 (muli : (⟨S4194304x16, .i32⟩ : BufTy).Contents (Elt F) → (⟨S4194304x16, .i32⟩ : BufTy).Contents (Elt F) → (⟨S4194304x16, .i32⟩ : BufTy).Contents (Elt F))
  :: StableHlo.TRef.nullary main_call7.call0.c (constantI S_ 32 0#32)
  :: StableHlo.TRef.unary main_call7.call0.c main_call7.call0.v0 (broadcastInDim S_ ![] bcast_S_S_)
  :: StableHlo.TRef.binary (.of main_v58 : StableHlo.TRef sig ⟨S4194304x16, .i32⟩) main_call7.call0.v0 main_call7.call0.v1 (fun x v => Host.reduceWindow IntOp.addi ![1, 16] ![1, 1] ![0, 15] ![0, 0] x v reduceWindows_S4194304x16_S4194304x16_w1s1p0_0_w16s1p15_0 h_S_)
  :: StableHlo.binary main_v59 main_v58 main_v60 (subi : (⟨S4194304x16, .i32⟩ : BufTy).Contents (Elt F) → (⟨S4194304x16, .i32⟩ : BufTy).Contents (Elt F) → (⟨S4194304x16, .i32⟩ : BufTy).Contents (Elt F))
  :: StableHlo.nullary main_v61 (iotaInDim S16 32 0)
  :: StableHlo.unary main_v61 main_v62 (broadcastInDim S1x16 ![1] bcast_S16_S1x16_1 : (⟨S16, .i32⟩ : BufTy).Contents (Elt F) → (⟨S1x16, .i32⟩ : BufTy).Contents (Elt F))
  :: StableHlo.nullary main_c_19 (constantI S_ 32 0#32)
  :: StableHlo.unary main_c_19 main_v63 (broadcastInDim S1x16 ![] bcast_S_S1x16 : (⟨S_, .i32⟩ : BufTy).Contents (Elt F) → (⟨S1x16, .i32⟩ : BufTy).Contents (Elt F))
  :: StableHlo.binary main_v62 main_v63 main_v64 (cmpi .slt : (⟨S1x16, .i32⟩ : BufTy).Contents (Elt F) → (⟨S1x16, .i32⟩ : BufTy).Contents (Elt F) → (⟨S1x16, .i1⟩ : BufTy).Contents (Elt F))
  :: StableHlo.nullary main_c_20 (constantI S_ 32 16#32)
  :: StableHlo.unary main_c_20 main_v65 (broadcastInDim S1x16 ![] bcast_S_S1x16 : (⟨S_, .i32⟩ : BufTy).Contents (Elt F) → (⟨S1x16, .i32⟩ : BufTy).Contents (Elt F))
  :: StableHlo.binary main_v62 main_v65 main_v66 (addi : (⟨S1x16, .i32⟩ : BufTy).Contents (Elt F) → (⟨S1x16, .i32⟩ : BufTy).Contents (Elt F) → (⟨S1x16, .i32⟩ : BufTy).Contents (Elt F))
  :: StableHlo.ternary main_v64 main_v66 main_v62 main_v67 (select : (⟨S1x16, .i1⟩ : BufTy).Contents (Elt F) → (⟨S1x16, .i32⟩ : BufTy).Contents (Elt F) → (⟨S1x16, .i32⟩ : BufTy).Contents (Elt F) → (⟨S1x16, .i32⟩ : BufTy).Contents (Elt F))
  :: StableHlo.nullary main_c_21 (constantI S_ 32 0#32)
  :: StableHlo.unary main_c_21 main_v68 (broadcastInDim S4194304x16 ![] bcast_S_S4194304x16 : (⟨S_, .i32⟩ : BufTy).Contents (Elt F) → (⟨S4194304x16, .i32⟩ : BufTy).Contents (Elt F))
  :: StableHlo.binary main_v60 main_v68 main_v69 (cmpi .slt : (⟨S4194304x16, .i32⟩ : BufTy).Contents (Elt F) → (⟨S4194304x16, .i32⟩ : BufTy).Contents (Elt F) → (⟨S4194304x16, .i1⟩ : BufTy).Contents (Elt F))
  :: StableHlo.nullary main_c_22 (constantI S_ 32 32768#32)
  :: StableHlo.unary main_c_22 main_v70 (broadcastInDim S4194304x16 ![] bcast_S_S4194304x16 : (⟨S_, .i32⟩ : BufTy).Contents (Elt F) → (⟨S4194304x16, .i32⟩ : BufTy).Contents (Elt F))
  :: StableHlo.binary main_v60 main_v70 main_v71 (addi : (⟨S4194304x16, .i32⟩ : BufTy).Contents (Elt F) → (⟨S4194304x16, .i32⟩ : BufTy).Contents (Elt F) → (⟨S4194304x16, .i32⟩ : BufTy).Contents (Elt F))
  :: StableHlo.ternary main_v69 main_v71 main_v60 main_v72 (select : (⟨S4194304x16, .i1⟩ : BufTy).Contents (Elt F) → (⟨S4194304x16, .i32⟩ : BufTy).Contents (Elt F) → (⟨S4194304x16, .i32⟩ : BufTy).Contents (Elt F) → (⟨S4194304x16, .i32⟩ : BufTy).Contents (Elt F))
  :: StableHlo.unary main_v67 main_v73 (broadcastInDim S4194304x16 ![0, 1] bcast_S1x16_S4194304x16_0_1 : (⟨S1x16, .i32⟩ : BufTy).Contents (Elt F) → (⟨S4194304x16, .i32⟩ : BufTy).Contents (Elt F))
  :: StableHlo.unary main_v73 main_v74 (broadcastInDim S4194304x16x1 ![0, 1] bcast_S4194304x16_S4194304x16x1_0_1 : (⟨S4194304x16, .i32⟩ : BufTy).Contents (Elt F) → (⟨S4194304x16x1, .i32⟩ : BufTy).Contents (Elt F))
  :: StableHlo.unary main_v72 main_v75 (broadcastInDim S4194304x16x1 ![0, 1] bcast_S4194304x16_S4194304x16x1_0_1 : (⟨S4194304x16, .i32⟩ : BufTy).Contents (Elt F) → (⟨S4194304x16x1, .i32⟩ : BufTy).Contents (Elt F))
  :: StableHlo.binary main_v74 main_v75 main_v76 ((fun a b => concatenate S4194304x16x2 2 [⟨S4194304x16x1, a⟩, ⟨S4194304x16x1, b⟩] concatenates_S4194304x16x1_S4194304x16x1_S4194304x16x2_d2) : (⟨S4194304x16x1, .i32⟩ : BufTy).Contents (Elt F) → (⟨S4194304x16x1, .i32⟩ : BufTy).Contents (Elt F) → (⟨S4194304x16x2, .i32⟩ : BufTy).Contents (Elt F))
  :: StableHlo.binary main_arg1 main_v76 main_v77 ((fun x i => Host.gather gather_S16x32768_S4194304x16x2_S4194304x16_n_01_n_n_01_2_11 x i) : (⟨S16x32768, .f32⟩ : BufTy).Contents (Elt F) → (⟨S4194304x16x2, .i32⟩ : BufTy).Contents (Elt F) → (⟨S4194304x16, .f32⟩ : BufTy).Contents (Elt F))
  :: StableHlo.unary main_v0 main_v78 (sitofp .f32 : (⟨S4194304x16, .i32⟩ : BufTy).Contents (Elt F) → (⟨S4194304x16, .f32⟩ : BufTy).Contents (Elt F))
  :: StableHlo.binary main_v78 main_v77 main_v79 (addf : (⟨S4194304x16, .f32⟩ : BufTy).Contents (Elt F) → (⟨S4194304x16, .f32⟩ : BufTy).Contents (Elt F) → (⟨S4194304x16, .f32⟩ : BufTy).Contents (Elt F))
  :: StableHlo.nullary main_cst (constant S_ .f32 0x40000000#32)
  :: StableHlo.unary main_cst main_v80 (broadcastInDim S4194304x16 ![] bcast_S_S4194304x16 : (⟨S_, .f32⟩ : BufTy).Contents (Elt F) → (⟨S4194304x16, .f32⟩ : BufTy).Contents (Elt F))
  :: StableHlo.binary main_v80 main_v78 main_v81 (mulf : (⟨S4194304x16, .f32⟩ : BufTy).Contents (Elt F) → (⟨S4194304x16, .f32⟩ : BufTy).Contents (Elt F) → (⟨S4194304x16, .f32⟩ : BufTy).Contents (Elt F))
  :: StableHlo.binary main_v81 main_v77 main_v82 (mulf : (⟨S4194304x16, .f32⟩ : BufTy).Contents (Elt F) → (⟨S4194304x16, .f32⟩ : BufTy).Contents (Elt F) → (⟨S4194304x16, .f32⟩ : BufTy).Contents (Elt F))
  :: StableHlo.binary main_v79 main_v82 main_v83 (subf : (⟨S4194304x16, .f32⟩ : BufTy).Contents (Elt F) → (⟨S4194304x16, .f32⟩ : BufTy).Contents (Elt F) → (⟨S4194304x16, .f32⟩ : BufTy).Contents (Elt F))
  :: StableHlo.unary main_v83 main_v84 (Host.reverse [1] : (⟨S4194304x16, .f32⟩ : BufTy).Contents (Elt F) → (⟨S4194304x16, .f32⟩ : BufTy).Contents (Elt F))
  :: [] )

set_option maxRecDepth 65536 in
set_option maxHeartbeats 40000000 in
theorem main_eq (c : Dev nD) : main (F := F) c = seq ops := by
  simp only [main, main_part0, main_part1, fn_where.body, fn_where_0.body, fn_cumsum.body, fn_cumsum_1.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxHeartbeats 40000000 in
theorem ops_sub : (ops : List (HloOp τ sig (Elt F))).Forall fun op => op.bufs ⊆ tcRefs τ sig :=
  ⟨unary_bufs_sub .., nullary_bufs_sub .., nullary_bufs_sub .., nullary_bufs_sub .., binary_bufs_sub .., nullary_bufs_sub .., unary_bufs_sub .., binary_bufs_sub .., unary_bufs_sub .., binary_bufs_sub .., nullary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., nullary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., nullary_bufs_sub .., unary_bufs_sub .., binary_bufs_sub .., unary_bufs_sub .., binary_bufs_sub .., nullary_bufs_sub .., unary_bufs_sub .., binary_bufs_sub .., ternary_bufs_sub .., binary_bufs_sub .., nullary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., binary_bufs_sub .., unary_bufs_sub .., binary_bufs_sub .., nullary_bufs_sub .., unary_bufs_sub .., binary_bufs_sub .., binary_bufs_sub .., binary_bufs_sub .., unary_bufs_sub ..⟩

/-- Every weakly fair execution of @main terminates with each TensorCore buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.RTerm.lean ====
/- The reference's operations as pure functions, one definition per operation named after the buffer it fills: the sixteen
   place values by the printed square-and-multiply chain (`wts`), and the result array as a function of the two argument
   arrays `a0` (the digits) and `a1` (the table) (`refOut`). -/
import proofs.«410118_j27668179321271_3_alg».proof.Proof.ROps

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

/-! ## The place values (91 operations) -/

def r_v1 : IVec S16 32 :=
  ((iotaInDim S16 32 0))
def r_c : IVec S_ 32 :=
  ((constantI S_ 32 2#32))
def r_c_0 : IVec S_ 32 :=
  ((constantI S_ 32 0#32))
def r_v2 : IVec S_ 1 :=
  ((cmpi .eq)) r_c r_c_0
def r_c_1 : IVec S_ 32 :=
  ((constantI S_ 32 0#32))
def r_v3 : IVec S16 32 :=
  ((broadcastInDim S16 ![] bcast_S_S16)) r_c_1
def r_v4 : IVec S16 1 :=
  ((cmpi .ne)) r_v1 r_v3
def r_v5 : IVec S16 1 :=
  ((broadcastInDim S16 ![] bcast_S_S16)) r_v2
def r_v6 : IVec S16 1 :=
  ((andi)) r_v5 r_v4
def r_c_2 : IVec S_ 32 :=
  ((constantI S_ 32 0#32))
def r_c_3 : IVec S_ 32 :=
  ((constantI S_ 32 1#32))
def r_call0_v0 : IVec S16 32 :=
  ((broadcastInDim S16 ![] bcast_S_S16)) r_c_2
def r_call0_v1 : IVec S16 32 :=
  ((broadcastInDim S16 ![] bcast_S_S16)) r_c_3
def r_v7 : IVec S16 32 :=
  (select) r_v6 r_call0_v0 r_call0_v1
def r_c_4 : IVec S_ 32 :=
  ((constantI S_ 32 1#32))
def r_v8 : IVec S16 32 :=
  ((broadcastInDim S16 ![] bcast_S_S16)) r_c_4
def r_v9 : IVec S16 32 :=
  ((andi)) r_v1 r_v8
def r_c_5 : IVec S_ 32 :=
  ((constantI S_ 32 2#32))
def r_v10 : IVec S16 32 :=
  ((broadcastInDim S16 ![] bcast_S_S16)) r_c_5
def r_v11 : IVec S16 32 :=
  ((muli)) r_v7 r_v10
def r_call1_c : IVec S_ 32 :=
  ((constantI S_ 32 0#32))
def r_call1_v0 : IVec S16 32 :=
  ((broadcastInDim S16 ![] bcast_S_S16)) r_call1_c
def r_call1_v1 : IVec S16 1 :=
  ((cmpi .ne)) r_v9 r_call1_v0
def r_v12 : IVec S16 32 :=
  (select) r_call1_v1 r_v11 r_v7
def r_c_6 : IVec S_ 32 :=
  ((constantI S_ 32 2#32))
def r_c_7 : IVec S_ 32 :=
  ((constantI S_ 32 2#32))
def r_v13 : IVec S_ 32 :=
  ((muli)) r_c_6 r_c_7
def r_c_8 : IVec S_ 32 :=
  ((constantI S_ 32 1#32))
def r_v14 : IVec S16 32 :=
  ((broadcastInDim S16 ![] bcast_S_S16)) r_c_8
def r_v15 : IVec S16 32 :=
  ((Host.shrui)) r_v1 r_v14
def r_c_9 : IVec S_ 32 :=
  ((constantI S_ 32 1#32))
def r_v16 : IVec S16 32 :=
  ((broadcastInDim S16 ![] bcast_S_S16)) r_c_9
def r_v17 : IVec S16 32 :=
  ((andi)) r_v15 r_v16
def r_v18 : IVec S16 32 :=
  ((broadcastInDim S16 ![] bcast_S_S16)) r_v13
def r_v19 : IVec S16 32 :=
  ((muli)) r_v12 r_v18
def r_call2_c : IVec S_ 32 :=
  ((constantI S_ 32 0#32))
def r_call2_v0 : IVec S16 32 :=
  ((broadcastInDim S16 ![] bcast_S_S16)) r_call2_c
def r_call2_v1 : IVec S16 1 :=
  ((cmpi .ne)) r_v17 r_call2_v0
def r_v20 : IVec S16 32 :=
  (select) r_call2_v1 r_v19 r_v12
def r_v21 : IVec S_ 32 :=
  ((muli)) r_v13 r_v13
def r_c_10 : IVec S_ 32 :=
  ((constantI S_ 32 1#32))
def r_v22 : IVec S16 32 :=
  ((broadcastInDim S16 ![] bcast_S_S16)) r_c_10
def r_v23 : IVec S16 32 :=
  ((Host.shrui)) r_v15 r_v22
def r_c_11 : IVec S_ 32 :=
  ((constantI S_ 32 1#32))
def r_v24 : IVec S16 32 :=
  ((broadcastInDim S16 ![] bcast_S_S16)) r_c_11
def r_v25 : IVec S16 32 :=
  ((andi)) r_v23 r_v24
def r_v26 : IVec S16 32 :=
  ((broadcastInDim S16 ![] bcast_S_S16)) r_v21
def r_v27 : IVec S16 32 :=
  ((muli)) r_v20 r_v26
def r_call3_c : IVec S_ 32 :=
  ((constantI S_ 32 0#32))
def r_call3_v0 : IVec S16 32 :=
  ((broadcastInDim S16 ![] bcast_S_S16)) r_call3_c
def r_call3_v1 : IVec S16 1 :=
  ((cmpi .ne)) r_v25 r_call3_v0
def r_v28 : IVec S16 32 :=
  (select) r_call3_v1 r_v27 r_v20
def r_v29 : IVec S_ 32 :=
  ((muli)) r_v21 r_v21
def r_c_12 : IVec S_ 32 :=
  ((constantI S_ 32 1#32))
def r_v30 : IVec S16 32 :=
  ((broadcastInDim S16 ![] bcast_S_S16)) r_c_12
def r_v31 : IVec S16 32 :=
  ((Host.shrui)) r_v23 r_v30
def r_c_13 : IVec S_ 32 :=
  ((constantI S_ 32 1#32))
def r_v32 : IVec S16 32 :=
  ((broadcastInDim S16 ![] bcast_S_S16)) r_c_13
def r_v33 : IVec S16 32 :=
  ((andi)) r_v31 r_v32
def r_v34 : IVec S16 32 :=
  ((broadcastInDim S16 ![] bcast_S_S16)) r_v29
def r_v35 : IVec S16 32 :=
  ((muli)) r_v28 r_v34
def r_call4_c : IVec S_ 32 :=
  ((constantI S_ 32 0#32))
def r_call4_v0 : IVec S16 32 :=
  ((broadcastInDim S16 ![] bcast_S_S16)) r_call4_c
def r_call4_v1 : IVec S16 1 :=
  ((cmpi .ne)) r_v33 r_call4_v0
def r_v36 : IVec S16 32 :=
  (select) r_call4_v1 r_v35 r_v28
def r_v37 : IVec S_ 32 :=
  ((muli)) r_v29 r_v29
def r_c_14 : IVec S_ 32 :=
  ((constantI S_ 32 1#32))
def r_v38 : IVec S16 32 :=
  ((broadcastInDim S16 ![] bcast_S_S16)) r_c_14
def r_v39 : IVec S16 32 :=
  ((Host.shrui)) r_v31 r_v38
def r_c_15 : IVec S_ 32 :=
  ((constantI S_ 32 1#32))
def r_v40 : IVec S16 32 :=
  ((broadcastInDim S16 ![] bcast_S_S16)) r_c_15
def r_v41 : IVec S16 32 :=
  ((andi)) r_v39 r_v40
def r_v42 : IVec S16 32 :=
  ((broadcastInDim S16 ![] bcast_S_S16)) r_v37
def r_v43 : IVec S16 32 :=
  ((muli)) r_v36 r_v42
def r_call5_c : IVec S_ 32 :=
  ((constantI S_ 32 0#32))
def r_call5_v0 : IVec S16 32 :=
  ((broadcastInDim S16 ![] bcast_S_S16)) r_call5_c
def r_call5_v1 : IVec S16 1 :=
  ((cmpi .ne)) r_v41 r_call5_v0
def r_v44 : IVec S16 32 :=
  (select) r_call5_v1 r_v43 r_v36
def r_v45 : IVec S_ 32 :=
  ((muli)) r_v37 r_v37
def r_c_16 : IVec S_ 32 :=
  ((constantI S_ 32 1#32))
def r_v46 : IVec S16 32 :=
  ((broadcastInDim S16 ![] bcast_S_S16)) r_c_16
def r_v47 : IVec S16 32 :=
  ((Host.shrui)) r_v39 r_v46
def r_c_17 : IVec S_ 32 :=
  ((constantI S_ 32 1#32))
def r_v48 : IVec S16 32 :=
  ((broadcastInDim S16 ![] bcast_S_S16)) r_c_17
def r_v49 : IVec S16 32 :=
  ((andi)) r_v47 r_v48
def r_v50 : IVec S16 32 :=
  ((broadcastInDim S16 ![] bcast_S_S16)) r_v45
def r_v51 : IVec S16 32 :=
  ((muli)) r_v44 r_v50
def r_call6_c : IVec S_ 32 :=
  ((constantI S_ 32 0#32))
def r_call6_v0 : IVec S16 32 :=
  ((broadcastInDim S16 ![] bcast_S_S16)) r_call6_c
def r_call6_v1 : IVec S16 1 :=
  ((cmpi .ne)) r_v49 r_call6_v0
def r_v52 : IVec S16 32 :=
  (select) r_call6_v1 r_v51 r_v44

/-- The place values on sixteen lanes, by the printed chain. -/
def wts : IVec S16 32 := r_v52

/-! ## The result (37 operations after the weights) -/

def r_v0 (a0 : IVec S4194304x16 32) : IVec S4194304x16 32 :=
  ((Host.reverse [1])) a0
def r_v56 : IVec S1x16 32 :=
  ((broadcastInDim S1x16 ![1] bcast_S16_S1x16_1)) r_v52
def r_v57 : IVec S4194304x16 32 :=
  ((broadcastInDim S4194304x16 ![0, 1] bcast_S1x16_S4194304x16_0_1)) r_v56
def r_v58 (a0 : IVec S4194304x16 32) : IVec S4194304x16 32 :=
  ((muli)) (r_v0 a0) r_v57
def r_call7_call0_c : IVec S_ 32 :=
  ((constantI S_ 32 0#32))
def r_call7_call0_v0 : IVec S_ 32 :=
  ((broadcastInDim S_ ![] bcast_S_S_)) r_call7_call0_c
def r_v59 (a0 : IVec S4194304x16 32) : IVec S4194304x16 32 :=
  ((fun x v => Host.reduceWindow IntOp.addi ![1, 16] ![1, 1] ![0, 15] ![0, 0] x v reduceWindows_S4194304x16_S4194304x16_w1s1p0_0_w16s1p15_0 h_S_)) (r_v58 a0) r_call7_call0_v0
def r_v60 (a0 : IVec S4194304x16 32) : IVec S4194304x16 32 :=
  ((subi)) (r_v59 a0) (r_v58 a0)
def r_v61 : IVec S16 32 :=
  ((iotaInDim S16 32 0))
def r_v62 : IVec S1x16 32 :=
  ((broadcastInDim S1x16 ![1] bcast_S16_S1x16_1)) r_v61
def r_c_19 : IVec S_ 32 :=
  ((constantI S_ 32 0#32))
def r_v63 : IVec S1x16 32 :=
  ((broadcastInDim S1x16 ![] bcast_S_S1x16)) r_c_19
def r_v64 : IVec S1x16 1 :=
  ((cmpi .slt)) r_v62 r_v63
def r_c_20 : IVec S_ 32 :=
  ((constantI S_ 32 16#32))
def r_v65 : IVec S1x16 32 :=
  ((broadcastInDim S1x16 ![] bcast_S_S1x16)) r_c_20
def r_v66 : IVec S1x16 32 :=
  ((addi)) r_v62 r_v65
def r_v67 : IVec S1x16 32 :=
  ((select)) r_v64 r_v66 r_v62
def r_c_21 : IVec S_ 32 :=
  ((constantI S_ 32 0#32))
def r_v68 : IVec S4194304x16 32 :=
  ((broadcastInDim S4194304x16 ![] bcast_S_S4194304x16)) r_c_21
def r_v69 (a0 : IVec S4194304x16 32) : IVec S4194304x16 1 :=
  ((cmpi .slt)) (r_v60 a0) r_v68
def r_c_22 : IVec S_ 32 :=
  ((constantI S_ 32 32768#32))
def r_v70 : IVec S4194304x16 32 :=
  ((broadcastInDim S4194304x16 ![] bcast_S_S4194304x16)) r_c_22
def r_v71 (a0 : IVec S4194304x16 32) : IVec S4194304x16 32 :=
  ((addi)) (r_v60 a0) r_v70
def r_v72 (a0 : IVec S4194304x16 32) : IVec S4194304x16 32 :=
  ((select)) (r_v69 a0) (r_v71 a0) (r_v60 a0)
def r_v73 : IVec S4194304x16 32 :=
  ((broadcastInDim S4194304x16 ![0, 1] bcast_S1x16_S4194304x16_0_1)) r_v67
def r_v74 : IVec S4194304x16x1 32 :=
  ((broadcastInDim S4194304x16x1 ![0, 1] bcast_S4194304x16_S4194304x16x1_0_1)) r_v73
def r_v75 (a0 : IVec S4194304x16 32) : IVec S4194304x16x1 32 :=
  ((broadcastInDim S4194304x16x1 ![0, 1] bcast_S4194304x16_S4194304x16x1_0_1)) (r_v72 a0)
def r_v76 (a0 : IVec S4194304x16 32) : IVec S4194304x16x2 32 :=
  (((fun a b => concatenate S4194304x16x2 2 [⟨S4194304x16x1, a⟩, ⟨S4194304x16x1, b⟩] concatenates_S4194304x16x1_S4194304x16x1_S4194304x16x2_d2))) r_v74 (r_v75 a0)
def r_v77 {F : FTy → Type} [FloatOps F] (a0 : IVec S4194304x16 32) (a1 : FVec F S16x32768 .f32) : FVec F S4194304x16 .f32 :=
  (((fun x i => Host.gather gather_S16x32768_S4194304x16x2_S4194304x16_n_01_n_n_01_2_11 x i) : (⟨S16x32768, .f32⟩ : BufTy).Contents (Elt F) → (⟨S4194304x16x2, .i32⟩ : BufTy).Contents (Elt F) → (⟨S4194304x16, .f32⟩ : BufTy).Contents (Elt F))) a1 (r_v76 a0)
def r_v78 {F : FTy → Type} [FloatOps F] (a0 : IVec S4194304x16 32) : FVec F S4194304x16 .f32 :=
  ((sitofp .f32 : (⟨S4194304x16, .i32⟩ : BufTy).Contents (Elt F) → (⟨S4194304x16, .f32⟩ : BufTy).Contents (Elt F))) (r_v0 a0)
def r_v79 {F : FTy → Type} [FloatOps F] (a0 : IVec S4194304x16 32) (a1 : FVec F S16x32768 .f32) : FVec F S4194304x16 .f32 :=
  ((addf : (⟨S4194304x16, .f32⟩ : BufTy).Contents (Elt F) → (⟨S4194304x16, .f32⟩ : BufTy).Contents (Elt F) → (⟨S4194304x16, .f32⟩ : BufTy).Contents (Elt F))) (r_v78 a0) (r_v77 a0 a1)
def r_cst {F : FTy → Type} [FloatOps F] : FVec F S_ .f32 :=
  ((constant S_ .f32 0x40000000#32))
def r_v80 {F : FTy → Type} [FloatOps F] : FVec F S4194304x16 .f32 :=
  ((broadcastInDim S4194304x16 ![] bcast_S_S4194304x16 : (⟨S_, .f32⟩ : BufTy).Contents (Elt F) → (⟨S4194304x16, .f32⟩ : BufTy).Contents (Elt F))) r_cst
def r_v81 {F : FTy → Type} [FloatOps F] (a0 : IVec S4194304x16 32) : FVec F S4194304x16 .f32 :=
  ((mulf : (⟨S4194304x16, .f32⟩ : BufTy).Contents (Elt F) → (⟨S4194304x16, .f32⟩ : BufTy).Contents (Elt F) → (⟨S4194304x16, .f32⟩ : BufTy).Contents (Elt F))) r_v80 (r_v78 a0)
def r_v82 {F : FTy → Type} [FloatOps F] (a0 : IVec S4194304x16 32) (a1 : FVec F S16x32768 .f32) : FVec F S4194304x16 .f32 :=
  ((mulf : (⟨S4194304x16, .f32⟩ : BufTy).Contents (Elt F) → (⟨S4194304x16, .f32⟩ : BufTy).Contents (Elt F) → (⟨S4194304x16, .f32⟩ : BufTy).Contents (Elt F))) (r_v81 a0) (r_v77 a0 a1)
def r_v83 {F : FTy → Type} [FloatOps F] (a0 : IVec S4194304x16 32) (a1 : FVec F S16x32768 .f32) : FVec F S4194304x16 .f32 :=
  ((subf : (⟨S4194304x16, .f32⟩ : BufTy).Contents (Elt F) → (⟨S4194304x16, .f32⟩ : BufTy).Contents (Elt F) → (⟨S4194304x16, .f32⟩ : BufTy).Contents (Elt F))) (r_v79 a0 a1) (r_v82 a0 a1)
def r_v84 {F : FTy → Type} [FloatOps F] (a0 : IVec S4194304x16 32) (a1 : FVec F S16x32768 .f32) : FVec F S4194304x16 .f32 :=
  ((Host.reverse [1] : (⟨S4194304x16, .f32⟩ : BufTy).Contents (Elt F) → (⟨S4194304x16, .f32⟩ : BufTy).Contents (Elt F))) (r_v83 a0 a1)

/-- The result array as a function of the arguments. -/
def refOut {F : FTy → Type} [FloatOps F] (a0 : IVec S4194304x16 32) (a1 : FVec F S16x32768 .f32) : FVec F S4194304x16 .f32 := r_v84 a0 a1

end Cert.ReferenceIdeal.Hand

end
-- ==== Proof.RRead.lean ====
/- The reference's buffers after its operations: the result is `refOut` of the arguments, which are unchanged.

   The line is read in two stretches.  The first 122 operations end just before the two index planes are joined;
   of what they leave, the last ten read only four buffers: the reversed digits, the two index planes and the
   table.  Each of the four is the corresponding term of the chain of definitions, the last ten operations are
   the last ten definitions, and no operation writes an argument buffer. -/
import proofs.«410118_j27668179321271_3_alg».proof.Proof.RTerm

noncomputable section

namespace Cert.ReferenceIdeal.Hand

open Cert.ReferenceIdeal
open Idealize.ShloMosaic Idealize.ShloMosaic.TcCoe Idealize.SL.Sem Idealize.ShloMosaic.StableHlo
open Cert.ReferenceIdeal.Facts₀ Cert.ReferenceIdeal.Facts

variable {F : FTy → Type} [FloatOps F]

/-- A line run in two stretches: the first `k` operations, then the rest from what they leave. -/
theorem after_take_drop : ∀ (k : Nat) (l : List (HloOp τ sig (Elt F))) (V : Valuation τ sig (Elt F)),
    after l V = after (l.drop k) (after (l.take k) V)
  | 0, _, _ => rfl
  | _ + 1, [], _ => rfl
  | k + 1, op :: l, V => by
    simp only [List.take_succ_cons, List.drop_succ_cons, after_cons]
    exact after_take_drop k l _

/-! ## What the first 122 operations leave -/

set_option maxRecDepth 65536 in
set_option maxHeartbeats 4000000 in
/-- None of them writes the table. -/
theorem pre_arg1 (V : Valuation τ sig (Elt F)) :
    after (ops.take 122) V (main_arg1 : DevRef τ sig) = V (main_arg1 : DevRef τ sig) := by
  simp only [ops, List.take_succ_cons, List.take_zero]
  after_results_simp

set_option maxRecDepth 65536 in
set_option maxHeartbeats 4000000 in
/-- The digits with their columns reversed: written once, by the first operation. -/
theorem pre_v0 (V : Valuation τ sig (Elt F)) :
    after (ops.take 122) V (main_v0 : DevRef τ sig) = r_v0 (V (main_arg0 : DevRef τ sig)) := by
  simp only [ops, List.take_succ_cons, List.take_zero]
  after_results_simp
  rfl

set_option maxRecDepth 65536 in
set_option maxHeartbeats 4000000 in
/-- The plane of table rows: the column number, wrapped and broadcast. -/
theorem pre_v74 (V : Valuation τ sig (Elt F)) :
    after (ops.take 122) V (main_v74 : DevRef τ sig) = r_v74 := by
  simp only [ops, List.take_succ_cons, List.take_zero]
  after_results_simp
  rfl

attribute [local irreducible] Host.reduceWindow Host.gather Host.reverse concatenate in
set_option maxRecDepth 65536 in
set_option maxHeartbeats 4000000 in
/-- The plane of addresses: the weighted digits' running sum less the digit's own term, wrapped and broadcast.
    Each operation's value at its own buffer is its function of its operands' values, so the buffer holds the
    composition of the operations that reach it, which is the chain of definitions term for term. -/
theorem pre_v75 (V : Valuation τ sig (Elt F)) :
    after (ops.take 122) V (main_v75 : DevRef τ sig) = r_v75 (V (main_arg0 : DevRef τ sig)) := by
  simp only [ops, List.take_succ_cons, List.take_zero]
  after_results_simp
  rfl

/-! ## The result -/

attribute [local irreducible] Host.reduceWindow Host.gather Host.reverse concatenate in
set_option maxRecDepth 65536 in
set_option maxHeartbeats 4000000 in
theorem out_term (V : Valuation τ sig (Elt F)) :
    after ops V (main_v84 : DevRef τ sig) = refOut (F := F) (V (main_arg0 : DevRef τ sig)) (V (main_arg1 : DevRef τ sig)) := by
  rw [after_take_drop 122 ops V]
  have h74 := pre_v74 (F := F) V
  have h75 := pre_v75 (F := F) V
  have h0 := pre_v0 (F := F) V
  have h1 := pre_arg1 (F := F) V
  -- the last ten operations read what the first stretch leaves at four buffers only
  generalize after (List.take 122 ops) V = W at h74 h75 h0 h1 ⊢
  simp only [ops, List.drop_succ_cons, List.drop_zero]
  after_results
  rw [h74, h75, h0, h1]
  rfl

set_option maxRecDepth 65536 in
set_option maxHeartbeats 4000000 in
/-- No operation writes the array of digits. -/
theorem arg0_eq (V : Valuation τ sig (Elt F)) :
    after ops V (main_arg0 : DevRef τ sig) = V (main_arg0 : DevRef τ sig) :=
  after_of_forall_not_mem (b := Proc.devRef .tc main_arg0) _ _ (List.forall_iff_forall_mem.mp (by
    simp only [ops, List.Forall, StableHlo.nullary_writes, StableHlo.unary_writes, StableHlo.binary_writes,
      StableHlo.ternary_writes, Finset.mem_singleton]
    repeat' apply And.intro
    all_goals exact StableHlo.devRef_ne_of_ne (by decide)))

set_option maxRecDepth 65536 in
set_option maxHeartbeats 4000000 in
/-- No operation writes the table. -/
theorem arg1_eq (V : Valuation τ sig (Elt F)) :
    after ops V (main_arg1 : DevRef τ sig) = V (main_arg1 : DevRef τ sig) :=
  after_of_forall_not_mem (b := Proc.devRef .tc main_arg1) _ _ (List.forall_iff_forall_mem.mp (by
    simp only [ops, List.Forall, StableHlo.nullary_writes, StableHlo.unary_writes, StableHlo.binary_writes,
      StableHlo.ternary_writes, Finset.mem_singleton]
    repeat' apply And.intro
    all_goals exact StableHlo.devRef_ne_of_ne (by decide)))

end Cert.ReferenceIdeal.Hand

end
-- ==== Proof.RLib.lean ====
/- Three host operations of the reference read at an index: a reverse along the columns, an inclusive cumulative
   sum along the columns written as a windowed sum, and a gather of single entries of a matrix. -/
import proofs.«410118_j27668179321271_3_alg».proof.Proof.RTerm
import Idealize.ShloMosaic.Lib.ValueIdx

noncomputable section

open scoped BigOperators

namespace Cert.ReferenceIdeal.Hand

open Cert.ReferenceIdeal
open Idealize.ShloMosaic Idealize.ShloMosaic.ValueIdx Idealize.SL.Sem
open Cert.ReferenceIdeal.Facts₀ Cert.ReferenceIdeal.Facts

/-- Reversing a sixteen-column array along its columns: column c reads column 15 − c. -/
theorem reverse_apply {α : Type} (x : S4194304x16.Idx → α) (r : Fin 4194304) (c : Fin 16) :
    Host.reverse (s := S4194304x16) [1] x (ix2 r c) = x (ix2 r ⟨15 - c.val, by omega⟩) := by
  -- the result index reads the operand at its own coordinate on the row axis and at the mirrored coordinate
  -- 16 − 1 − c on the column axis, the one listed axis
  unfold Host.reverse
  refine congrArg x (funext fun a => ?_)
  match a with
  | ⟨0, _⟩ => rfl
  | ⟨1, _⟩ => exact Fin.ext (by simp [Fin.rev] <;> omega)

/-- The windowed sum with a window of sixteen columns, fifteen columns of padding on the left and a zero initial
    value is the inclusive cumulative sum along the columns: as 32-bit words, column p holds the word of the sum
    of the columns q ≤ p (read as naturals). -/
theorem cumsum_apply (x : IVec S4194304x16 32) (init : IVec S_ 32) (hinit : init ix0 = 0#32)
    (r : Fin 4194304) (p : Fin 16) :
    Host.reduceWindow IntOp.addi ![1, 16] ![1, 1] ![0, 15] ![0, 0] x init
        reduceWindows_S4194304x16_S4194304x16_w1s1p0_0_w16s1p15_0 h_S_ (ix2 r p)
      = BitVec.ofNat 32 (∑ q : Fin 16, if q ≤ p then (x (ix2 r q)).toNat else 0) := by
  unfold Host.reduceWindow
  dsimp only
  -- the initial value, read at the one index of its shape, is the word 0
  have hv : init (Shape.Idx.first h_S_) = 0#32 := by rw [eq_ix0 (Shape.Idx.first h_S_)]; exact hinit
  rw [hv]
  -- the window has sixteen positions
  have hN : (⟨2, ![1, 16]⟩ : Shape).numel = 16 := by decide
  -- the entries of row r as naturals by column number, zero past column 15
  let y : ℕ → ℕ := fun k => if h : k < 16 then (x (ix2 r ⟨k, h⟩)).toNat else 0
  -- a left fold by word addition is the word of the start plus the natural sum: addition of words is addition
  -- modulo 2^32
  have fold : ∀ (g : Fin (Shape.numel ⟨2, ![1, 16]⟩) → BitVec 32) (l : List (Fin (Shape.numel ⟨2, ![1, 16]⟩)))
      (v : BitVec 32), l.foldl (fun acc n => IntOp.addi acc (g n)) v
        = BitVec.ofNat 32 (v.toNat + (l.map fun n => (g n).toNat).sum) := by
    intro g l
    induction l with
    | nil => intro v; simp
    | cons a l ih =>
      intro v
      rw [List.foldl_cons, ih, List.map_cons, List.sum_cons]
      apply BitVec.eq_of_toNat_eq
      simp only [BitVec.toNat_ofNat, IntOp.addi, BitVec.toNat_add]
      omega
  rw [fold]
  refine congrArg (BitVec.ofNat 32) ?_
  rw [show (0#32 : BitVec 32).toNat = 0 from rfl, zero_add, ← Fin.sum_univ_def]
  -- the sum over the columns q ≤ p, re-indexed by the window position k = q + 15 − p
  have rhs : (∑ q : Fin 16, if q ≤ p then (x (ix2 r q)).toNat else 0)
      = ∑ n : Fin (Shape.numel ⟨2, ![1, 16]⟩), if 15 ≤ p.val + n.val then y (p.val + n.val - 15) else 0 := by
    rw [Fin.sum_univ_eq_sum_range (fun k => if 15 ≤ p.val + k then y (p.val + k - 15) else 0), hN]
    have e : (∑ q : Fin 16, if q ≤ p then (x (ix2 r q)).toNat else 0)
        = ∑ k ∈ Finset.range 16, if k ≤ p.val then y k else 0 := by
      rw [← Fin.sum_univ_eq_sum_range (fun k => if k ≤ p.val then y k else 0) 16]
      refine Finset.sum_congr rfl fun q _ => ?_
      simp only [y, Fin.le_def, q.isLt, dite_true, Fin.eta]
    rw [e]
    obtain ⟨p, hp⟩ := p
    dsimp only
    interval_cases p <;> simp [Finset.sum_range_succ]
  rw [rhs]
  refine Finset.sum_congr rfl fun n _ => ?_
  -- window position n unflattens to (0, n): the window has one row
  have s0 : ((⟨2, ![1, 16]⟩ : Shape).rowMajor.symm n 0).val = 0 :=
    Nat.lt_one_iff.1 ((⟨2, ![1, 16]⟩ : Shape).rowMajor.symm n 0).isLt
  have s1 : ((⟨2, ![1, 16]⟩ : Shape).rowMajor.symm n 1).val = n.val := by
    have h := Shape.rowMajor_val_two ((⟨2, ![1, 16]⟩ : Shape).rowMajor.symm n)
    rw [Equiv.apply_symm_apply, s0] at h
    simpa using h.symm
  split
  · next hin =>
    -- inside the operand: the column read is p + n − 15
    have hk : 15 ≤ p.val + n.val := by
      have h1 : (15 : ℕ) ≤ p.val * 1 + ((⟨2, ![1, 16]⟩ : Shape).rowMajor.symm n 1).val := (hin 1).1
      rw [s1] at h1; omega
    have hp := p.isLt
    have hn : n.val < 16 := lt_of_lt_of_eq n.isLt hN
    rw [if_pos hk]
    show (x _).toNat = (if h : p.val + n.val - 15 < 16 then (x (ix2 r ⟨p.val + n.val - 15, h⟩)).toNat else 0)
    rw [dif_pos (by omega)]
    refine congrArg (fun i => (x i).toNat) ((eq_ix2 _).trans ?_)
    refine congrArg₂ (ix2 (n0 := 4194304) (n1 := 16)) (Fin.ext ?_) (Fin.ext ?_)
    · show r.val * 1 + ((⟨2, ![1, 16]⟩ : Shape).rowMajor.symm n 0).val - 0 = r.val
      rw [s0]; omega
    · show p.val * 1 + ((⟨2, ![1, 16]⟩ : Shape).rowMajor.symm n 1).val - 15 = p.val + n.val - 15
      rw [s1]; omega
  · next hin =>
    -- in the padding: the position contributes the initial value 0
    have hk : ¬ 15 ≤ p.val + n.val := fun hk => hin (Fin.forall_fin_two.2 ⟨by
      show 0 ≤ r.val * 1 + ((⟨2, ![1, 16]⟩ : Shape).rowMajor.symm n 0).val
        ∧ r.val * 1 + ((⟨2, ![1, 16]⟩ : Shape).rowMajor.symm n 0).val - 0 < 4194304
      rw [s0]; have := r.isLt; omega, by
      show 15 ≤ p.val * 1 + ((⟨2, ![1, 16]⟩ : Shape).rowMajor.symm n 1).val
        ∧ p.val * 1 + ((⟨2, ![1, 16]⟩ : Shape).rowMajor.symm n 1).val - 15 < 16
      have hn : n.val < 16 := lt_of_lt_of_eq n.isLt hN
      rw [s1]; have := p.isLt; omega⟩)
    rw [if_neg hk]; rfl

/-- The gather of single matrix entries: where both start indices are in range, entry (r, p) is the matrix entry
    at the row and column the two index words name. -/
theorem gather_apply {α : Type} (t : S16x32768.Idx → α) (idx : IVec S4194304x16x2 32) (r : Fin 4194304) (p : Fin 16)
    (h0 : (idx (ix3 r p 0)).toNat < 16) (h1 : (idx (ix3 r p 1)).toNat < 32768) :
    Host.gather gather_S16x32768_S4194304x16x2_S4194304x16_n_01_n_n_01_2_11 t idx (ix2 r p)
      = t (ix2 ⟨(idx (ix3 r p 0)).toNat % 16, Nat.mod_lt _ (by norm_num)⟩
            ⟨(idx (ix3 r p 1)).toNat % 32768, Nat.mod_lt _ (by norm_num)⟩) := by
  -- a start word below the extent n ≤ 2^31, read signed and clamped into [0, n − 1], is its natural value
  have hclamp : ∀ (w : BitVec 32) (n : Nat), n ≤ 2 ^ 31 → w.toNat < n → min w.toInt.toNat (n - 1) = w.toNat % n := by
    intro w n hn h
    have h1 : w.toInt = (w.toNat : Int) := BitVec.toInt_eq_toNat_of_lt (by omega)
    rw [h1, Int.toNat_natCast, Nat.mod_eq_of_lt h]
    omega
  -- both operand axes are collapsed, so neither carries an offset coordinate; no axis is a batching axis
  have hcoll : ∀ a : Fin 2, a ∈ (gather_S16x32768_S4194304x16x2_S4194304x16_n_01_n_n_01_2_11).collapsedSliceDims := by
    intro a; fin_cases a <;> simp [gather_S16x32768_S4194304x16x2_S4194304x16_n_01_n_n_01_2_11]
  -- the slice start on axis 0 is component 0 of the start index at (r, p), clamped into [0, 16 − 1]
  have hs0 : (gather_S16x32768_S4194304x16x2_S4194304x16_n_01_n_n_01_2_11).start (ix2 r p) idx 0 = min (idx (ix3 r p 0)).toInt.toNat (16 - 1) := by
    unfold GatherDims.start
    have hm : (0 : Fin 2) ∈ (gather_S16x32768_S4194304x16x2_S4194304x16_n_01_n_n_01_2_11).startIndexMap := by simp [gather_S16x32768_S4194304x16x2_S4194304x16_n_01_n_n_01_2_11]
    rw [dif_pos hm]
    have hsi : (gather_S16x32768_S4194304x16x2_S4194304x16_n_01_n_n_01_2_11).siIdx (ix2 r p) ⟨List.idxOf (0 : Fin 2) (gather_S16x32768_S4194304x16x2_S4194304x16_n_01_n_n_01_2_11).startIndexMap,
        List.idxOf_lt_length_iff.2 hm⟩ = ix3 r p 0 := by
      funext b; refine Fin.ext ?_
      match b with
      | ⟨0, _⟩ => rfl
      | ⟨1, _⟩ => rfl
      | ⟨2, _⟩ => rfl
    rw [hsi]; rfl
  -- and on axis 1 it is component 1, clamped into [0, 32768 − 1]
  have hs1 : (gather_S16x32768_S4194304x16x2_S4194304x16_n_01_n_n_01_2_11).start (ix2 r p) idx 1 = min (idx (ix3 r p 1)).toInt.toNat (32768 - 1) := by
    unfold GatherDims.start
    have hm : (1 : Fin 2) ∈ (gather_S16x32768_S4194304x16x2_S4194304x16_n_01_n_n_01_2_11).startIndexMap := by simp [gather_S16x32768_S4194304x16x2_S4194304x16_n_01_n_n_01_2_11]
    rw [dif_pos hm]
    have hsi : (gather_S16x32768_S4194304x16x2_S4194304x16_n_01_n_n_01_2_11).siIdx (ix2 r p) ⟨List.idxOf (1 : Fin 2) (gather_S16x32768_S4194304x16x2_S4194304x16_n_01_n_n_01_2_11).startIndexMap,
        List.idxOf_lt_length_iff.2 hm⟩ = ix3 r p 1 := by
      funext b; refine Fin.ext ?_
      match b with
      | ⟨0, _⟩ => rfl
      | ⟨1, _⟩ => rfl
      | ⟨2, _⟩ => rfl
    rw [hsi]; rfl
  -- the operand index is, per axis, start + batching coordinate + offset coordinate; the last two vanish
  unfold Host.gather
  refine congrArg t (funext fun a => Fin.ext ?_)
  show GatherDims.start _ _ _ a + GatherDims.batchCoord _ _ a + GatherDims.offCoord _ _ a = _
  rw [GatherDims.batchCoord_eq_zero _ _ _ List.not_mem_nil,
    GatherDims.offCoord_eq_zero _ _ _ (fun h => ((GatherDims.mem_sKept _ _).mp h).1 (hcoll a))]
  simp only [Nat.add_zero]
  -- in range, the clamp is the identity and the signed reading the natural one
  match a with
  | ⟨0, _⟩ => exact hs0.trans (hclamp _ 16 (by norm_num) h0)
  | ⟨1, _⟩ => exact hs1.trans (hclamp _ 32768 (by norm_num) h1)

end Cert.ReferenceIdeal.Hand

end
-- ==== Proof.RWts.lean ====
/- The square-and-multiply chain leaves the place value 2^j in lane j. -/
import proofs.«410118_j27668179321271_3_alg».proof.Proof.RTerm
import Idealize.ShloMosaic.Lib.ValueIdx

noncomputable section

namespace Cert.ReferenceIdeal.Hand

open Cert.ReferenceIdeal
open Idealize.ShloMosaic Idealize.ShloMosaic.ValueIdx Idealize.SL.Sem

/-- Lane j of the chain holds the word 2^j.

    Every lane is a closed word: the lane number j enters only through the iota, and each operation of the
    chain reads its operands at the same lane (a broadcast scalar reads its one value).  The accumulator starts
    at 1 on every lane (the guard "2 = 0 and lane ≠ 0" is false).  Stage k = 0 … 5 multiplies the accumulator by
    the scalar base 2^(2^k) (2, 4, 16, 256, 65536, and 2^32 = 0 as a 32-bit word) exactly on the lanes whose
    bit k is set, so after stage k lane j holds 2^(j mod 2^(k+1)); no product on the way reaches 2^32, and the
    zero base is never chosen because bit 5 of a lane number below 16 is clear.  After the last stage lane j
    holds 2^(j mod 64) = 2^j.  The sixteen equalities between closed words hold by evaluation. -/
theorem wts_apply (j : Fin 16) : wts (ix1 j) = BitVec.ofNat 32 (2 ^ j.val) := by
  fin_cases j <;> rfl

end Cert.ReferenceIdeal.Hand

end
-- ==== Proof.RIdx.lean ====
/- The reference's address array, read at an index: position p of row r holds the word of the context address
   of the column that carries position p. -/
import proofs.«410118_j27668179321271_3_alg».proof.Proof.RLib
import proofs.«410118_j27668179321271_3_alg».proof.Proof.RWts
import proofs.«410118_j27668179321271_3_alg».proof.Proof.SpecArith
import Idealize.ShloMosaic.Lib.Pipeline.Value
import Idealize.ShloMosaic.Lib.ValueLayout

noncomputable section

open scoped BigOperators

namespace Cert.ReferenceIdeal.Hand

open Cert.ReferenceIdeal Cert.Spec
open Idealize.ShloMosaic Idealize.ShloMosaic.ValueIdx Idealize.SL.Sem
open Cert.ReferenceIdeal.Facts₀ Cert.ReferenceIdeal.Facts

namespace RIdx

/-- The broadcast place values: every row holds 2^q in column q. -/
theorem v57_apply (r : Fin 4194304) (q : Fin 16) : r_v57 (ix2 r q) = BitVec.ofNat 32 (2 ^ q.val) := by
  unfold r_v57
  rw [broadcastInDim_apply _ _ _ (ix2 r q) (ix2 (0 : Fin 1) q) (fun a => by
    match a with
    | ⟨0, _⟩ => rfl
    | ⟨1, _⟩ => rfl)]
  unfold r_v56
  rw [broadcastInDim_apply _ _ _ (ix2 (0 : Fin 1) q) (ix1 q) (fun a => by
    match a with
    | ⟨0, _⟩ => rfl)]
  exact wts_apply q

/-- The weighted, reversed digits: position q of row r holds digit 15 − q times 2^q, as a word. -/
theorem v58_apply (bits : IVec S4194304x16 32) (r : Fin 4194304) (q : Fin 16) :
    r_v58 bits (ix2 r q) = bits (ix2 r ⟨15 - q.val, by omega⟩) * BitVec.ofNat 32 (2 ^ q.val) := by
  show IntOp.muli (r_v0 bits (ix2 r q)) (r_v57 (ix2 r q)) = _
  rw [v57_apply]
  unfold r_v0
  rw [reverse_apply]
  rfl

/-- A digit 0 or 1 times 2^q with q < 16 does not wrap: the word is the word of the natural product. -/
theorem v58_word (bits : IVec S4194304x16 32) (hb : IsBit bits) (r : Fin 4194304) (q : Fin 16) :
    r_v58 bits (ix2 r q) = BitVec.ofNat 32 ((bits (ix2 r ⟨15 - q.val, by omega⟩)).toNat * 2 ^ q.val) := by
  rw [v58_apply]
  rcases hb (ix2 r ⟨15 - q.val, by omega⟩) with e | e <;> rw [e] <;> simp

/-- … and read back as a natural number it is that product. -/
theorem v58_toNat (bits : IVec S4194304x16 32) (hb : IsBit bits) (r : Fin 4194304) (q : Fin 16) :
    (r_v58 bits (ix2 r q)).toNat = (bits (ix2 r ⟨15 - q.val, by omega⟩)).toNat * 2 ^ q.val := by
  rw [v58_apply]
  have hq : 2 ^ q.val < 2 ^ 32 := Nat.pow_lt_pow_right (by norm_num) (by omega)
  rcases hb (ix2 r ⟨15 - q.val, by omega⟩) with e | e <;> rw [e]
  · simp
  · rw [BitVec.one_mul, BitVec.toNat_ofNat, Nat.mod_eq_of_lt hq]; simp

/-- An inclusive prefix sum is the exclusive one plus the last term. -/
theorem sum_le_split (f : Fin 16 → ℕ) (p : Fin 16) :
    (∑ q : Fin 16, if q ≤ p then f q else 0) = (∑ q : Fin 16, if q < p then f q else 0) + f p := by
  have h : ∀ q : Fin 16, (if q ≤ p then f q else 0) = (if q < p then f q else 0) + (if q = p then f q else 0) := by
    intro q
    rcases lt_trichotomy q p with h | h | h
    · rw [if_pos (le_of_lt h), if_pos h, if_neg (ne_of_lt h), Nat.add_zero]
    · subst h; rw [if_pos (le_refl _), if_neg (lt_irrefl _), if_pos rfl, Nat.zero_add]
    · rw [if_neg (not_le.mpr h), if_neg (not_lt.mpr (le_of_lt h)), if_neg (ne_of_gt h)]
  simp only [h, Finset.sum_add_distrib, Finset.sum_ite_eq', Finset.mem_univ, if_true]

end RIdx

/-- The exclusive prefix sum of the weighted, reversed digits: at position p (counted from the least significant
    digit) it is the word of the number spelt by the positions below p, which is the context address of the
    column 15 − p. -/
theorem r_v60_apply (bits : IVec S4194304x16 32) (hb : IsBit bits) (r : Fin 4194304) (p : Fin 16) :
    r_v60 bits (ix2 r p) = BitVec.ofNat 32 (addr (row bits r) ⟨15 - p.val, by omega⟩) := by
  -- the cumulative sum's initial value is the zero word
  have hinit : r_call7_call0_v0 ix0 = 0#32 := by
    unfold r_call7_call0_v0 r_call7_call0_c
    rw [broadcastInDim_apply _ _ _ ix0 ix0 (fun a => a.elim0)]
    rfl
  -- the inclusive sum at p, as a word of a sum of naturals
  have h59 : r_v59 bits (ix2 r p)
      = BitVec.ofNat 32 (∑ q : Fin 16, if q ≤ p then (r_v58 bits (ix2 r q)).toNat else 0) :=
    cumsum_apply (r_v58 bits) r_call7_call0_v0 hinit r p
  show IntOp.subi (r_v59 bits (ix2 r p)) (r_v58 bits (ix2 r p)) = _
  rw [h59, RIdx.v58_word bits hb r p]
  simp only [RIdx.v58_toNat bits hb]
  rw [RIdx.sum_le_split (fun q : Fin 16 => (bits (ix2 r ⟨15 - q.val, by omega⟩)).toNat * 2 ^ q.val) p,
    BitVec.ofNat_add, addr_prefix]
  exact BitVec.add_sub_cancel _ _

end Cert.ReferenceIdeal.Hand

end
-- ==== Proof.RMath.lean ====
/- The reference's result, read at an index, is `Spec.G`. -/
import proofs.«410118_j27668179321271_3_alg».proof.Proof.RIdx
import proofs.«410118_j27668179321271_3_alg».proof.Proof.RWts
import proofs.«410118_j27668179321271_3_alg».proof.Proof.Spec
import proofs.«410118_j27668179321271_3_alg».proof.Proof.SpecArith
import Idealize.ShloMosaic.Lib.Pipeline.Value
import Idealize.ShloMosaic.Lib.ValueLayout

noncomputable section

namespace Cert.ReferenceIdeal.Hand

open Cert.ReferenceIdeal Cert.Spec
open Idealize.ShloMosaic Idealize.ShloMosaic.ValueIdx Idealize.SL.Sem
open Cert.ReferenceIdeal.Facts₀ Cert.ReferenceIdeal.Facts

namespace RMath

/-! ## The layout operations at an index -/

/-- Sixteen lanes laid out as a 1 × 16 array: entry (0, q) is lane q. -/
theorem bc_lane_apply {α : Type} (h : S16.BroadcastsInDim S1x16 (![1] : Fin 1 → Fin S1x16.rank)) (x : S16.Idx → α) (q : Fin 16) :
    broadcastInDim S1x16 ![1] h x (ix2 (0 : Fin 1) q) = x (ix1 q) := by
  unfold broadcastInDim
  refine congrArg x (funext fun a => ?_)
  match a with
  | ⟨0, _⟩ => rfl

/-- A 1 × 16 array repeated along the rows: entry (r, q) is entry (0, q). -/
theorem bc_rows_apply {α : Type} (h : S1x16.BroadcastsInDim S4194304x16 (![0, 1] : Fin 2 → Fin S4194304x16.rank)) (x : S1x16.Idx → α)
    (r : Fin 4194304) (q : Fin 16) :
    broadcastInDim S4194304x16 ![0, 1] h x (ix2 r q) = x (ix2 (0 : Fin 1) q) := by
  unfold broadcastInDim
  refine congrArg x (funext fun a => ?_)
  match a with
  | ⟨0, _⟩ => rfl
  | ⟨1, _⟩ => rfl

/-- An array given a trailing axis of one element: entry (r, q, 0) is entry (r, q). -/
theorem bc_unit_apply {α : Type} (h : S4194304x16.BroadcastsInDim S4194304x16x1 (![0, 1] : Fin 2 → Fin S4194304x16x1.rank))
    (x : S4194304x16.Idx → α) (r : Fin 4194304) (q : Fin 16) :
    broadcastInDim S4194304x16x1 ![0, 1] h x (ix3 r q (0 : Fin 1)) = x (ix2 r q) := by
  unfold broadcastInDim
  refine congrArg x (funext fun a => ?_)
  match a with
  | ⟨0, _⟩ => rfl
  | ⟨1, _⟩ => rfl

/-- Two one-element columns joined along the last axis: position 0 is the first column. -/
theorem cat_apply_0 {α : Type} (h : Shape.Concatenates [S4194304x16x1, S4194304x16x1] S4194304x16x2 2)
    (x₁ x₂ : S4194304x16x1.Idx → α) (r : Fin 4194304) (q : Fin 16) :
    concatenate S4194304x16x2 2 [⟨S4194304x16x1, x₁⟩, ⟨S4194304x16x1, x₂⟩] h (ix3 r q (0 : Fin 2)) = x₁ (ix3 r q (0 : Fin 1)) := by
  refine concatenate_pair_apply_left (t := S4194304x16x2) (2 : Fin 3) x₁ x₂ h _ rfl _ ?_
  intro b
  match b with
  | ⟨0, _⟩ => rfl
  | ⟨1, _⟩ => rfl
  | ⟨2, _⟩ => rfl

/-- Two one-element columns joined along the last axis: position 1 is the second column. -/
theorem cat_apply_1 {α : Type} (h : Shape.Concatenates [S4194304x16x1, S4194304x16x1] S4194304x16x2 2)
    (x₁ x₂ : S4194304x16x1.Idx → α) (r : Fin 4194304) (q : Fin 16) :
    concatenate S4194304x16x2 2 [⟨S4194304x16x1, x₁⟩, ⟨S4194304x16x1, x₂⟩] h (ix3 r q (1 : Fin 2)) = x₂ (ix3 r q (0 : Fin 1)) := by
  refine concatenate_pair_apply_right (t := S4194304x16x2) (2 : Fin 3) x₁ x₂ h _ rfl rfl _ ?_ ?_
  · intro b hb
    match b with
    | ⟨0, _⟩ => rfl
    | ⟨1, _⟩ => rfl
    | ⟨2, _⟩ => exact absurd rfl hb
  · rfl

/-! ## Words -/

/-- A word below 2^31 is not negative when read signed, so the select that adds the extent to negative indices keeps it. -/
theorem select_nonneg (n : ℕ) (hn : n < 2 ^ 31) (y : BitVec 32) :
    Scalar.select (IntOp.cmpi .slt (BitVec.ofNat 32 n) 0#32) y (BitVec.ofNat 32 n) = BitVec.ofNat 32 n := by
  have hs : (BitVec.ofNat 32 n).slt 0#32 = false := by
    rw [BitVec.slt_zero_eq_msb, BitVec.msb_eq_decide, BitVec.toNat_ofNat, Nat.mod_eq_of_lt (by omega)]
    exact decide_eq_false (by omega)
  unfold IntOp.cmpi
  simp only [hs]
  exact select_zero _ _

/-- A word of a natural number below 2^31 has that number as its value. -/
theorem toNat_ofNat_small (n : ℕ) (hn : n < 2 ^ 31) : (BitVec.ofNat 32 n).toNat = n := by
  rw [BitVec.toNat_ofNat]; exact Nat.mod_eq_of_lt (by omega)

/-- A table entry named by equal naturals is the same entry. -/
theorem tab_congr {α : Type} (t : S16x32768.Idx → α) {a a' b b' : ℕ} (ha : a = a') (hb : b = b')
    (h1 : a % 16 < 16) (h2 : b % 32768 < 32768) (h3 : a' % 16 < 16) (h4 : b' % 32768 < 32768) :
    t (ix2 (⟨a % 16, h1⟩ : Fin 16) (⟨b % 32768, h2⟩ : Fin 32768)) = t (ix2 (⟨a' % 16, h3⟩ : Fin 16) (⟨b' % 32768, h4⟩ : Fin 32768)) := by
  subst ha; subst hb; rfl

/-! ## The reference's stages after the address array, at an index -/

/-- The digits least significant first: column q holds the digit of column 15 − q. -/
theorem v0_apply (a0 : IVec S4194304x16 32) (r : Fin 4194304) (q : Fin 16) :
    r_v0 a0 (ix2 r q) = a0 (ix2 r ⟨15 - q.val, by omega⟩) := reverse_apply a0 r q

/-- The address is below 2^15, so not negative read signed: the normalisation of negative indices keeps it. -/
theorem v72_apply (a0 : IVec S4194304x16 32) (hb : IsBit a0) (r : Fin 4194304) (p : Fin 16) :
    r_v72 a0 (ix2 r p) = BitVec.ofNat 32 (addr (row a0 r) ⟨15 - p.val, by omega⟩) := by
  show Scalar.select (IntOp.cmpi .slt (r_v60 a0 (ix2 r p)) (r_v68 (ix2 r p))) (r_v71 a0 (ix2 r p)) (r_v60 a0 (ix2 r p)) = _
  have h68 : r_v68 (ix2 r p) = 0#32 := rfl
  rw [r_v60_apply a0 hb, h68]
  have hlt := addr_bound (row a0 r) (fun c => hb (ix2 r c)) ⟨15 - p.val, by omega⟩
  have hle : 2 ^ (15 - (⟨15 - p.val, by omega⟩ : Fin 16).val) ≤ 2 ^ 15 := Nat.pow_le_pow_right (by norm_num) (by omega)
  exact select_nonneg _ (by omega) _

/-- The position column: lane q holds q, which is not negative, so its normalisation keeps it. -/
theorem v67_apply (q : Fin 16) : r_v67 (ix2 (0 : Fin 1) q) = BitVec.ofNat 32 q.val := by
  show Scalar.select (IntOp.cmpi .slt (r_v62 (ix2 0 q)) (r_v63 (ix2 0 q))) (r_v66 (ix2 0 q)) (r_v62 (ix2 0 q)) = _
  have h62 : r_v62 (ix2 (0 : Fin 1) q) = BitVec.ofNat 32 q.val := by
    unfold r_v62; rw [bc_lane_apply]; rfl
  have h63 : r_v63 (ix2 (0 : Fin 1) q) = 0#32 := rfl
  rw [h62, h63]
  exact select_nonneg _ (by have := q.isLt; omega) _

/-- The first component of the start index at (r, p) is the position p. -/
theorem v76_apply_0 (a0 : IVec S4194304x16 32) (r : Fin 4194304) (p : Fin 16) :
    r_v76 a0 (ix3 r p (0 : Fin 2)) = BitVec.ofNat 32 p.val := by
  refine (cat_apply_0 concatenates_S4194304x16x1_S4194304x16x1_S4194304x16x2_d2 r_v74 (r_v75 a0) r p).trans ?_
  unfold r_v74 r_v73
  rw [bc_unit_apply, bc_rows_apply, v67_apply]

/-- The second component of the start index at (r, p) is the context address. -/
theorem v76_apply_1 (a0 : IVec S4194304x16 32) (hb : IsBit a0) (r : Fin 4194304) (p : Fin 16) :
    r_v76 a0 (ix3 r p (1 : Fin 2)) = BitVec.ofNat 32 (addr (row a0 r) ⟨15 - p.val, by omega⟩) := by
  refine (cat_apply_1 concatenates_S4194304x16x1_S4194304x16x1_S4194304x16x2_d2 r_v74 (r_v75 a0) r p).trans ?_
  unfold r_v75
  rw [bc_unit_apply, v72_apply a0 hb]

/-- The gathered value at (r, p): table row p at the context address; both start components are in range, the
    position below 16 and the address below 2^15. -/
theorem v77_apply (a0 : IVec S4194304x16 32) (a1 : FVec Ideal S16x32768 .f32) (hb : IsBit a0) (r : Fin 4194304) (p : Fin 16) :
    r_v77 (F := Ideal) a0 a1 (ix2 r p) = tab a1 p.val (addr (row a0 r) ⟨15 - p.val, by omega⟩) := by
  have hlt := addr_bound (row a0 r) (fun c => hb (ix2 r c)) ⟨15 - p.val, by omega⟩
  have hle : 2 ^ (15 - (⟨15 - p.val, by omega⟩ : Fin 16).val) ≤ 2 ^ 15 := Nat.pow_le_pow_right (by norm_num) (by omega)
  have e0 : (r_v76 a0 (ix3 r p (0 : Fin 2))).toNat = p.val := by
    rw [v76_apply_0]; exact toNat_ofNat_small _ (by have := p.isLt; omega)
  have e1 : (r_v76 a0 (ix3 r p (1 : Fin 2))).toNat = addr (row a0 r) ⟨15 - p.val, by omega⟩ := by
    rw [v76_apply_1 a0 hb]; exact toNat_ofNat_small _ (by omega)
  refine (gather_apply a1 (r_v76 a0) r p (by rw [e0]; exact p.isLt) (by rw [e1]; omega)).trans ?_
  exact tab_congr a1 e0 e1 _ _ _ _

end RMath

open RMath

theorem refOut_eq (bits : IVec S4194304x16 32) (t : FVec Ideal S16x32768 .f32) (hb : IsBit bits) :
    refOut (F := Ideal) bits t = G bits t := by
  funext i
  obtain ⟨r, c, rfl⟩ : ∃ (r : Fin 4194304) (c : Fin 16), i = ix2 r c := ⟨i 0, i 1, eq_ix2 i⟩
  have hp : 15 - c.val < 16 := by omega
  -- the outer reversal sends column c to position 15 − c
  have e1 : refOut (F := Ideal) bits t (ix2 r c) = r_v83 (F := Ideal) bits t (ix2 r ⟨15 - c.val, hp⟩) :=
    reverse_apply (r_v83 (F := Ideal) bits t) r c
  -- there the value is b + f − (2·b)·f, b the digit as a real and f the gathered table value
  have e2 : r_v83 (F := Ideal) bits t (ix2 r ⟨15 - c.val, hp⟩)
      = flip (r_v0 bits (ix2 r ⟨15 - c.val, hp⟩)) (r_v77 (F := Ideal) bits t (ix2 r ⟨15 - c.val, hp⟩)) := rfl
  -- position 15 − c is carried by column 15 − (15 − c) = c
  have hc : (⟨15 - (⟨15 - c.val, hp⟩ : Fin 16).val, by omega⟩ : Fin 16) = c := Fin.ext (by show 15 - (15 - c.val) = c.val; omega)
  rw [e1, e2, v0_apply, v77_apply bits t hb, hc]
  rfl

end Cert.ReferenceIdeal.Hand

end
-- ==== Proof.RValue.lean ====
/- The reference's result buffer after its operations is `Spec.G` of the arguments. -/
import proofs.«410118_j27668179321271_3_alg».proof.Proof.RRead
import proofs.«410118_j27668179321271_3_alg».proof.Proof.RMath

noncomputable section

namespace Cert.ReferenceIdeal.Hand

open Cert.ReferenceIdeal Cert.Spec
open Idealize.ShloMosaic Idealize.ShloMosaic.TcCoe Idealize.SL.Sem Idealize.ShloMosaic.StableHlo

theorem out_eq (V : Valuation τ sig (Elt Ideal)) (hb : IsBit (V (main_arg0 : DevRef τ sig))) :
    after ops V (main_v84 : DevRef τ sig) = G (V (main_arg0 : DevRef τ sig)) (V (main_arg1 : DevRef τ sig)) :=
  (out_term V).trans (refOut_eq _ _ hb)

end Cert.ReferenceIdeal.Hand

end
-- ==== Proof.PreBits.lean ====
/- The precondition says every digit is the word 0 or the word 1. -/
import proofs.«410118_j27668179321271_3_alg».proof.Pre_finite_inputs
import proofs.«410118_j27668179321271_3_alg».proof.Proof.Gen.Pre_finite_inputs
import proofs.«410118_j27668179321271_3_alg».proof.Proof.Spec
import Idealize.ShloMosaic.Lib.ReduceAll
import Idealize.ShloMosaic.Lib.StableHlo.Predicate

noncomputable section

namespace Cert.PreBits

open Cert.Spec Idealize.ShloMosaic Idealize.ShloMosaic.ValueIdx

/-- A word that reads, as a signed integer, between the words 0 and 1 is one of those two words:
    the signed reading is injective, and the only integers in that range are 0 and 1. -/
theorem word_of_range (x : BitVec 32) (h0 : (0#32 : BitVec 32).toInt ≤ x.toInt)
    (h1 : x.toInt ≤ (1#32 : BitVec 32).toInt) : x = 0#32 ∨ x = 1#32 := by
  have e0 : (0#32 : BitVec 32).toInt = 0 := by decide
  have e1 : (1#32 : BitVec 32).toInt = 1 := by decide
  rw [e0] at h0; rw [e1] at h1
  rcases (by omega : x.toInt = 0 ∨ x.toInt = 1) with hx | hx
  · exact Or.inl (BitVec.eq_of_toInt_eq (by rw [hx, e0]))
  · exact Or.inr (BitVec.eq_of_toInt_eq (by rw [hx, e1]))

theorem isBit_of_pre {F : FTy → Type} [FloatOps F] (bits : IVec Cert.Pre_finite_inputs.S4194304x16 32)
    (tables : FVec F Cert.Pre_finite_inputs.S16x32768 .f32)
    (h : Cert.Pre_finite_inputs.fn (F := F) bits tables = fun _ => 1#1) : IsBit bits := by
  -- the result shape has rank 0, hence exactly one index
  haveI : Subsingleton Cert.Pre_finite_inputs.S_.Idx := ⟨fun a b => funext fun d => d.elim0⟩
  intro i
  have h0 := congrFun h ValueIdx.ix0
  dsimp only [Cert.Pre_finite_inputs.fn] at h0
  -- the result is the conjunction of two reductions; only the one over the digits is needed
  obtain ⟨-, hb⟩ := IntOp.andi_eq_one.1 (show IntOp.andi _ _ = 1#1 from h0)
  -- a reduction by "and" over every axis that came out 1 met a 1 at every index
  have hi := Host.reduce_andi_all _ _ _ _ _ hb i
  -- at index i that entry is the conjunction of the signed comparisons 0 ≤ bits i and bits i ≤ 1,
  -- the literals being scalars broadcast to every index
  obtain ⟨hge, hle⟩ := IntOp.andi_eq_one.1 (show IntOp.andi _ _ = 1#1 from hi)
  exact word_of_range (bits i) (IntOp.cmpi_sge.1 hge) (IntOp.cmpi_sle.1 hle)

end Cert.PreBits

end
-- ==== Proof.lean ====
/- Equivalence over the extended reals of a bit-context look-up kernel and its jnp reference, for digit arrays
   whose entries are 0 or 1.

   Both programs send a row of sixteen binary digits, most significant first, to sixteen results: the result
   in column c is the digit there combined, by the arithmetic form of exclusive-or, with the entry of table row
   15 − c at the number spelt by the digits to the right of c (`Spec.G`).  The reference forms that address by a
   cumulative sum of weighted digits and reads the table with a gather.  The kernel packs the table rows into a
   256 × 384 matrix on the host, selects a row of it by a one-hot product at the low eight digits of the address,
   and picks the column by a second one-hot over the high digits; with digits in {0, 1} the low and high parts
   recombine to the same address, so the two look-ups read the same table entry.

   The three frames need no precondition: the kernel body indexes nothing by data, and the reference is a
   straight line of host operations.  The algebraic claim uses the precondition only for the digits' range. -/
import proofs.«410118_j27668179321271_3_alg».proof.Defs
import proofs.«410118_j27668179321271_3_alg».proof.Proof.FrameB
import proofs.«410118_j27668179321271_3_alg».proof.Proof.KValue
import proofs.«410118_j27668179321271_3_alg».proof.Proof.RValue
import proofs.«410118_j27668179321271_3_alg».proof.Proof.PreBits
import proofs.«410118_j27668179321271_3_alg».proof.Proof.Gen.Kernel
import proofs.«410118_j27668179321271_3_alg».proof.Proof.Gen.KernelIdeal
import proofs.«410118_j27668179321271_3_alg».proof.Proof.Gen.ReferenceIdeal
import proofs.«410118_j27668179321271_3_alg».proof.Proof.Gen.Pre_finite_inputs
import Idealize.ShloMosaic.Adequacy
import Idealize.ShloMosaic.Init

noncomputable section

namespace Cert.Proof

open Idealize.ShloMosaic Idealize.ShloMosaic.TcCoe Idealize.SL.Sem Idealize.ShloMosaic.StableHlo

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  fun m ρ _ => (θ_run Cert.ReferenceIdeal.defs _ _).mono
    (fun _ h c => ⟨(h c Cert.ReferenceIdeal.main_arg0).trans (Cert.ReferenceIdeal.Hand.arg0_eq _),
      (h c Cert.ReferenceIdeal.main_arg1).trans (Cert.ReferenceIdeal.Hand.arg1_eq _)⟩)
    (Cert.ReferenceIdeal.Hand.run_main (F := Ideal) m ρ),
  trivial,
  fun m ρ m' ρ' hpre hagree =>
    have hb : ∀ c : Dev Cert.KernelIdeal.nD, Cert.Spec.IsBit (m ((c.tc : Thread Cert.KernelIdeal.nD Cert.KernelIdeal.τ).loc Cert.KernelIdeal.main_arg0)) :=
      fun c => Cert.PreBits.isBit_of_pre _ _ (hpre c)
    ⟨fun c => Cert.Spec.G (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      Cert.KernelIdeal.Hand.value_run m ρ hb,
      (θ_run Cert.ReferenceIdeal.defs _ _).mono
        (fun _ h c => ⟨by
            have hb' : Cert.Spec.IsBit (launchContents m' c (Cert.ReferenceIdeal.main_arg0 : DevRef Cert.ReferenceIdeal.τ Cert.ReferenceIdeal.sig)) := by
              show Cert.Spec.IsBit (m' ((c.tc : Thread Cert.ReferenceIdeal.nD Cert.ReferenceIdeal.τ).loc Cert.ReferenceIdeal.main_arg0))
              rw [(hagree c).1]; exact hb c
            rw [h c Cert.ReferenceIdeal.main_v84, Cert.ReferenceIdeal.Hand.out_eq _ hb']
            show Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1)) = _
            rw [(hagree c).1, (hagree c).2],
          (h c Cert.ReferenceIdeal.main_arg0).trans (Cert.ReferenceIdeal.Hand.arg0_eq _),
          (h c Cert.ReferenceIdeal.main_arg1).trans (Cert.ReferenceIdeal.Hand.arg1_eq _)⟩)
        (Cert.ReferenceIdeal.Hand.run_main (F := Ideal) m' ρ')⟩⟩

end Cert.Proof

end
